-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S75000x64 : Shape := ⟨2, ![75000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1x1200000 : Shape := ⟨2, ![1, 1200000]⟩

class Facts : Prop where
  bcast_S_S75000x64 : S_.BroadcastsInDim S75000x64 (![] : Fin 0 → Fin S75000x64.rank)
  reducesTo_S75000x64_S_d0_1 : S75000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x1200000_S1x1200000_0_0 : S2x1200000.Slices ![0, 0] S1x1200000
  bcast_S_S1x1200000 : S_.BroadcastsInDim S1x1200000 (![] : Fin 0 → Fin S1x1200000.rank)
  reducesTo_S1x1200000_S_d0_1 : S1x1200000.ReducesTo [0, 1] S_

variable [Facts]

def fn_part1 {F : FTy → Type} [FloatOps F] (main_arg1 : IVec S2x1200000 32) (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : IVec S1x1200000 32 := (extractStridedSlice S1x1200000 ![0, 0] · slices_S2x1200000_S1x1200000_0_0) main_arg1
  let main_c_8 : IVec S_ 32 := constantI S_ 32 4294892296#32
  let main_v25 : IVec S1x1200000 32 := broadcastInDim S1x1200000 ![] bcast_S_S1x1200000 main_c_8
  let main_v26 : IVec S1x1200000 1 := cmpi .sge main_v24 main_v25
  let main_v27 : IVec S1x1200000 32 := (extractStridedSlice S1x1200000 ![0, 0] · slices_S2x1200000_S1x1200000_0_0) main_arg1
  let main_c_9 : IVec S_ 32 := constantI S_ 32 75000#32
  let main_v28 : IVec S1x1200000 32 := broadcastInDim S1x1200000 ![] bcast_S_S1x1200000 main_c_9
  let main_v29 : IVec S1x1200000 1 := cmpi .slt main_v27 main_v28
  let main_v30 : IVec S1x1200000 1 := andi main_v26 main_v29
  let main_c_10 : IVec S_ 1 := constantI S_ 1 1#1
  let main_v31 : IVec S_ 1 := (fun x v => Host.reduce IntOp.andi x v reducesTo_S1x1200000_S_d0_1 h_S_) main_v30 main_c_10
  let main_v32 : IVec S_ 1 := andi main_v23 main_v31
  main_v32

def fn {F : FTy → Type} [FloatOps F] (main_arg0 : FVec F S75000x64 .f32) (main_arg1 : IVec S2x1200000 32) (main_arg2 : FVec F S64x64 .f32) (main_arg3 : FVec F S64 .f32) (main_arg4 : FVec F S64x16 .f32) (main_arg5 : FVec F S16 .f32) : IVec S_ 1 :=
  let main_v0 : FVec F S75000x64 .f32 := Host.absf main_arg0
  let main_cst : FVec F S_ .f32 := constant S_ .f32 0x7F800000#32
  let main_v1 : FVec F S75000x64 .f32 := broadcastInDim S75000x64 ![] bcast_S_S75000x64 main_cst
  let main_v2 : IVec S75000x64 1 := cmpf .olt main_v0 main_v1
  let main_c : IVec S_ 1 := constantI S_ 1 1#1
  let main_v3 : IVec S_ 1 := (fun x v => Host.reduce IntOp.andi x v reducesTo_S75000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_v13 main_v16
-- ==== Kernel.lean ====
abbrev S75000x64 : Shape := ⟨2, ![75000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1200000 : Shape := ⟨2, ![1, 1200000]⟩
abbrev S1200000 : Shape := ⟨1, ![1200000]⟩
abbrev S75000 : Shape := ⟨1, ![75000]⟩
abbrev S1275000 : Shape := ⟨1, ![1275000]⟩
abbrev S_ : Shape := ⟨0, ![]⟩
abbrev S1275000x1 : Shape := ⟨2, ![1275000, 1]⟩
abbrev S1277952 : Shape := ⟨1, ![1277952]⟩
abbrev S1277952x1 : Shape := ⟨2, ![1277952, 1]⟩
abbrev S1 : Shape := ⟨1, ![1]⟩
abbrev S1x1 : Shape := ⟨2, ![1, 1]⟩
abbrev S1277952x64 : Shape := ⟨2, ![1277952, 64]⟩
abbrev S2x76800x64 : Shape := ⟨3, ![2, 76800, 64]⟩
abbrev S4096x64 : Shape := ⟨2, ![4096, 64]⟩
abbrev S4096 : Shape := ⟨1, ![4096]⟩
abbrev S1x3072x64 : Shape := ⟨3, ![1, 3072, 64]⟩
abbrev S3072x64 : Shape := ⟨2, ![3072, 64]⟩
abbrev S1x4096 : Shape := ⟨2, ![1, 4096]⟩
abbrev S3072x1 : Shape := ⟨2, ![3072, 1]⟩
abbrev S3072x4096 : Shape := ⟨2, ![3072, 4096]⟩
abbrev S1x75000x64 : Shape := ⟨3, ![1, 75000, 64]⟩
abbrev S1x64 : Shape := ⟨2, ![1, 64]⟩
abbrev S75000x16 : Shape := ⟨2, ![75000, 16]⟩
abbrev S1277952x16 : Shape := ⟨2, ![1277952, 16]⟩
abbrev S2x76800x16 : Shape := ⟨3, ![2, 76800, 16]⟩
abbrev S4096x16 : Shape := ⟨2, ![4096, 16]⟩
abbrev S1x3072x16 : Shape := ⟨3, ![1, 3072, 16]⟩
abbrev S3072x16 : Shape := ⟨2, ![3072, 16]⟩
abbrev S1x75000x16 : Shape := ⟨3, ![1, 75000, 16]⟩
abbrev S1x16 : Shape := ⟨2, ![1, 16]⟩

abbrev nBuf : Space → Nat
  | .hbm => 139
  | .vmem => 12
  | .smem => 0
  | _ => 0

abbrev hbmTy0_0 (i : Nat) : BufTy := match i % 128 with
  | 0 => ⟨S75000x64, .f32⟩
  | 1 => ⟨S2x1200000, .i32⟩
  | 2 => ⟨S64x64, .f32⟩
  | 3 => ⟨S64, .f32⟩
  | 4 => ⟨S64x16, .f32⟩
  | 5 => ⟨S16, .f32⟩
  | 6 => ⟨S1x1200000, .i32⟩
  | 7 => ⟨S1200000, .i32⟩
  | 8 => ⟨S1x1200000, .i32⟩
  | 9 => ⟨S1200000, .i32⟩
  | 10 => ⟨S75000, .i32⟩
  | 11 => ⟨S1275000, .i32⟩
  | 12 => ⟨S1275000, .i32⟩
  | 13 => ⟨S_, .f32⟩
  | 14 => ⟨S75000, .f32⟩
  | 15 => ⟨S_, .i32⟩
  | 16 => ⟨S1275000, .i32⟩
  | 17 => ⟨S1275000, .i1⟩
  | 18 => ⟨S_, .i32⟩
  | 19 => ⟨S1275000, .i32⟩
  | 20 => ⟨S1275000, .i32⟩
  | 21 => ⟨S1275000, .i32⟩
  | 22 => ⟨S1275000x1, .i32⟩
  | 23 => ⟨S_, .f32⟩
  | 24 => ⟨S1275000, .f32⟩
  | 25 => ⟨S75000, .f32⟩
  | 26 => ⟨S_, .f32⟩
  | 27 => ⟨S75000, .f32⟩
  | 28 => ⟨S75000, .i1⟩
  | 29 => ⟨S75000, .f32⟩
  | 30 => ⟨S_, .f32⟩
  | 31 => ⟨S_, .f32⟩
  | 32 => ⟨S75000, .f32⟩
  | 33 => ⟨S75000, .f32⟩
  | 34 => ⟨S_, .i32⟩
  | 35 => ⟨S1275000, .i32⟩
  | 36 => ⟨S1275000, .i1⟩
  | 37 => ⟨S_, .i32⟩
  | 38 => ⟨S1275000, .i32⟩
  | 39 => ⟨S1275000, .i32⟩
  | 40 => ⟨S1275000, .i32⟩
  | 41 => ⟨S1275000x1, .i32⟩
  | 42 => ⟨S1275000, .f32⟩
  | 43 => ⟨S_, .i32⟩
  | 44 => ⟨S1275000, .i32⟩
  | 45 => ⟨S1275000, .i1⟩
  | 46 => ⟨S_, .i32⟩
  | 47 => ⟨S1275000, .i32⟩
  | 48 => ⟨S1275000, .i32⟩
  | 49 => ⟨S1275000, .i32⟩
  | 50 => ⟨S1275000x1, .i32⟩
  | 51 => ⟨S1275000, .f32⟩
  | 52 => ⟨S1275000, .f32⟩
  | 53 => ⟨S_, .i32⟩
  | 54 => ⟨S_, .i32⟩
  | 55 => ⟨S1277952, .i32⟩
  | 56 => ⟨S_, .i32⟩
  | 57 => ⟨S_, .i32⟩
  | 58 => ⟨S1277952, .i32⟩
  | 59 => ⟨S_, .f32⟩
  | 60 => ⟨S_, .f32⟩
  | 61 => ⟨S1277952, .f32⟩
  | 62 => ⟨S75000x64, .f32⟩
  | 63 => ⟨S_, .i32⟩
  | 64 => ⟨S1277952, .i32⟩
  | 65 => ⟨S1277952, .i1⟩
  | 66 => ⟨S_, .i32⟩
  | 67 => ⟨S1277952, .i32⟩
  | 68 => ⟨S1277952, .i32⟩
  | 69 => ⟨S1277952, .i32⟩
  | 70 => ⟨S1277952x1, .i32⟩
  | 71 => ⟨S1, .i32⟩
  | 72 => ⟨S_, .i32⟩
  | 73 => ⟨S1277952x1, .i32⟩
  | 74 => ⟨S1277952x1, .i1⟩
  | 75 => ⟨S1x1, .i32⟩
  | 76 => ⟨S1277952x1, .i32⟩
  | 77 => ⟨S1277952x1, .i1⟩
  | 78 => ⟨S1277952x1, .i1⟩
  | 79 => ⟨S_, .i1⟩
  | 80 => ⟨S1277952, .i1⟩
  | 81 => ⟨S1277952x64, .f32⟩
  | 82 => ⟨S1277952x64, .i1⟩
  | 83 => ⟨S_, .f32⟩
  | 84 => ⟨S1277952x64, .f32⟩
  | 85 => ⟨S1277952x64, .f32⟩
  | 86 => ⟨S1277952x1, .f32⟩
  | 87 => ⟨S1277952x64, .f32⟩
  | 88 => ⟨S1277952x64, .f32⟩
  | 89 => ⟨S1277952x64, .bf16⟩
  | 90 => ⟨S2x76800x64, .f32⟩
  | 91 => ⟨S1x75000x64, .f32⟩
  | 92 => ⟨S75000x64, .f32⟩
  | 93 => ⟨S1x75000x64, .f32⟩
  | 94 => ⟨S75000x64, .f32⟩
  | 95 => ⟨S75000x64, .f32⟩
  | 96 => ⟨S1x64, .f32⟩
  | 97 => ⟨S75000x64, .f32⟩
  | 98 => ⟨S75000x64, .f32⟩
  | 99 => ⟨S_, .f32⟩
  | 100 => ⟨S75000x64, .f32⟩
  | 101 => ⟨S75000x64, .f32⟩
  | 102 => ⟨S75000x16, .f32⟩
  | 103 => ⟨S_, .i32⟩
  | 104 => ⟨S1277952, .i32⟩
  | 105 => ⟨S1277952, .i1⟩
  | 106 => ⟨S_, .i32⟩
  | 107 => ⟨S1277952, .i32⟩
  | 108 => ⟨S1277952, .i32⟩
  | 109 => ⟨S1277952, .i32⟩
  | 110 => ⟨S1277952x1, .i32⟩
  | 111 => ⟨S1, .i32⟩
  | 112 => ⟨S_, .i32⟩
  | 113 => ⟨S1277952x1, .i32⟩
  | 114 => ⟨S1277952x1, .i1⟩
  | 115 => ⟨S1x1, .i32⟩
  | 116 => ⟨S1277952x1, .i32⟩
  | 117 => ⟨S1277952x1, .i1⟩
  | 118 => ⟨S1277952x1, .i1⟩
  | 119 => ⟨S_, .i1⟩
  | 120 => ⟨S1277952, .i1⟩
  | 121 => ⟨S1277952x16, .f32⟩
  | 122 => ⟨S1277952x16, .i1⟩
  | 123 => ⟨S_, .f32⟩
  | 124 => ⟨S1277952x16, .f32⟩
  | 125 => ⟨S1277952x16, .f32⟩
  | 126 => ⟨S1277952x1, .f32⟩
  | 127 => ⟨S1277952x16, .f32⟩
  | _ => ⟨S75000x64, .f32⟩

abbrev hbmTy0_1 (i : Nat) : BufTy := match i % 128 with
  | 0 => ⟨S1277952x16, .f32⟩
  | 1 => ⟨S1277952x16, .bf16⟩
  | 2 => ⟨S2x76800x16, .f32⟩
  | 3 => ⟨S1x75000x16, .f32⟩
  | 4 => ⟨S75000x16, .f32⟩
  | 5 => ⟨S1x75000x16, .f32⟩
  | 6 => ⟨S75000x16, .f32⟩
  | 7 => ⟨S75000x16, .f32⟩
  | 8 => ⟨S1x16, .f32⟩
  | 9 => ⟨S75000x16, .f32⟩
  | 10 => ⟨S75000x16, .f32⟩
  | _ => ⟨S75000x64, .f32⟩

abbrev hbmTy (i : Nat) : BufTy := match i / 128 with
  | 0 => hbmTy0_0 i
  | 1 => hbmTy0_1 i
  | _ => ⟨S75000x64, .f32⟩

abbrev bufTy : (tb : Table) → Fin (tcTables nBuf tb) → BufTy
  | .hbm, ⟨i, _⟩ => hbmTy i
  | .local _ .vmem, ⟨0, _⟩ => ⟨S4096x64, .bf16⟩
  | .local _ .vmem, ⟨1, _⟩ => ⟨S4096x64, .bf16⟩
  | .local _ .vmem, ⟨2, _⟩ => ⟨S4096, .i32⟩
  | .local _ .vmem, ⟨3, _⟩ => ⟨S4096, .i32⟩
  | .local _ .vmem, ⟨4, _⟩ => ⟨S1x3072x64, .f32⟩
  | .local _ .vmem, ⟨5, _⟩ => ⟨S1x3072x64, .f32⟩
  | .local _ .vmem, ⟨6, _⟩ => ⟨S4096x16, .bf16⟩
  | .local _ .vmem, ⟨7, _⟩ => ⟨S4096x16, .bf16⟩
  | .local _ .vmem, ⟨8, _⟩ => ⟨S4096, .i32⟩
  | .local _ .vmem, ⟨9, _⟩ => ⟨S4096, .i32⟩
  | .local _ .vmem, ⟨10, _⟩ => ⟨S1x3072x16, .f32⟩
  | .local _ .vmem, ⟨11, _⟩ => ⟨S1x3072x16, .f32⟩
  | _, _ => ⟨S75000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_call1_v0 : Ref sig .tc := ⟨.hbm, 54, rfl⟩
abbrev main_v35 : Ref sig .tc := ⟨.hbm, 55, rfl⟩
abbrev main_c_9 : Ref sig .tc := ⟨.hbm, 56, rfl⟩
abbrev main_call2_v0 : Ref sig .tc := ⟨.hbm, 57, rfl⟩
abbrev main_v36 : Ref sig .tc := ⟨.hbm, 58, rfl⟩
abbrev main_cst_10 : Ref sig .tc := ⟨.hbm, 59, rfl⟩
abbrev main_call3_v0 : Ref sig .tc := ⟨.hbm, 60, rfl⟩
abbrev main_v37 : Ref sig .tc := ⟨.hbm, 61, rfl⟩
abbrev main_v38 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_c_1 : Ref sig .tc := ⟨.hbm, 71, rfl⟩
abbrev main_call4_c_2 : Ref sig .tc := ⟨.hbm, 72, rfl⟩
abbrev main_call4_v6 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_3 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_call4_cst : Ref sig .tc := ⟨.hbm, 83, rfl⟩
abbrev main_call4_v15 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_call5_cst : Ref sig .tc := ⟨.hbm, 99, rfl⟩
abbrev main_call5_v0 : Ref sig .tc := ⟨.hbm, 100, rfl⟩
abbrev main_v53 : Ref sig .tc := ⟨.hbm, 101, rfl⟩
abbrev main_v54 : Ref sig .tc := ⟨.hbm, 102, rfl⟩
abbrev main_call6_c : Ref sig .tc := ⟨.hbm, 103, rfl⟩
abbrev main_call6_v0 : Ref sig .tc := ⟨.hbm, 104, rfl⟩
abbrev main_call6_v1 : Ref sig .tc := ⟨.hbm, 105, rfl⟩
abbrev main_call6_c_0 : Ref sig .tc := ⟨.hbm, 106, rfl⟩
abbrev main_call6_v2 : Ref sig .tc := ⟨.hbm, 107, rfl⟩
abbrev main_call6_v3 : Ref sig .tc := ⟨.hbm, 108, rfl⟩
abbrev main_call6_v4 : Ref sig .tc := ⟨.hbm, 109, rfl⟩
abbrev main_call6_v5 : Ref sig .tc := ⟨.hbm, 110, rfl⟩
abbrev main_call6_c_1 : Ref sig .tc := ⟨.hbm, 111, rfl⟩
abbrev main_call6_c_2 : Ref sig .tc := ⟨.hbm, 112, rfl⟩
abbrev main_call6_v6 : Ref sig .tc := ⟨.hbm, 113, rfl⟩
abbrev main_call6_v7 : Ref sig .tc := ⟨.hbm, 114, rfl⟩
abbrev main_call6_v8 : Ref sig .tc := ⟨.hbm, 115, rfl⟩
abbrev main_call6_v9 : Ref sig .tc := ⟨.hbm, 116, rfl⟩
abbrev main_call6_v10 : Ref sig .tc := ⟨.hbm, 117, rfl⟩
abbrev main_call6_v11 : Ref sig .tc := ⟨.hbm, 118, rfl⟩
abbrev main_call6_c_3 : Ref sig .tc := ⟨.hbm, 119, rfl⟩
abbrev main_call6_v12 : Ref sig .tc := ⟨.hbm, 120, rfl⟩
abbrev main_call6_v13 : Ref sig .tc := ⟨.hbm, 121, rfl⟩
abbrev main_call6_v14 : Ref sig .tc := ⟨.hbm, 122, rfl⟩
abbrev main_call6_cst : Ref sig .tc := ⟨.hbm, 123, rfl⟩
abbrev main_call6_v15 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 25, 156], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c156_i32 : BitVec 32 := 156#32
  let v0 : BitVec 32 := Scalar.muli arg0 c156_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c156_i32 : BitVec 32 := 156#32
  let v0 : BitVec 32 := Scalar.muli arg0 c156_i32
  let v1 : BitVec 32 := Scalar.addi v0 arg2
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x3072x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 25, 156], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c156_i32 : BitVec 32 := 156#32
  let v0 : BitVec 32 := Scalar.muli arg0 c156_i32
  let v1 : BitVec 32 := Scalar.addi v0 arg2
  let c0_i32 : BitVec 32 := 0#32
  let c0_i32_0 : BitVec 32 := 0#32
  ![v1.toNat, c0_i32.toNat]

def cc1_transform_1 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c156_i32 : BitVec 32 := 156#32
  let v0 : BitVec 32 := Scalar.muli arg0 c156_i32
  let v1 : BitVec 32 := Scalar.addi v0 arg2
  let c0_i32 : BitVec 32 := 0#32
  ![v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S4096x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x3072x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S75000_S1275000_d0 : Shape.Concatenates [S1200000, S75000] S1275000 0
  bcast_S_S75000 : S_.BroadcastsInDim S75000 (![] : Fin 0 → Fin S75000.rank)
  bcast_S_S1275000 : S_.BroadcastsInDim S1275000 (![] : Fin 0 → Fin S1275000.rank)
  bcast_S1275000_S1275000x1_0 : S1275000.BroadcastsInDim S1275000x1 (![0] : Fin 1 → Fin S1275000x1.rank)
  pads_S1275000_S1277952_029520 : S1275000.Pads (![0] : Fin 1 → Nat) ![2952] ![0] S1277952
  h_S_ : 0 < S_.numel
  bcast_S_S1277952 : S_.BroadcastsInDim S1277952 (![] : Fin 0 → Fin S1277952.rank)
  bcast_S1277952_S1277952x1_0 : S1277952.BroadcastsInDim S1277952x1 (![0] : Fin 1 → Fin S1277952x1.rank)
  bcast_S_S1277952x1 : S_.BroadcastsInDim S1277952x1 (![] : Fin 0 → Fin S1277952x1.rank)
  bcast_S1_S1x1_1 : S1.BroadcastsInDim S1x1 (![1] : Fin 1 → Fin S1x1.rank)
  bcast_S1x1_S1277952x1_0_1 : S1x1.BroadcastsInDim S1277952x1 (![0, 1] : Fin 2 → Fin S1277952x1.rank)
  reducesTo_S1277952x1_S1277952_d1 : S1277952x1.ReducesTo [1] S1277952
  bcast_S1277952_S1277952x64_0 : S1277952.BroadcastsInDim S1277952x64 (![0] : Fin 1 → Fin S1277952x64.rank)
  bcast_S_S1277952x64 : S_.BroadcastsInDim S1277952x64 (![] : Fin 0 → Fin S1277952x64.rank)
  bcast_S1277952x1_S1277952x64_0_1 : S1277952x1.BroadcastsInDim S1277952x64 (![0, 1] : Fin 2 → Fin S1277952x64.rank)
  bitsLt_bf16_f32 : FTy.bits .bf16 < FTy.bits .f32
  inb_S1x3072x64_S1x3072x64_0_0_0 : ∀ a, (![0, 0, 0] : Fin 3 → Nat) a + S1x3072x64.size a ≤ S1x3072x64.size a
  h_S1x3072x64 : 0 < S1x3072x64.numel
  shapeCasts_S1x3072x64_S3072x64 : S1x3072x64.ShapeCasts S3072x64
  shapeCasts_S3072x64_S1x3072x64 : S3072x64.ShapeCasts S1x3072x64
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  iota_S3072x1_d0_w32 : S3072x1.Iotas .tc 32 [0]
  broadcasts_S3072x1_S3072x4096 : S3072x1.Broadcasts S3072x4096
  broadcasts_S1x4096_S3072x4096 : S1x4096.Broadcasts S3072x4096
  natLt_1_32 : 1 < 32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  slices_S2x76800x64_S1x75000x64_0_0_0 : S2x76800x64.Slices ![0, 0, 0] S1x75000x64
  shapeCasts_S1x75000x64_S75000x64 : S1x75000x64.ShapeCasts S75000x64
  slices_S2x76800x64_S1x75000x64_1_0_0 : S2x76800x64.Slices ![1, 0, 0] S1x75000x64
  bcast_S64_S1x64_1 : S64.BroadcastsInDim S1x64 (![1] : Fin 1 → Fin S1x64.rank)
  bcast_S1x64_S75000x64_0_1 : S1x64.BroadcastsInDim S75000x64 (![0, 1] : Fin 2 → Fin S75000x64.rank)
  bcast_S_S75000x64 : S_.BroadcastsInDim S75000x64 (![] : Fin 0 → Fin S75000x64.rank)
  bcast_S1277952_S1277952x16_0 : S1277952.BroadcastsInDim S1277952x16 (![0] : Fin 1 → Fin S1277952x16.rank)
  bcast_S_S1277952x16 : S_.BroadcastsInDim S1277952x16 (![] : Fin 0 → Fin S1277952x16.rank)
  bcast_S1277952x1_S1277952x16_0_1 : S1277952x1.BroadcastsInDim S1277952x16 (![0, 1] : Fin 2 → Fin S1277952x16.rank)
  inb_S1x3072x16_S1x3072x16_0_0_0 : ∀ a, (![0, 0, 0] : Fin 3 → Nat) a + S1x3072x16.size a ≤ S1x3072x16.size a
  h_S1x3072x16 : 0 < S1x3072x16.numel
  shapeCasts_S1x3072x16_S3072x16 : S1x3072x16.ShapeCasts S3072x16
  shapeCasts_S3072x16_S1x3072x16 : S3072x16.ShapeCasts S1x3072x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  slices_S2x76800x16_S1x75000x16_0_0_0 : S2x76800x16.Slices ![0, 0, 0] S1x75000x16
  shapeCasts_S1x75000x16_S75000x16 : S1x75000x16.ShapeCasts S75000x16
  slices_S2x76800x16_S1x75000x16_1_0_0 : S2x76800x16.Slices ![1, 0, 0] S1x75000x16
  bcast_S16_S1x16_1 : S16.BroadcastsInDim S1x16 (![1] : Fin 1 → Fin S1x16.rank)
  bcast_S1x16_S75000x16_0_1 : S1x16.BroadcastsInDim S75000x16 (![0, 1] : Fin 2 → Fin S75000x16.rank)
  scatter_S75000_S1275000x1_S1275000_n_0_0_1_wf : ScatterDims.WF S75000 S1275000x1 S1275000 [] [0] [0] 1
  gather_S75000_S1275000x1_S1275000_n_0_n_n_0_1_1_wf : GatherDims.WF S75000 S1275000x1 S1275000 [] [0] [] [0] [] 1 ![1]
  dot_S75000x64_S64x64_S75000x64_1_0_0_1_n_n_wf : DotDims.WF S75000x64 S64x64 S75000x64 [1] [0] [0] [1] [] []
  gather_S75000x64_S1277952x1_S1277952x64_1_0_n_n_0_1_164_wf : GatherDims.WF S75000x64 S1277952x1 S1277952x64 [1] [0] [] [0] [] 1 ![1, 64]
  dot_S3072x4096_S4096x64_S3072x64_1_0_0_1_n_n_wf : DotDims.WF S3072x4096 S4096x64 S3072x64 [1] [0] [0] [1] [] []
  dot_S75000x64_S64x16_S75000x16_1_0_0_1_n_n_wf : DotDims.WF S75000x64 S64x16 S75000x16 [1] [0] [0] [1] [] []
  gather_S75000x16_S1277952x1_S1277952x16_1_0_n_n_0_1_116_wf : GatherDims.WF S75000x16 S1277952x1 S1277952x16 [1] [0] [] [0] [] 1 ![1, 16]
  dot_S3072x4096_S4096x16_S3072x16_1_0_0_1_n_n_wf : DotDims.WF S3072x4096 S4096x16 S3072x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1277952x64.size a
  hwx0_0 : ∀ i : grid0.Coords, EltTy.bits .bf16 = 32 ∨ (Rect.block (s := S1277952x64) S4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1277952.size a
  hwx0_1 : ∀ i : grid0.Coords, EltTy.bits .i32 = 32 ∨ (Rect.block (s := S1277952) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3072x64.size a ≤ S2x76800x64.size a
  hwx0_2 : ∀ i : grid0.Coords, EltTy.bits .f32 = 32 ∨ (Rect.block (s := S2x76800x64) S1x3072x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S1277952x16.size a
  hwx1_0 : ∀ i : grid1.Coords, EltTy.bits .bf16 = 32 ∨ (Rect.block (s := S1277952x16) S4096x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1277952.size a
  hwx1_1 : ∀ i : grid1.Coords, EltTy.bits .i32 = 32 ∨ (Rect.block (s := S1277952) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3072x16.size a ≤ S2x76800x16.size a
  hwx1_2 : ∀ i : grid1.Coords, EltTy.bits .f32 = 32 ∨ (Rect.block (s := S2x76800x16) S1x3072x16.size (cc1_transform_2 i) (hinb1_2 i)).WholeWords (EltTy.packing .f32)

variable [Facts₀]

def scatter_S75000_S1275000x1_S1275000_n_0_0_1 : ScatterDims S75000 S1275000x1 S1275000 where
  updateWindowDims := []
  insertedWindowDims := [0]
  scatterDimsToOperandDims := [0]
  indexVectorDim := 1
  wf := scatter_S75000_S1275000x1_S1275000_n_0_0_1_wf
def gather_S75000_S1275000x1_S1275000_n_0_n_n_0_1_1 : GatherDims S75000 S1275000x1 S1275000 where
  offsetDims := []
  collapsedSliceDims := [0]
  operandBatchingDims := []
  startIndicesBatchingDims := []
  startIndexMap := [0]
  indexVectorDim := 1
  sliceSizes := ![1]
  wf := gather_S75000_S1275000x1_S1275000_n_0_n_n_0_1_1_wf
def dot_S75000x64_S64x64_S75000x64_1_0_0_1_n_n : DotDims S75000x64 S64x64 S75000x64 where
  lhsContracting := [1]
  rhsContracting := [0]
  lhsNonContracting := [0]
  rhsNonContracting := [1]
  lhsBatch := []
  rhsBatch := []
  wf := dot_S75000x64_S64x64_S75000x64_1_0_0_1_n_n_wf
def gather_S75000x64_S1277952x1_S1277952x64_1_0_n_n_0_1_164 : GatherDims S75000x64 S1277952x1 S1277952x64 where
  offsetDims := [1]
  collapsedSliceDims := [0]
  operandBatchingDims := []
  startIndicesBatchingDims := []
  startIndexMap := [0]
  indexVectorDim := 1
  sliceSizes := ![1, 64]
  wf := gather_S75000x64_S1277952x1_S1277952x64_1_0_n_n_0_1_164_wf
def dot_S3072x4096_S4096x64_S3072x64_1_0_0_1_n_n : DotDims S3072x4096 S4096x64 S3072x64 where
  lhsContracting := [1]
  rhsContracting := [0]
  lhsNonContracting := [0]
  rhsNonContracting := [1]
  lhsBatch := []
  rhsBatch := []
  wf := dot_S3072x4096_S4096x64_S3072x64_1_0_0_1_n_n_wf
def dot_S75000x64_S64x16_S75000x16_1_0_0_1_n_n : DotDims S75000x64 S64x16 S75000x16 where
  lhsContracting := [1]
  rhsContracting := [0]
  lhsNonContracting := [0]
  rhsNonContracting := [1]
  lhsBatch := []
  rhsBatch := []
  wf := dot_S75000x64_S64x16_S75000x16_1_0_0_1_n_n_wf
def gather_S75000x16_S1277952x1_S1277952x16_1_0_n_n_0_1_116 : GatherDims S75000x16 S1277952x1 S1277952x16 where
  offsetDims := [1]
  collapsedSliceDims := [0]
  operandBatchingDims := []
  startIndicesBatchingDims := []
  startIndexMap := [0]
  indexVectorDim := 1
  sliceSizes := ![1, 16]
  wf := gather_S75000x16_S1277952x1_S1277952x16_1_0_n_n_0_1_116_wf
def dot_S3072x4096_S4096x16_S3072x16_1_0_0_1_n_n : DotDims S3072x4096 S4096x16 S3072x16 where
  lhsContracting := [1]
  rhsContracting := [0]
  lhsNonContracting := [0]
  rhsNonContracting := [1]
  lhsBatch := []
  rhsBatch := []
  wf := dot_S3072x4096_S4096x16_S3072x16_1_0_0_1_n_n_wf

abbrev win0_0 : Pipeline.Window sig grid0 :=
  Pipeline.Window.ofSpec (Memref.whole main_v43) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x3072x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x3072x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S75000x64 : Shape := ⟨2, ![75000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1200000 : Shape := ⟨2, ![1, 1200000]⟩
abbrev S1200000 : Shape := ⟨1, ![1200000]⟩
abbrev S75000 : Shape := ⟨1, ![75000]⟩
abbrev S1275000 : Shape := ⟨1, ![1275000]⟩
abbrev S_ : Shape := ⟨0, ![]⟩
abbrev S1275000x1 : Shape := ⟨2, ![1275000, 1]⟩
abbrev S1275000x64 : Shape := ⟨2, ![1275000, 64]⟩
abbrev S1x64 : Shape := ⟨2, ![1, 64]⟩
abbrev S75000x16 : Shape := ⟨2, ![75000, 16]⟩
abbrev S1275000x16 : Shape := ⟨2, ![1275000, 16]⟩
abbrev S1x16 : Shape := ⟨2, ![1, 16]⟩

abbrev nBuf : Space → Nat
  | .hbm => 139
  | .vmem => 0
  | .smem => 0
  | _ => 0

abbrev hbmTy0_0 (i : Nat) : BufTy := match i % 128 with
  | 0 => ⟨S75000x64, .f32⟩
  | 1 => ⟨S2x1200000, .i32⟩
  | 2 => ⟨S64x64, .f32⟩
  | 3 => ⟨S64, .f32⟩
  | 4 => ⟨S64x16, .f32⟩
  | 5 => ⟨S16, .f32⟩
  | 6 => ⟨S1x1200000, .i32⟩
  | 7 => ⟨S1200000, .i32⟩
  | 8 => ⟨S1x1200000, .i32⟩
  | 9 => ⟨S1200000, .i32⟩
  | 10 => ⟨S75000x64, .f32⟩
  | 11 => ⟨S75000, .i32⟩
  | 12 => ⟨S1275000, .i32⟩
  | 13 => ⟨S1275000, .i32⟩
  | 14 => ⟨S_, .f32⟩
  | 15 => ⟨S75000, .f32⟩
  | 16 => ⟨S_, .i32⟩
  | 17 => ⟨S1275000, .i32⟩
  | 18 => ⟨S1275000, .i1⟩
  | 19 => ⟨S_, .i32⟩
  | 20 => ⟨S1275000, .i32⟩
  | 21 => ⟨S1275000, .i32⟩
  | 22 => ⟨S1275000, .i32⟩
  | 23 => ⟨S1275000x1, .i32⟩
  | 24 => ⟨S_, .f32⟩
  | 25 => ⟨S1275000, .f32⟩
  | 26 => ⟨S75000, .f32⟩
  | 27 => ⟨S_, .f32⟩
  | 28 => ⟨S75000, .f32⟩
  | 29 => ⟨S75000, .i1⟩
  | 30 => ⟨S75000, .f32⟩
  | 31 => ⟨S_, .f32⟩
  | 32 => ⟨S_, .f32⟩
  | 33 => ⟨S75000, .f32⟩
  | 34 => ⟨S75000, .f32⟩
  | 35 => ⟨S_, .i32⟩
  | 36 => ⟨S1275000, .i32⟩
  | 37 => ⟨S1275000, .i1⟩
  | 38 => ⟨S_, .i32⟩
  | 39 => ⟨S1275000, .i32⟩
  | 40 => ⟨S1275000, .i32⟩
  | 41 => ⟨S1275000, .i32⟩
  | 42 => ⟨S1275000x1, .i32⟩
  | 43 => ⟨S1275000, .f32⟩
  | 44 => ⟨S_, .i32⟩
  | 45 => ⟨S1275000, .i32⟩
  | 46 => ⟨S1275000, .i1⟩
  | 47 => ⟨S_, .i32⟩
  | 48 => ⟨S1275000, .i32⟩
  | 49 => ⟨S1275000, .i32⟩
  | 50 => ⟨S1275000, .i32⟩
  | 51 => ⟨S1275000x1, .i32⟩
  | 52 => ⟨S1275000, .f32⟩
  | 53 => ⟨S1275000, .f32⟩
  | 54 => ⟨S_, .i32⟩
  | 55 => ⟨S1275000, .i32⟩
  | 56 => ⟨S1275000, .i1⟩
  | 57 => ⟨S_, .i32⟩
  | 58 => ⟨S1275000, .i32⟩
  | 59 => ⟨S1275000, .i32⟩
  | 60 => ⟨S1275000, .i32⟩
  | 61 => ⟨S1275000x1, .i32⟩
  | 62 => ⟨S1275000x64, .f32⟩
  | 63 => ⟨S1275000x1, .f32⟩
  | 64 => ⟨S1275000x64, .f32⟩
  | 65 => ⟨S1275000x64, .f32⟩
  | 66 => ⟨S_, .f32⟩
  | 67 => ⟨S75000x64, .f32⟩
  | 68 => ⟨S1275000x1, .i32⟩
  | 69 => ⟨S75000x64, .f32⟩
  | 70 => ⟨S1x64, .f32⟩
  | 71 => ⟨S75000x64, .f32⟩
  | 72 => ⟨S75000x64, .f32⟩
  | 73 => ⟨S_, .f32⟩
  | 74 => ⟨S75000x64, .f32⟩
  | 75 => ⟨S75000x64, .f32⟩
  | 76 => ⟨S75000x16, .f32⟩
  | 77 => ⟨S75000, .i32⟩
  | 78 => ⟨S1275000, .i32⟩
  | 79 => ⟨S1275000, .i32⟩
  | 80 => ⟨S_, .f32⟩
  | 81 => ⟨S75000, .f32⟩
  | 82 => ⟨S_, .i32⟩
  | 83 => ⟨S1275000, .i32⟩
  | 84 => ⟨S1275000, .i1⟩
  | 85 => ⟨S_, .i32⟩
  | 86 => ⟨S1275000, .i32⟩
  | 87 => ⟨S1275000, .i32⟩
  | 88 => ⟨S1275000, .i32⟩
  | 89 => ⟨S1275000x1, .i32⟩
  | 90 => ⟨S_, .f32⟩
  | 91 => ⟨S1275000, .f32⟩
  | 92 => ⟨S75000, .f32⟩
  | 93 => ⟨S_, .f32⟩
  | 94 => ⟨S75000, .f32⟩
  | 95 => ⟨S75000, .i1⟩
  | 96 => ⟨S75000, .f32⟩
  | 97 => ⟨S_, .f32⟩
  | 98 => ⟨S_, .f32⟩
  | 99 => ⟨S75000, .f32⟩
  | 100 => ⟨S75000, .f32⟩
  | 101 => ⟨S_, .i32⟩
  | 102 => ⟨S1275000, .i32⟩
  | 103 => ⟨S1275000, .i1⟩
  | 104 => ⟨S_, .i32⟩
  | 105 => ⟨S1275000, .i32⟩
  | 106 => ⟨S1275000, .i32⟩
  | 107 => ⟨S1275000, .i32⟩
  | 108 => ⟨S1275000x1, .i32⟩
  | 109 => ⟨S1275000, .f32⟩
  | 110 => ⟨S_, .i32⟩
  | 111 => ⟨S1275000, .i32⟩
  | 112 => ⟨S1275000, .i1⟩
  | 113 => ⟨S_, .i32⟩
  | 114 => ⟨S1275000, .i32⟩
  | 115 => ⟨S1275000, .i32⟩
  | 116 => ⟨S1275000, .i32⟩
  | 117 => ⟨S1275000x1, .i32⟩
  | 118 => ⟨S1275000, .f32⟩
  | 119 => ⟨S1275000, .f32⟩
  | 120 => ⟨S_, .i32⟩
  | 121 => ⟨S1275000, .i32⟩
  | 122 => ⟨S1275000, .i1⟩
  | 123 => ⟨S_, .i32⟩
  | 124 => ⟨S1275000, .i32⟩
  | 125 => ⟨S1275000, .i32⟩
  | 126 => ⟨S1275000, .i32⟩
  | 127 => ⟨S1275000x1, .i32⟩
  | _ => ⟨S75000x64, .f32⟩

abbrev hbmTy0_1 (i : Nat) : BufTy := match i % 128 with
  | 0 => ⟨S1275000x16, .f32⟩
  | 1 => ⟨S1275000x1, .f32⟩
  | 2 => ⟨S1275000x16, .f32⟩
  | 3 => ⟨S1275000x16, .f32⟩
  | 4 => ⟨S_, .f32⟩
  | 5 => ⟨S75000x16, .f32⟩
  | 6 => ⟨S1275000x1, .i32⟩
  | 7 => ⟨S75000x16, .f32⟩
  | 8 => ⟨S1x16, .f32⟩
  | 9 => ⟨S75000x16, .f32⟩
  | 10 => ⟨S75000x16, .f32⟩
  | _ => ⟨S75000x64, .f32⟩

abbrev hbmTy (i : Nat) : BufTy := match i / 128 with
  | 0 => hbmTy0_0 i
  | 1 => hbmTy0_1 i
  | _ => ⟨S75000x64, .f32⟩

abbrev bufTy : (tb : Table) → Fin (tcTables nBuf tb) → BufTy
  | .hbm, ⟨i, _⟩ => hbmTy i
  | _, _ => ⟨S75000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_23 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S75000_S1275000_d0 : Shape.Concatenates [S1200000, S75000] S1275000 0
  bcast_S_S75000 : S_.BroadcastsInDim S75000 (![] : Fin 0 → Fin S75000.rank)
  bcast_S_S1275000 : S_.BroadcastsInDim S1275000 (![] : Fin 0 → Fin S1275000.rank)
  bcast_S1275000_S1275000x1_0 : S1275000.BroadcastsInDim S1275000x1 (![0] : Fin 1 → Fin S1275000x1.rank)
  bcast_S1275000x1_S1275000x64_0_1 : S1275000x1.BroadcastsInDim S1275000x64 (![0, 1] : Fin 2 → Fin S1275000x64.rank)
  bcast_S_S75000x64 : S_.BroadcastsInDim S75000x64 (![] : Fin 0 → Fin S75000x64.rank)
  bcast_S64_S1x64_1 : S64.BroadcastsInDim S1x64 (![1] : Fin 1 → Fin S1x64.rank)
  bcast_S1x64_S75000x64_0_1 : S1x64.BroadcastsInDim S75000x64 (![0, 1] : Fin 2 → Fin S75000x64.rank)
  bcast_S1275000x1_S1275000x16_0_1 : S1275000x1.BroadcastsInDim S1275000x16 (![0, 1] : Fin 2 → Fin S1275000x16.rank)
  bcast_S_S75000x16 : S_.BroadcastsInDim S75000x16 (![] : Fin 0 → Fin S75000x16.rank)
  bcast_S16_S1x16_1 : S16.BroadcastsInDim S1x16 (![1] : Fin 1 → Fin S1x16.rank)
  bcast_S1x16_S75000x16_0_1 : S1x16.BroadcastsInDim S75000x16 (![0, 1] : Fin 2 → Fin S75000x16.rank)
  dot_S75000x64_S64x64_S75000x64_1_0_0_1_n_n_wf : DotDims.WF S75000x64 S64x64 S75000x64 [1] [0] [0] [1] [] []
  scatter_S75000_S1275000x1_S1275000_n_0_0_1_wf : ScatterDims.WF S75000 S1275000x1 S1275000 [] [0] [0] 1
  gather_S75000_S1275000x1_S1275000_n_0_n_n_0_1_1_wf : GatherDims.WF S75000 S1275000x1 S1275000 [] [0] [] [0] [] 1 ![1]
  gather_S75000x64_S1275000x1_S1275000x64_1_0_n_n_0_1_164_wf : GatherDims.WF S75000x64 S1275000x1 S1275000x64 [1] [0] [] [0] [] 1 ![1, 64]
  scatter_S75000x64_S1275000x1_S1275000x64_1_0_0_1_wf : ScatterDims.WF S75000x64 S1275000x1 S1275000x64 [1] [0] [0] 1
  dot_S75000x64_S64x16_S75000x16_1_0_0_1_n_n_wf : DotDims.WF S75000x64 S64x16 S75000x16 [1] [0] [0] [1] [] []
  gather_S75000x16_S1275000x1_S1275000x16_1_0_n_n_0_1_116_wf : GatherDims.WF S75000x16 S1275000x1 S1275000x16 [1] [0] [] [0] [] 1 ![1, 16]
  scatter_S75000x16_S1275000x1_S1275000x16_1_0_0_1_wf : ScatterDims.WF S75000x16 S1275000x1 S1275000x16 [1] [0] [0] 1

variable [Facts₀]

def dot_S75000x64_S64x64_S75000x64_1_0_0_1_n_n : DotDims S75000x64 S64x64 S75000x64 where
  lhsContracting := [1]
  rhsContracting := [0]
  lhsNonContracting := [0]
  rhsNonContracting := [1]
  lhsBatch := []
  rhsBatch := []
  wf := dot_S75000x64_S64x64_S75000x64_1_0_0_1_n_n_wf
def scatter_S75000_S1275000x1_S1275000_n_0_0_1 : ScatterDims S75000 S1275000x1 S1275000 where
  updateWindowDims := []
  insertedWindowDims := [0]
  scatterDimsToOperandDims := [0]
  indexVectorDim := 1
  wf := scatter_S75000_S1275000x1_S1275000_n_0_0_1_wf
def gather_S75000_S1275000x1_S1275000_n_0_n_n_0_1_1 : GatherDims S75000 S1275000x1 S1275000 where
  offsetDims := []
  collapsedSliceDims := [0]
  operandBatchingDims := []
  startIndicesBatchingDims := []
  startIndexMap := [0]
  indexVectorDim := 1
  sliceSizes := ![1]
  wf := gather_S75000_S1275000x1_S1275000_n_0_n_n_0_1_1_wf
def gather_S75000x64_S1275000x1_S1275000x64_1_0_n_n_0_1_164 : GatherDims S75000x64 S1275000x1 S1275000x64 where
  offsetDims := [1]
  collapsedSliceDims := [0]
  operandBatchingDims := []
  startIndicesBatchingDims := []
  startIndexMap := [0]
  indexVectorDim := 1
  sliceSizes := ![1, 64]
  wf := gather_S75000x64_S1275000x1_S1275000x64_1_0_n_n_0_1_164_wf
def scatter_S75000x64_S1275000x1_S1275000x64_1_0_0_1 : ScatterDims S75000x64 S1275000x1 S1275000x64 where
  updateWindowDims := [1]
  insertedWindowDims := [0]
  scatterDimsToOperandDims := [0]
  indexVectorDim := 1
  wf := scatter_S75000x64_S1275000x1_S1275000x64_1_0_0_1_wf
def dot_S75000x64_S64x16_S75000x16_1_0_0_1_n_n : DotDims S75000x64 S64x16 S75000x16 where
  lhsContracting := [1]
  rhsContracting := [0]
  lhsNonContracting := [0]
  rhsNonContracting := [1]
  lhsBatch := []
  rhsBatch := []
  wf := dot_S75000x64_S64x16_S75000x16_1_0_0_1_n_n_wf
def gather_S75000x16_S1275000x1_S1275000x16_1_0_n_n_0_1_116 : GatherDims S75000x16 S1275000x1 S1275000x16 where
  offsetDims := [1]
  collapsedSliceDims := [0]
  operandBatchingDims := []
  startIndicesBatchingDims := []
  startIndexMap := [0]
  indexVectorDim := 1
  sliceSizes := ![1, 16]
  wf := gather_S75000x16_S1275000x1_S1275000x16_1_0_n_n_0_1_116_wf
def scatter_S75000x16_S1275000x1_S1275000x16_1_0_0_1 : ScatterDims S75000x16 S1275000x1 S1275000x16 where
  updateWindowDims := [1]
  insertedWindowDims := [0]
  scatterDimsToOperandDims := [0]
  indexVectorDim := 1
  wf := scatter_S75000x16_S1275000x1_S1275000x16_1_0_0_1_wf

class Facts : Prop extends Facts₀ where

variable [Facts]
-- ==== Proof.KNames.lean ====
/-
  Names for what the graph convolution's program holds in its buffers along the way, read off the fold of buffer
  contents through the program: the edge list's source and destination words (edges, then one self loop per row),
  the normalisation factor of each edge, the first layer's features times its weights, the first layer's output,
  the second layer's features times its weights, and the result.
-/
import proofs.«409195_j4758823764089_3_alg».proof.Proof.Gen.KernelIdeal.Frame
import Idealize.ShloMosaic.Lib.ValueIdx

set_option maxRecDepth 16384

noncomputable section

namespace Cert.KernelIdeal.KN

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The source word of each of the 1275000 edges (the given edges, then row `i` for self loop `i`). -/
abbrev srcW : S1275000.Idx → BitVec 32 := W1 m ρ c (Proc.devRef .tc main_v5)
/-- The destination word of each edge. -/
abbrev dstW : S1275000.Idx → BitVec 32 := W1 m ρ c (Proc.devRef .tc main_v6)
/-- The normalisation factor of each edge. -/
abbrev nrm : S1275000.Idx → EReal := W3 m ρ c (Proc.devRef .tc main_v34)
/-- The input features times the first weights. -/
abbrev h1 : S75000x64.Idx → EReal := W9 m ρ c (Proc.devRef .tc main_v38)
/-- The first layer's output, bias added. -/
abbrev out1 : S75000x64.Idx → EReal := W13 m ρ c (Proc.devRef .tc main_v52)
/-- The rectified first output times the second weights. -/
abbrev h2 : S75000x16.Idx → EReal := W15 m ρ c (Proc.devRef .tc main_v54)
/-- The result. -/
abbrev out2 : S75000x16.Idx → EReal := W19 m ρ c (Proc.devRef .tc main_v68)

end Cert.KernelIdeal.KN

end
-- ==== Proof.LibTileSum.lean ====
/-
  Sums accumulated tile by tile.

  A range of `T * B` positions is cut into `T` tiles of `B` consecutive positions, tile `t` holding the positions
  `t * B + r`, `r < B`. In a commutative additive monoid this file proves:

  * `acc_eq_sum`, `acc_eq_add_sum` (and the forms bounded by a number of steps): an accumulator that starts from the
    first term (or from a start value plus the first term) and adds one term per step holds the sum of the terms so far;
  * `sum_tiles`, `sum_tiles_prefix`, `sum_tiles_fin'`, `sum_tiles_fin`, `sum_tiles_50_200`: summing tile by tile
    is summing over all positions, over ℕ and over `Fin`;
  * `tile_iff`, `sum_tile_indicator` and its `Fin` forms: a position `j < T * B` lies in exactly one tile, the tile
    `j / B`, so a value added in the tile that holds `j` is added once;
  * `sum_tiles_add_indicator` and its `Fin` forms: the two together.

  Only Mathlib is used.
-/
import Mathlib.Algebra.BigOperators.Group.Finset.Basic
import Mathlib.Algebra.BigOperators.Group.Finset.Piecewise
import Mathlib.Algebra.BigOperators.Fin

namespace Cert.TileSum

open Finset

variable {M : Type*} [AddCommMonoid M]

/-! ### The recursion solved -/

/-- An accumulator that starts at the first term and adds the next term at every step, for the steps below `T`,
holds the sum of the terms so far. -/
theorem acc_eq_sum_of_lt (T : ℕ) (acc term : ℕ → M) (h0 : acc 0 = term 0)
    (hs : ∀ t, t + 1 < T → acc (t + 1) = acc t + term (t + 1)) (t : ℕ) (ht : t < T) :
    acc t = ∑ s ∈ Finset.range (t + 1), term s := by
  induction t with
  | zero => rw [h0, Finset.sum_range_one]
  | succ t ih => rw [hs t ht, ih (Nat.lt_of_succ_lt ht), Finset.sum_range_succ _ (t + 1)]

/-- The same without a bound on the steps. -/
theorem acc_eq_sum (acc term : ℕ → M) (h0 : acc 0 = term 0)
    (hs : ∀ t, acc (t + 1) = acc t + term (t + 1)) (t : ℕ) :
    acc t = ∑ s ∈ Finset.range (t + 1), term s :=
  acc_eq_sum_of_lt (t + 1) acc term h0 (fun t _ => hs t) t (Nat.lt_succ_self t)

/-- The accumulator started from a value `z`: it holds `z` plus the sum of the terms so far. -/
theorem acc_eq_add_sum_of_lt (T : ℕ) (z : M) (acc term : ℕ → M) (h0 : acc 0 = z + term 0)
    (hs : ∀ t, t + 1 < T → acc (t + 1) = acc t + term (t + 1)) (t : ℕ) (ht : t < T) :
    acc t = z + ∑ s ∈ Finset.range (t + 1), term s := by
  induction t with
  | zero => rw [h0, Finset.sum_range_one]
  | succ t ih =>
    rw [hs t ht, ih (Nat.lt_of_succ_lt ht), Finset.sum_range_succ _ (t + 1), add_assoc]

/-- The same without a bound on the steps. -/
theorem acc_eq_add_sum (z : M) (acc term : ℕ → M) (h0 : acc 0 = z + term 0)
    (hs : ∀ t, acc (t + 1) = acc t + term (t + 1)) (t : ℕ) :
    acc t = z + ∑ s ∈ Finset.range (t + 1), term s :=
  acc_eq_add_sum_of_lt (t + 1) z acc term h0 (fun t _ => hs t) t (Nat.lt_succ_self t)

/-! ### Tiles make the whole -/

/-- Position `r` of tile `t` lies under `T * B`. -/
theorem mulAdd_lt {T B : ℕ} (t : Fin T) (r : Fin B) : t.val * B + r.val < T * B :=
  calc t.val * B + r.val < t.val * B + B := Nat.add_lt_add_left r.2 _
    _ = (t.val + 1) * B := (Nat.add_one_mul _ _).symm
    _ ≤ T * B := Nat.mul_le_mul_right B (Nat.succ_le_of_lt t.2)

/-- Summing tile by tile is summing over all `T * B` positions. -/
theorem sum_tiles (T B : ℕ) (g : ℕ → M) :
    ∑ t ∈ Finset.range T, ∑ r ∈ Finset.range B, g (t * B + r) = ∑ i ∈ Finset.range (T * B), g i := by
  induction T with
  | zero => simp
  | succ T ih => rw [Finset.sum_range_succ, ih, Nat.add_one_mul, Finset.sum_range_add]

/-- The first `n + 1` tiles make the first `(n + 1) * B` positions. -/
theorem sum_tiles_prefix (n B : ℕ) (g : ℕ → M) :
    ∑ t ∈ Finset.range (n + 1), ∑ r ∈ Finset.range B, g (t * B + r)
      = ∑ i ∈ Finset.range ((n + 1) * B), g i :=
  sum_tiles (n + 1) B g

/-- Tiles over `Fin`, the position of row `r` of tile `t` given by any `idx t r` whose value is `t * B + r`. -/
theorem sum_tiles_fin' (T B N : ℕ) (hN : N = T * B) (f : Fin N → M) (idx : Fin T → Fin B → Fin N)
    (hidx : ∀ t r, (idx t r).val = t.val * B + r.val) :
    ∑ t : Fin T, ∑ r : Fin B, f (idx t r) = ∑ i : Fin N, f i := by
  subst hN
  -- extend f to all of ℕ, by zero beyond T * B
  obtain ⟨g, hg⟩ : ∃ g : ℕ → M, ∀ i : Fin (T * B), g i.val = f i :=
    ⟨fun k => if h : k < T * B then f ⟨k, h⟩ else 0, fun i => dif_pos i.2⟩
  calc ∑ t : Fin T, ∑ r : Fin B, f (idx t r)
      = ∑ t : Fin T, ∑ r : Fin B, g (t.val * B + r.val) := by
        refine Finset.sum_congr rfl fun t _ => Finset.sum_congr rfl fun r _ => ?_
        rw [← hidx t r, hg]
    _ = ∑ t ∈ Finset.range T, ∑ r ∈ Finset.range B, g (t * B + r) := by
        rw [Finset.sum_range]
        refine Finset.sum_congr rfl fun t _ => ?_
        rw [Finset.sum_range]
    _ = ∑ i ∈ Finset.range (T * B), g i := sum_tiles T B g
    _ = ∑ i : Fin (T * B), f i := by
        rw [Finset.sum_range]
        exact Finset.sum_congr rfl fun i _ => hg i

/-- Tiles over `Fin`, the position built as `t * B + r`. -/
theorem sum_tiles_fin (T B : ℕ) (f : Fin (T * B) → M) :
    ∑ t : Fin T, ∑ r : Fin B, f ⟨t.val * B + r.val, mulAdd_lt t r⟩ = ∑ i : Fin (T * B), f i :=
  sum_tiles_fin' T B (T * B) rfl f (fun t r => ⟨t.val * B + r.val, mulAdd_lt t r⟩) (fun _ _ => rfl)

/-- Fifty tiles of two hundred rows make ten thousand rows, the position written `200 * t + r`. -/
theorem sum_tiles_50_200 (f : Fin 10000 → M) :
    ∑ t : Fin 50, ∑ r : Fin 200, f ⟨200 * t.val + r.val, by omega⟩ = ∑ i : Fin 10000, f i :=
  sum_tiles_fin' 50 200 10000 rfl f (fun t r => ⟨200 * t.val + r.val, by omega⟩)
    (fun t r => congrArg (· + r.val) (Nat.mul_comm 200 t.val))

/-! ### A position lies in exactly one tile -/

/-- Position `j` lies in tile `t` exactly when `t` is `j / B`. -/
theorem tile_iff {B : ℕ} (hB : 0 < B) (t j : ℕ) : (t * B ≤ j ∧ j < t * B + B) ↔ t = j / B := by
  rw [← Nat.le_div_iff_mul_le hB, ← Nat.add_one_mul, ← Nat.div_lt_iff_lt_mul hB]
  omega

/-- A value added in the tile that holds `j` is added exactly once. -/
theorem sum_tile_indicator (T B : ℕ) (u : M) (j : ℕ) (hj : j < T * B) :
    ∑ t ∈ Finset.range T, (if t * B ≤ j ∧ j < t * B + B then u else 0) = u := by
  have hB : 0 < B := Nat.pos_of_ne_zero fun h => by subst h; simp at hj
  have hmem : j / B ∈ Finset.range T := Finset.mem_range.2 ((Nat.div_lt_iff_lt_mul hB).2 hj)
  -- only the tile j / B contributes
  refine (Finset.sum_eq_single_of_mem (j / B) hmem ?_).trans ?_
  · intro t _ hne
    exact if_neg fun h => hne ((tile_iff hB t j).1 h)
  · exact if_pos ((tile_iff hB (j / B) j).2 rfl)

/-- The same with the tiles indexed by `Fin T`. -/
theorem sum_tile_indicator_fin (T B : ℕ) (u : M) (j : ℕ) (hj : j < T * B) :
    ∑ t : Fin T, (if t.val * B ≤ j ∧ j < t.val * B + B then u else 0) = u :=
  (Finset.sum_range fun t => if t * B ≤ j ∧ j < t * B + B then u else 0).symm.trans
    (sum_tile_indicator T B u j hj)

/-- Fifty tiles of two hundred rows: row `j` of ten thousand lies in exactly one tile. -/
theorem sum_tile_indicator_50_200 (u : M) (j : Fin 10000) :
    ∑ t : Fin 50, (if 200 * t.val ≤ j.val ∧ j.val < 200 * t.val + 200 then u else 0) = u := by
  have h := sum_tile_indicator_fin 50 200 u j.val (by have := j.isLt; omega)
  refine Eq.trans (Finset.sum_congr rfl fun t _ => ?_) h
  exact if_congr (by omega) rfl rfl

/-- In the tiling by two hundred, row `j` lies in tile `t` exactly when `t = j / 200`. -/
theorem tile_iff_200 (t j : ℕ) : (200 * t ≤ j ∧ j < 200 * t + 200) ↔ t = j / 200 := by
  omega

/-! ### The two together -/

/-- Tile sums plus a value added in the tile that holds `j`: the whole sum plus that value. -/
theorem sum_tiles_add_indicator (T B : ℕ) (g : ℕ → M) (u : M) (j : ℕ) (hj : j < T * B) :
    ∑ t ∈ Finset.range T, ((∑ r ∈ Finset.range B, g (t * B + r)) + (if t * B ≤ j ∧ j < t * B + B then u else 0))
      = (∑ i ∈ Finset.range (T * B), g i) + u := by
  rw [Finset.sum_add_distrib, sum_tiles, sum_tile_indicator T B u j hj]

/-- The same over `Fin`, the position of row `r` of tile `t` given by any `idx t r` whose value is `t * B + r`. -/
theorem sum_tiles_add_indicator_fin' (T B N : ℕ) (hN : N = T * B) (w : Fin N → M) (idx : Fin T → Fin B → Fin N)
    (hidx : ∀ t r, (idx t r).val = t.val * B + r.val) (u : M) (j : ℕ) (hj : j < N) :
    ∑ t : Fin T, ((∑ r : Fin B, w (idx t r)) + (if t.val * B ≤ j ∧ j < t.val * B + B then u else 0))
      = (∑ i : Fin N, w i) + u := by
  rw [Finset.sum_add_distrib, sum_tiles_fin' T B N hN w idx hidx, sum_tile_indicator_fin T B u j (hN ▸ hj)]

/-- Fifty tiles of two hundred rows, with the value at row `j` added in the tile that holds `j`. -/
theorem sum_tiles_add_self_50_200 (w v : Fin 10000 → M) (j : Fin 10000) :
    ∑ t : Fin 50, ((∑ r : Fin 200, w ⟨200 * t.val + r.val, by omega⟩)
        + (if 200 * t.val ≤ j.val ∧ j.val < 200 * t.val + 200 then v j else 0))
      = (∑ i : Fin 10000, w i) + v j := by
  rw [Finset.sum_add_distrib, sum_tiles_50_200 w, sum_tile_indicator_50_200 (v j) j]

end Cert.TileSum
-- ==== Proof.GcnSpec.lean ====
/-
  The aggregation step of a graph convolution, as the tiled one-hot product computes it and as a sum over the
  edges whose destination is the row.

  The edge list has 1275000 entries (1200000 edges and 75000 self loops) and is padded to 1277952 = 2 * 156 * 4096
  positions; the padding carries the destination word -1. Position `(cc * 156 + i) * 4096 + k` is lane `k` of chunk
  `i` of half `cc`. For a row `r < 76800` the product's one-hot entry at a position is 1 exactly when the lane of
  `r` inside its tile of 3072 rows, as a 32-bit word, equals the destination word minus the tile's first row; that
  is, when the destination word read signed is `r`. So one half's output at `(r, f)` is the sum over its positions
  of entry times message, and the two halves together, at a row below 75000, are the sum of the messages of the
  edges whose destination is `r`: the padding never matches, a row is matched in one tile only, and the order of
  summation does not matter in a commutative monoid.
-/
import Idealize.ShloMosaic.PureOps.Ideal
import Idealize.ShloMosaic.Lib.ValueIdx
import proofs.«409195_j4758823764089_3_alg».proof.Proof.LibTileSum
import Mathlib.Algebra.BigOperators.Fin

noncomputable section

namespace Cert.Gcn

open Idealize.ShloMosaic Idealize.ShloMosaic.ValueIdx
open scoped BigOperators

/-- Lane `k` of chunk `i` of half `cc`, as a position of the padded edge list. -/
def ePos (cc : Fin 2) (i : Fin 156) (k : Fin 4096) : Fin 1277952 :=
  ⟨(cc.val * 156 + i.val) * 4096 + k.val, by have := cc.isLt; have := i.isLt; have := k.isLt; omega⟩

/-- The one-hot entry of row `r` against a destination word `w`, as it is computed on 32-bit words: the lane of
    `r` in its tile against `w` minus the tile's first row. -/
def hot (w : BitVec 32) (r : Fin 76800) : EReal :=
  if BitVec.ofNat 32 (r.val % 3072) = w - BitVec.ofNat 32 (r.val / 3072) * 3072#32 then 1 else 0

/-- The lane of `r` in its tile equals `w` minus the tile's first row, on 32-bit words, exactly when `w` read
    signed is `r`: lane plus first row is `r`, which is below `2 ^ 31`, so nothing wraps. -/
theorem lane_eq_iff (w : BitVec 32) (r : Fin 76800) :
    BitVec.ofNat 32 (r.val % 3072) = w - BitVec.ofNat 32 (r.val / 3072) * 3072#32 ↔ w.toInt = (r.val : ℤ) := by
  have hr := r.isLt
  have hw := w.isLt
  rw [BitVec.toInt_eq_toNat_cond, @BitVec.toNat_eq 32 (BitVec.ofNat 32 (r.val % 3072))]
  simp only [BitVec.toNat_ofNat, BitVec.toNat_sub, BitVec.toNat_mul]
  omega

/-- The entry is 1 exactly when the destination word, read signed, is the row. -/
theorem hot_eq (w : BitVec 32) (r : Fin 76800) : hot w r = if w.toInt = (r.val : ℤ) then 1 else 0 := by
  unfold hot
  exact if_congr (lane_eq_iff w r) rfl rfl

/-- Entry times message: the message when the destination word reads as the row, nothing otherwise. -/
theorem hot_mul (w : BitVec 32) (r : Fin 76800) (x : EReal) :
    hot w r * x = if w.toInt = (r.val : ℤ) then x else 0 := by
  rw [hot_eq, ite_mul, one_mul, zero_mul]

/-- One half's output at row `r`, column `f`: over its 156 chunks of 4096 lanes, entry times message. -/
def regionOut {D : ℕ} (M : Fin 1277952 → Fin D → EReal) (dP : Fin 1277952 → BitVec 32)
    (cc : Fin 2) (r : Fin 76800) (f : Fin D) : EReal :=
  ∑ i : Fin 156, ∑ k : Fin 4096, hot (dP (ePos cc i k)) r * M (ePos cc i k) f

/-- The aggregation: the messages of the edges whose destination word, read signed, is the row. -/
def agg {D : ℕ} (d : Fin 1275000 → BitVec 32) (msg : Fin 1275000 → Fin D → EReal) (r : Fin 75000) (f : Fin D) : EReal :=
  ∑ e : Fin 1275000, if (d e).toInt = (r.val : ℤ) then msg e f else 0

/-- Summing over halves, chunks and lanes is summing over all positions of the padded list. -/
theorem sum_ePos {A : Type*} [AddCommMonoid A] (g : Fin 1277952 → A) :
    ∑ cc : Fin 2, ∑ i : Fin 156, ∑ k : Fin 4096, g (ePos cc i k) = ∑ e : Fin 1277952, g e := by
  have hhalf : ∀ (cc : Fin 2) (j : Fin 638976), cc.val * 638976 + j.val < 1277952 := by
    intro cc j; have := cc.isLt; have := j.isLt; omega
  have hlane : ∀ (i : Fin 156) (k : Fin 4096), i.val * 4096 + k.val < 638976 := by
    intro i k; have := i.isLt; have := k.isLt; omega
  -- two halves of 638976 positions make the list
  refine Eq.trans ?_ (Cert.TileSum.sum_tiles_fin' 2 638976 1277952 rfl g
    (fun cc j => ⟨cc.val * 638976 + j.val, hhalf cc j⟩) (fun _ _ => rfl))
  refine Finset.sum_congr rfl fun cc _ => ?_
  -- 156 chunks of 4096 lanes make a half
  refine Eq.trans ?_ (Cert.TileSum.sum_tiles_fin' 156 4096 638976 rfl
    (fun j => g ⟨cc.val * 638976 + j.val, hhalf cc j⟩)
    (fun i k => ⟨i.val * 4096 + k.val, hlane i k⟩) (fun _ _ => rfl))
  refine Finset.sum_congr rfl fun i _ => Finset.sum_congr rfl fun k _ => congrArg g (Fin.ext ?_)
  show (cc.val * 156 + i.val) * 4096 + k.val = cc.val * 638976 + (i.val * 4096 + k.val)
  omega

/-- The two halves at a row: over all positions, the message where the destination word reads as the row. -/
theorem regionOut_two {D : ℕ} (M : Fin 1277952 → Fin D → EReal) (dP : Fin 1277952 → BitVec 32)
    (r : Fin 76800) (f : Fin D) :
    regionOut M dP 0 r f + regionOut M dP 1 r f
      = ∑ e : Fin 1277952, (if (dP e).toInt = (r.val : ℤ) then M e f else 0) := by
  rw [← Fin.sum_univ_two (fun cc => regionOut M dP cc r f)]
  unfold regionOut
  rw [sum_ePos (fun e => hot (dP e) r * M e f)]
  exact Finset.sum_congr rfl fun e _ => hot_mul (dP e) r (M e f)

/-- The word of all ones reads signed as minus one. -/
theorem toInt_allOnes : (4294967295#32).toInt = -1 := by decide

/-- The two halves together are the aggregation, when the padded destinations are the destinations followed by
    the word -1 and the padded messages agree with the messages on the real positions. -/
theorem regionOut_halves {D : ℕ} (M : Fin 1277952 → Fin D → EReal) (dP : Fin 1277952 → BitVec 32)
    (d : Fin 1275000 → BitVec 32) (msg : Fin 1275000 → Fin D → EReal)
    (hd : ∀ (e : Fin 1277952) (h : e.val < 1275000), dP e = d ⟨e.val, h⟩)
    (hpad : ∀ e : Fin 1277952, 1275000 ≤ e.val → dP e = 4294967295#32)
    (hM : ∀ (e : Fin 1277952) (h : e.val < 1275000) (f : Fin D), M e f = msg ⟨e.val, h⟩ f)
    (r : Fin 75000) (f : Fin D) :
    regionOut M dP 0 ⟨r.val, by have := r.isLt; omega⟩ f + regionOut M dP 1 ⟨r.val, by have := r.isLt; omega⟩ f
      = agg d msg r f := by
  have hr := r.isLt
  rw [regionOut_two]
  show ∑ e : Fin (1275000 + 2952), (if (dP e).toInt = (r.val : ℤ) then M e f else 0) = agg d msg r f
  rw [Fin.sum_univ_add]
  -- the padding never matches
  have hpad0 : ∑ e : Fin 2952, (if (dP (Fin.natAdd 1275000 e)).toInt = (r.val : ℤ)
      then M (Fin.natAdd 1275000 e) f else 0) = 0 := by
    refine Finset.sum_eq_zero fun e _ => if_neg ?_
    rw [hpad (Fin.natAdd 1275000 e) (by simp only [Fin.val_natAdd]; omega), toInt_allOnes]
    omega
  rw [hpad0, add_zero]
  -- the real positions carry the edges
  unfold agg
  refine Finset.sum_congr rfl fun e _ => ?_
  have he : (Fin.castAdd 2952 e).val < 1275000 := e.isLt
  rw [hd (Fin.castAdd 2952 e) he, hM (Fin.castAdd 2952 e) he f]
  rfl

/-! ## Source rows -/

/-- A source word with a negative reading moved up by the number of rows, as indexing does. -/
def wrapW (w : BitVec 32) : BitVec 32 :=
  Scalar.select (IntOp.cmpi .slt w 0#32) (IntOp.addi w 75000#32) w

/-- The row a gather reads for a start word: its signed reading, clamped into the rows. -/
def clampRow (w : BitVec 32) : Fin 75000 := ⟨min w.toInt.toNat 74999, by omega⟩

/-- A start word names a row. -/
def inRow (w : BitVec 32) : Prop := 0 ≤ w.toInt ∧ w.toInt ≤ 74999

/-- The signed comparison with zero says the signed reading is negative. -/
theorem cmpi_slt_zero (w : BitVec 32) : IntOp.cmpi .slt w 0#32 = 1#1 ↔ w.toInt < 0 := by
  have hz : w.slt 0#32 = true ↔ w.toInt < 0 := by rw [BitVec.slt_iff_toInt_lt, BitVec.toInt_zero]
  show BitVec.ofBool (w.slt 0#32) = 1#1 ↔ w.toInt < 0
  rw [← hz]
  generalize w.slt 0#32 = b
  cases b <;> decide

/-- A word with a negative reading is moved up by the number of rows. -/
theorem wrapW_of_neg (w : BitVec 32) (h : w.toInt < 0) : wrapW w = w + 75000#32 := by
  unfold wrapW Scalar.select IntOp.addi
  exact if_pos ((cmpi_slt_zero w).2 h)

/-- A word with a nonnegative reading stays. -/
theorem wrapW_of_nonneg (w : BitVec 32) (h : 0 ≤ w.toInt) : wrapW w = w := by
  unfold wrapW Scalar.select
  exact if_neg fun hc => absurd ((cmpi_slt_zero w).1 hc) (by omega)

/-- Moving a word up by the number of rows adds it to the signed reading, when the reading is negative and not
    below minus the number of rows: the sum stays in the signed range. -/
theorem toInt_add_rows (w : BitVec 32) (h1 : -75000 ≤ w.toInt) (h2 : w.toInt < 0) :
    (w + 75000#32).toInt = w.toInt + 75000 := by
  have hw := w.isLt
  rw [BitVec.toInt_eq_toNat_cond, BitVec.toInt_eq_toNat_cond] at *
  simp only [BitVec.toNat_add, BitVec.toNat_ofNat] at *
  omega

/-- A source word between minus the number of rows and the number of rows names a row once moved. -/
theorem wrapW_inRow (w : BitVec 32) (h : -75000 ≤ w.toInt ∧ w.toInt < 75000) : inRow (wrapW w) := by
  unfold inRow
  by_cases hneg : w.toInt < 0
  · rw [wrapW_of_neg w hneg, toInt_add_rows w h.1 hneg]
    omega
  · rw [wrapW_of_nonneg w (by omega)]
    omega

/-- A word that counts a row names it. -/
theorem inRow_ofNat (n : ℕ) (hn : n < 75000) : inRow (wrapW (BitVec.ofNat 32 n)) := by
  have hn' : (BitVec.ofNat 32 n).toInt = (n : ℤ) := by
    rw [BitVec.toInt_eq_toNat_cond, BitVec.toNat_ofNat]
    omega
  exact wrapW_inRow _ (by omega)

end Cert.Gcn

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Region0Body.lean ====
/-
  One run of the aggregation kernel's body at an element of its output block: the chunk's one-hot product — over the
  chunk's 4096 positions, 1 when the row's lane in the tile, as a 32-bit word, equals the position's destination word
  minus the tile's first row, times the position's message — added to zero at a tile's first chunk and to what the
  chunk before left otherwise.
-/
import proofs.«409195_j4758823764089_3_alg».proof.Proof.Gen.KernelIdeal.Frame
import proofs.«409195_j4758823764089_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0Body

open Idealize.ShloMosaic Idealize.ShloMosaic.TcCoe Idealize.ShloMosaic.ValueIdx Idealize.SL.Sem
open Cert.KernelIdeal Cert.KernelIdeal.Gen
open scoped BigOperators

/-- The one-hot product of one chunk at lane `p` of tile `j`, column `f`: `d` the chunk's destination words, `M` its
    messages. -/
def chunk (d : Vec Ideal S4096 .i32) (M : Vec Ideal S4096x64 .bf16) (j : ℕ) (p : Fin 3072) (f : Fin 64) : EReal :=
  ∑ k : Fin 4096, (if BitVec.ofNat 32 p.val = (d (ix1 k) : BitVec 32) - BitVec.ofNat 32 j * 3072#32 then (1 : EReal) else 0)
    * (M (ix2 k f) : EReal)

/-! ## What each case's stores leave, as the stored block -/

variable {F : FTy → Type} [FloatOps F]

/-- The all-zero offsets of a whole-block access, at ranks one, two and three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a later chunk the body's one store covers the block: what it leaves is the stored block, computed from the
    destination words, the messages and the block's running contents, each read whole. -/
theorem pieceB (c : Dev nD) (i : grid0.Coords) (arg3 : Memref sig .tc .vmem S4096x64 .bf16) (harg3 : arg3.IsWhole)
    (arg4 : Memref sig .tc .vmem S4096 .i32) (harg4 : arg4.IsWhole) (arg5 : Memref sig .tc .vmem S1x3072x64 .f32)
    (harg5 : arg5.IsWhole) (hc0 : ¬cond0_0 i) (x0 : Vec F S4096x64 .bf16) (x1 : Vec F S4096 .i32)
    (xo2 : Vec F S1x3072x64 .f32) :
    out0_B_2 c i arg3 harg3 arg4 harg4 arg5 harg5 hc0 x0 x1 xo2 = k0_pay2 i x1 x0 xo2 := by
  unfold out0_B_2
  rw [View.read_writes_eq_canon _ _ _ (cover0_B_2 c i arg3 harg3 arg4 harg4 arg5 harg5 hc0 x0 x1 xo2)]
  unfold kernelRun0_B
  dsimp only
  sl_unfold_words
  rw [View.canon_unit_zero hz3]
  simp only [View.readAt_eq_ld, harg3.read_unread, harg4.read_unread, harg5.read_unread,
    View.ld_unit_zero (S := S4096) hz1, View.ld_unit_zero (S := S4096x64) hz2, View.ld_unit_zero (S := S1x3072x64) hz3]

/-- At a tile's first chunk the body stores the zero block, reads it back, and stores over it: what it leaves is the
    stored block computed from the destination words, the messages and the zero block. -/
theorem pieceA (c : Dev nD) (i : grid0.Coords) (arg3 : Memref sig .tc .vmem S4096x64 .bf16) (harg3 : arg3.IsWhole)
    (arg4 : Memref sig .tc .vmem S4096 .i32) (harg4 : arg4.IsWhole) (arg5 : Memref sig .tc .vmem S1x3072x64 .f32)
    (harg5 : arg5.IsWhole) (hc0 : cond0_0 i) (x0 : Vec F S4096x64 .bf16) (x1 : Vec F S4096 .i32) :
    out0_A_2 c i arg3 harg3 arg4 harg4 arg5 harg5 hc0 x0 x1 = k0_pay2 i x1 x0 (k0_pay1 (F := F)) := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S1x3072x64) hz3, View.readCov_unit_zero (S := S1x3072x64) _ hz3]
  simp only [View.readAt_eq_ld, harg3.read_unread, harg4.read_unread,
    View.ld_unit_zero (S := S4096) hz1, View.ld_unit_zero (S := S4096x64) hz2]

/-! ## The matrix product read at an index -/

/-- The left factor is read at the result's row and the contraction position, the right factor at the contraction
    position and the result's column: the four coordinates. -/
theorem lhs_axis0 (j : S3072x64.Idx) (q : dot_S3072x4096_S4096x64_S3072x64_1_0_0_1_n_n.contr.Idx) :
    (dot_S3072x4096_S4096x64_S3072x64_1_0_0_1_n_n.lhsIdx j q 0).val = (j 0).val := by
  unfold DotDims.lhsIdx
  rw [dif_neg (show ¬(0 : Fin S3072x4096.rank) ∈ dot_S3072x4096_S4096x64_S3072x64_1_0_0_1_n_n.lhsBatch by decide), dif_pos (show (0 : Fin S3072x4096.rank) ∈ dot_S3072x4096_S4096x64_S3072x64_1_0_0_1_n_n.lhsNonContracting by decide)]
  rfl
theorem lhs_axis1 (j : S3072x64.Idx) (q : dot_S3072x4096_S4096x64_S3072x64_1_0_0_1_n_n.contr.Idx) :
    (dot_S3072x4096_S4096x64_S3072x64_1_0_0_1_n_n.lhsIdx j q 1).val = (q ⟨0, by decide⟩).val :=
  dot_S3072x4096_S4096x64_S3072x64_1_0_0_1_n_n.lhsIdx_val_of_single rfl j q
theorem rhs_axis0 (j : S3072x64.Idx) (q : dot_S3072x4096_S4096x64_S3072x64_1_0_0_1_n_n.contr.Idx) :
    (dot_S3072x4096_S4096x64_S3072x64_1_0_0_1_n_n.rhsIdx j q 0).val = (q ⟨0, by decide⟩).val :=
  dot_S3072x4096_S4096x64_S3072x64_1_0_0_1_n_n.rhsIdx_val_of_single rfl j q
theorem rhs_axis1 (j : S3072x64.Idx) (q : dot_S3072x4096_S4096x64_S3072x64_1_0_0_1_n_n.contr.Idx) :
    (dot_S3072x4096_S4096x64_S3072x64_1_0_0_1_n_n.rhsIdx j q 1).val = (j 1).val := by
  unfold DotDims.rhsIdx
  rw [dif_neg (show ¬(1 : Fin S4096x64.rank) ∈ dot_S3072x4096_S4096x64_S3072x64_1_0_0_1_n_n.rhsBatch by decide), dif_pos (show (1 : Fin S4096x64.rank) ∈ dot_S3072x4096_S4096x64_S3072x64_1_0_0_1_n_n.rhsNonContracting by decide)]
  rfl

/-- The product of a [3072, 4096] factor and a [4096, 64] factor into the zero block, at row `p` and column `f`: the
    sum over the 4096 contraction positions of the factors' products. -/
theorem matmul_read (L : FVec Ideal S3072x4096 .bf16) (R : FVec Ideal S4096x64 .bf16) (p : Fin 3072) (f : Fin 64) :
    (matmul (F := Ideal) dot_S3072x4096_S4096x64_S3072x64_1_0_0_1_n_n none L R (constant (F := Ideal) S3072x64 .f32 0x00000000#32) (ix2 p f) : EReal)
      = ∑ k : Fin 4096, (L (ix2 p k) : EReal) * (R (ix2 k f) : EReal) := by
  show FloatOps.matmul dot_S3072x4096_S4096x64_S3072x64_1_0_0_1_n_n none L R (constant (F := Ideal) S3072x64 .f32 0x00000000#32) (ix2 p f) = _
  rw [Ideal.matmul_constant_zero_apply, ← Equiv.sum_comp (ValueIdx.contrEquiv1 dot_S3072x4096_S4096x64_S3072x64_1_0_0_1_n_n 4096 rfl rfl).symm]
  refine Finset.sum_congr rfl fun k _ => ?_
  have hk := ValueIdx.contrEquiv1_symm_val dot_S3072x4096_S4096x64_S3072x64_1_0_0_1_n_n 4096 rfl rfl k
  have el : dot_S3072x4096_S4096x64_S3072x64_1_0_0_1_n_n.lhsIdx (ix2 p f) ((ValueIdx.contrEquiv1 dot_S3072x4096_S4096x64_S3072x64_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S3072x4096_S4096x64_S3072x64_1_0_0_1_n_n.rhsIdx (ix2 p f) ((ValueIdx.contrEquiv1 dot_S3072x4096_S4096x64_S3072x64_1_0_0_1_n_n 4096 rfl rfl).symm k) = ix2 k f := funext fun a => Fin.ext (by
    match a with
    | ⟨0, _⟩ => exact (rhs_axis0 _ _).trans hk
    | ⟨1, _⟩ => exact rhs_axis1 _ _)
  rw [el, er]

/-! ## The one-hot factor read at an index -/

/-- A one-bit word widened to 32 bits and read as a signed integer is 1 when the bit is set and 0 otherwise. -/
theorem sitofp_bit (b : BitVec 1) :
    (FloatOps.sitofp (F := Ideal) .f32 (b.setWidth 32) : EReal) = if b = 1#1 then 1 else 0 := by
  rcases BitVec.eq_zero_or_eq_one b with h | h
  · subst h
    show (((0#1).setWidth 32).toInt : ℝ).toEReal = _
    simp
  · subst h
    show (((1#1).setWidth 32).toInt : ℝ).toEReal = _
    simp

/-- The one-hot factor of tile `j`: at lane `p` and position `k`, whether the lane's 32-bit word equals the position's
    destination word minus the tile's first row. -/
def hot (j : ℕ) (d : Vec Ideal S4096 .i32) : FVec Ideal S3072x4096 .bf16 :=
  truncf .bf16 (sitofp .f32 (extui 32 (cmpi .eq
    (broadcastTo S3072x4096 (iota .tc S3072x1 32 [0] iota_S3072x1_d0_w32) broadcasts_S3072x1_S3072x4096)
    (broadcastTo S3072x4096 (subi (shapeCast S1x4096 (shapeCast S4096 d shapeCasts_S4096_S4096) shapeCasts_S4096_S1x4096)
      (broadcast S1x4096 (Scalar.muli (BitVec.ofNat 32 j) 3072#32))) broadcasts_S1x4096_S3072x4096)) natLt_1_32)) bitsLt_bf16_f32

/-- The factor at `(p, k)`: the lane column gives the word of `p`, the row of destination words minus the tile's first
    row gives `d k - 3072 j` on 32-bit words; their comparison bit, widened and converted, is 1 or 0. -/
theorem hot_apply (j : ℕ) (d : Vec Ideal S4096 .i32) (p : Fin 3072) (k : Fin 4096) :
    (hot j d (ix2 p k) : EReal)
      = if BitVec.ofNat 32 p.val = (d (ix1 k) : BitVec 32) - BitVec.ofNat 32 j * 3072#32 then 1 else 0 := by
  unfold hot
  have e1 := Cert.Lib.Column.broadcastTo_a1_ab_apply (iota .tc S3072x1 32 [0] iota_S3072x1_d0_w32) broadcasts_S3072x1_S3072x4096 p k
  have e2 := broadcastTo_1b_ab_apply (subi (shapeCast S1x4096 (shapeCast S4096 d shapeCasts_S4096_S4096) shapeCasts_S4096_S1x4096)
      (broadcast S1x4096 (Scalar.muli (BitVec.ofNat 32 j) 3072#32))) broadcasts_S1x4096_S3072x4096 p k
  have e3 := shapeCast_a_1a_apply (shapeCast S4096 d shapeCasts_S4096_S4096) shapeCasts_S4096_S1x4096 (0 : Fin 1) k
  rw [shapeCast_self] at e3
  show (FloatOps.sitofp (F := Ideal) .f32 ((IntOp.cmpi .eq
      (broadcastTo S3072x4096 (iota .tc S3072x1 32 [0] iota_S3072x1_d0_w32) broadcasts_S3072x1_S3072x4096 (ix2 p k))
      (broadcastTo S3072x4096 (subi (shapeCast S1x4096 (shapeCast S4096 d shapeCasts_S4096_S4096) shapeCasts_S4096_S1x4096)
        (broadcast S1x4096 (Scalar.muli (BitVec.ofNat 32 j) 3072#32))) broadcasts_S1x4096_S3072x4096 (ix2 p k))).setWidth 32) : EReal) = _
  rw [e1, e2, sitofp_bit]
  show (if IntOp.cmpi .eq (BitVec.ofNat 32 (0 * 3072 + p.val))
      (shapeCast S1x4096 (shapeCast S4096 d shapeCasts_S4096_S4096) shapeCasts_S4096_S1x4096 (ix2 (0 : Fin 1) k) - BitVec.ofNat 32 j * 3072#32) = 1#1
      then (1 : EReal) else 0) = _
  rw [shapeCast_self, e3, Nat.zero_mul, Nat.zero_add]
  exact if_congr IntOp.cmpi_eq rfl rfl

/-! ## The payload read at an index -/

/-- The stored block: the loaded block, its unit axis dropped, plus the product of the one-hot factor and the messages
    into zero, the unit axis put back. -/
theorem pay2_eq (i : grid0.Coords) (v3 : Vec Ideal S4096 .i32) (v16 : FVec Ideal S4096x64 .bf16) (v18 : FVec Ideal S1x3072x64 .f32) :
    k0_pay2 (F := Ideal) i v3 v16 v18
      = shapeCast S1x3072x64 (addf (shapeCast S3072x64 v18 shapeCasts_S1x3072x64_S3072x64)
          (matmul (F := Ideal) dot_S3072x4096_S4096x64_S3072x64_1_0_0_1_n_n none (hot (i 1).val v3)
            (shapeCast S4096x64 v16 shapeCasts_S4096x64_S4096x64) (constant (F := Ideal) S3072x64 .f32 0x00000000#32)))
          shapeCasts_S3072x64_S1x3072x64 := rfl

/-- The block the body stores, at lane `p` and column `f`: what it loaded there plus the chunk's product. -/
theorem pay2_apply (i : grid0.Coords) (v3 : Vec Ideal S4096 .i32) (v16 : FVec Ideal S4096x64 .bf16) (v18 : FVec Ideal S1x3072x64 .f32)
    (p : Fin 3072) (f : Fin 64) :
    (k0_pay2 (F := Ideal) i v3 v16 v18 (ix3 (0 : Fin 1) p f) : EReal) = (v18 (ix3 (0 : Fin 1) p f) : EReal) + chunk v3 v16 (i 1).val p f := by
  rw [pay2_eq]
  refine (shapeCast_ab_1ab_apply _ shapeCasts_S3072x64_S1x3072x64 (0 : Fin 1) p f).trans ?_
  refine (addf_apply _ _ _).trans ?_
  refine congrArg₂ (· + ·) (shapeCast_1ab_ab_apply v18 shapeCasts_S1x3072x64_S3072x64 p f) ?_
  refine (matmul_read _ _ p f).trans ?_
  unfold chunk
  refine Finset.sum_congr rfl fun k _ => ?_
  rw [hot_apply, shapeCast_self]

/-- The zero block at an element is zero. -/
theorem pay1_apply (p : Fin 3072) (f : Fin 64) : (k0_pay1 (F := Ideal) (ix3 (0 : Fin 1) p f) : EReal) = 0 := by
  unfold k0_pay1
  refine (shapeCast_ab_1ab_apply _ shapeCasts_S3072x64_S1x3072x64 (0 : Fin 1) p f).trans ?_
  exact Ideal.ofBits_zero_f32

/-- At a tile's first chunk the block is zeroed and the chunk's product added. -/
theorem outA (c : Dev nD) (i : grid0.Coords) (arg3 : Memref sig .tc .vmem S4096x64 .bf16) (harg3 : arg3.IsWhole)
    (arg4 : Memref sig .tc .vmem S4096 .i32) (harg4 : arg4.IsWhole) (arg5 : Memref sig .tc .vmem S1x3072x64 .f32)
    (harg5 : arg5.IsWhole) (hc0 : cond0_0 i) (x0 : Vec Ideal S4096x64 .bf16) (x1 : Vec Ideal S4096 .i32)
    (p : Fin 3072) (f : Fin 64) :
    (out0_A_2 (F := Ideal) c i arg3 harg3 arg4 harg4 arg5 harg5 hc0 x0 x1 (ix3 (0 : Fin 1) p f) : EReal)
      = 0 + chunk x1 x0 (i 1).val p f := by
  refine (congrFun (pieceA (F := Ideal) c i arg3 harg3 arg4 harg4 arg5 harg5 hc0 x0 x1) (ix3 (0 : Fin 1) p f)).trans ?_
  refine (pay2_apply i x1 x0 (k0_pay1 (F := Ideal)) p f).trans ?_
  rw [pay1_apply]

/-- At a later chunk the chunk's product is added to what the chunk before left. -/
theorem outB (c : Dev nD) (i : grid0.Coords) (arg3 : Memref sig .tc .vmem S4096x64 .bf16) (harg3 : arg3.IsWhole)
    (arg4 : Memref sig .tc .vmem S4096 .i32) (harg4 : arg4.IsWhole) (arg5 : Memref sig .tc .vmem S1x3072x64 .f32)
    (harg5 : arg5.IsWhole) (hc0 : ¬cond0_0 i) (x0 : Vec Ideal S4096x64 .bf16) (x1 : Vec Ideal S4096 .i32)
    (xo2 : Vec Ideal S1x3072x64 .f32) (p : Fin 3072) (f : Fin 64) :
    (out0_B_2 (F := Ideal) c i arg3 harg3 arg4 harg4 arg5 harg5 hc0 x0 x1 xo2 (ix3 (0 : Fin 1) p f) : EReal)
      = (xo2 (ix3 (0 : Fin 1) p f) : EReal) + chunk x1 x0 (i 1).val p f := by
  refine (congrFun (pieceB (F := Ideal) c i arg3 harg3 arg4 harg4 arg5 harg5 hc0 x0 x1 xo2) (ix3 (0 : Fin 1) p f)).trans ?_
  exact pay2_apply i x1 x0 xo2 p f

end Cert.KernelIdeal.Region0Body

end
-- ==== Proof.Region0.lean ====
/-
  What one aggregation kernel leaves in its output array: at half `cc`, row `r`, column `f`, the sum over the
  half's 156 chunks of 4096 positions of the one-hot entry of the row against the position's destination word
  times the position's message.
-/
import proofs.«409195_j4758823764089_3_alg».proof.Proof.Gen.KernelIdeal.Frame
import proofs.«409195_j4758823764089_3_alg».proof.Proof.GcnSpec
import proofs.«409195_j4758823764089_3_alg».proof.Proof.Region0Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Cert.KernelIdeal.Region0Body
open scoped BigOperators

variable (V : (c : Dev nD) → (b : Ref sig .tc) → Buf (Elt Ideal) ((c : Thread nD τ).loc b))

/-- The padded messages as the kernel finds them. -/
def msgs (c : Dev nD) : Fin 1277952 → Fin 64 → EReal := fun e f => (V c main_v43 : S1277952x64.Idx → EReal) (ix2 e f)
/-- The padded destination words as the kernel finds them. -/
def dsts (c : Dev nD) : Fin 1277952 → BitVec 32 := fun e => (V c main_v36 : S1277952.Idx → BitVec 32) (ix1 e)

/-- The chunk of destination words the kernel holds at a point. -/
abbrev dblk (c : Dev nD) (t : Fin cfg0.N) : Vec Ideal S4096 .i32 := iblk0 (F := Ideal) V c 1 t
/-- The chunk of messages the kernel holds at a point. -/
abbrev mblk (c : Dev nD) (t : Fin cfg0.N) : Vec Ideal S4096x64 .bf16 := iblk0 (F := Ideal) V c 0 t

/-- The windows' block indices and the tile coordinate at every point `t = (cc * 25 + j) * 156 + i` of the grid
    (2, 25, 156): the messages' and the destination words' block is chunk `cc * 156 + i`, the output's block is
    tile `j` of half `cc`. Decided over the grid's 7800 points. -/
theorem idx_facts : ∀ t : Fin cfg0.N,
    win0_0.index t (0 : Fin 2) = t.val / 3900 * 156 + t.val % 156
    ∧ win0_0.index t (1 : Fin 2) = 0
    ∧ win0_1.index t (0 : Fin 1) = t.val / 3900 * 156 + t.val % 156
    ∧ win0_2.index t (0 : Fin 3) = t.val / 3900
    ∧ win0_2.index t (1 : Fin 3) = t.val / 156 % 25
    ∧ win0_2.index t (2 : Fin 3) = 0
    ∧ (grid0.coords t (1 : Fin 3)).val = t.val / 156 % 25 :=
  (by decide +kernel : ∀ t : Fin grid0.N, _)

/-- A message of the chunk held at a point is the message at the chunk's position in the padded list: the chunk is
    block `(t / 3900) * 156 + t % 156` of 4096 rows, so its row `k` is row `block * 4096 + k`. -/
theorem mblk_apply (c : Dev nD) (t : Fin cfg0.N) (k : Fin 4096) (f : Fin 64) (e : Fin 1277952)
    (he : e.val = (t.val / 3900 * 156 + t.val % 156) * 4096 + k.val) :
    (mblk V c t (ix2 k f) : EReal) = msgs V c e f := by
  obtain ⟨e0, e1, -⟩ := idx_facts t
  unfold msgs
  show (iblk0 (F := Ideal) V c 0 t) (ix2 k f) = _
  unfold iblk0
  rw [View.read_apply]
  show V c main_v43 _ = V c main_v43 _
  congr 1
  funext a
  apply Fin.ext
  match a with
  | ⟨0, _⟩ => show win0_0.index t (0 : Fin 2) * 4096 + 1 * k.val = e.val; rw [e0, he]; omega
  | ⟨1, _⟩ => show win0_0.index t (1 : Fin 2) * 64 + 1 * f.val = f.val; rw [e1]; omega

/-- A destination word of the chunk held at a point is the word at the chunk's position in the padded list. -/
theorem dblk_apply (c : Dev nD) (t : Fin cfg0.N) (k : Fin 4096) (e : Fin 1277952)
    (he : e.val = (t.val / 3900 * 156 + t.val % 156) * 4096 + k.val) :
    (dblk V c t (ix1 k) : BitVec 32) = dsts V c e := by
  obtain ⟨-, -, e2, -⟩ := idx_facts t
  unfold dsts
  show (iblk0 (F := Ideal) V c 1 t) (ix1 k) = _
  unfold iblk0
  rw [View.read_apply]
  show V c main_v36 _ = V c main_v36 _
  congr 1
  funext a
  apply Fin.ext
  match a with
  | ⟨0, _⟩ => show win0_1.index t (0 : Fin 1) * 4096 + 1 * k.val = e.val; rw [e2, he]; omega

/-- One chunk's one-hot product, its words and messages named by their positions: at row `r = j * 3072 + p` it is the
    sum over the chunk's lanes of the row's one-hot entry against the lane's destination word times the lane's message. -/
theorem chunk_eq_of (d : Vec Ideal S4096 .i32) (M : Vec Ideal S4096x64 .bf16) (f : Fin 64)
    (dP : Fin 4096 → BitVec 32) (mP : Fin 4096 → EReal)
    (hd : ∀ k : Fin 4096, (d (ix1 k) : BitVec 32) = dP k) (hM : ∀ k : Fin 4096, (M (ix2 k f) : EReal) = mP k)
    (j : ℕ) (p : Fin 3072) (r : Fin 76800) (hr : r.val = j * 3072 + p.val) :
    chunk d M j p f = ∑ k : Fin 4096, Cert.Gcn.hot (dP k) r * mP k := by
  have h1 : r.val % 3072 = p.val := by have := p.isLt; omega
  have h2 : r.val / 3072 = j := by have := p.isLt; omega
  unfold chunk Cert.Gcn.hot
  refine Finset.sum_congr rfl fun k _ => ?_
  rw [hd k, hM k, h1, h2]

/-- What one point adds to its tile's block at lane `p`, column `f` (nothing past the grid). -/
def addend (c : Dev nD) (n : ℕ) (p : Fin 3072) (f : Fin 64) : EReal :=
  if h : n < cfg0.N then
    chunk (dblk V c ⟨n, h⟩) (mblk V c ⟨n, h⟩) (grid0.coords ⟨n, h⟩ (1 : Fin 3)).val p f
  else 0

/-- Inside one run of 156 points, the block after the point at offset `s` holds zero plus the addends of the run's
    points so far: the first point zeroes the block and adds, every later one adds to what the point before left. -/
theorem outs_run (c : Dev nD) (q : ℕ) (p : Fin 3072) (f : Fin 64) :
    ∀ (s : ℕ) (hs : s < 156) (h : 156 * q + s < cfg0.N),
      (outsAt0 (F := Ideal) V c (156 * q + s) h (ix3 (0 : Fin 1) p f) : EReal)
        = 0 + ∑ s' ∈ Finset.range (s + 1), addend V c (156 * q + s') p f
  | 0, _, h => by
    have h0 : (⟨156 * q + 0, h⟩ : Fin cfg0.N).val % 156 = 0 := by dsimp only; omega
    rw [Finset.sum_range_one]
    refine (congrFun (outsAt0_A V c ⟨156 * q + 0, h⟩ h0) (ix3 (0 : Fin 1) p f)).trans ?_
    refine (outA c (grid0.coords ⟨156 * q + 0, h⟩) (ms0_0 ⟨156 * q + 0, h⟩) (hs0_0 ⟨156 * q + 0, h⟩)
      (ms0_1 ⟨156 * q + 0, h⟩) (hs0_1 ⟨156 * q + 0, h⟩) (ms0_2 ⟨156 * q + 0, h⟩) (hs0_2 ⟨156 * q + 0, h⟩)
      ((hcond0_0 ⟨156 * q + 0, h⟩).mpr h0) (iblk0 (F := Ideal) V c 0 ⟨156 * q + 0, h⟩)
      (iblk0 (F := Ideal) V c 1 ⟨156 * q + 0, h⟩) p f).trans ?_
    unfold addend
    rw [dif_pos h]
  | s + 1, hs, h => by
    have hne : ¬(⟨156 * q + (s + 1), h⟩ : Fin cfg0.N).val % 156 = 0 := by dsimp only; omega
    have ih := outs_run c q p f s (Nat.lt_of_succ_lt hs) (Nat.lt_of_succ_lt h)
    have hsum : (0 : EReal) + ∑ s' ∈ Finset.range (s + 1 + 1), addend V c (156 * q + s') p f
        = (0 + ∑ s' ∈ Finset.range (s + 1), addend V c (156 * q + s') p f) + addend V c (156 * q + (s + 1)) p f := by
      rw [Finset.sum_range_succ _ (s + 1), add_assoc (0 : EReal)]
    rw [hsum, ← ih]
    refine (congrFun (outsAt0_B V c ⟨156 * q + (s + 1), h⟩ hne) (ix3 (0 : Fin 1) p f)).trans ?_
    refine (outB c (grid0.coords ⟨156 * q + (s + 1), h⟩) (ms0_0 ⟨156 * q + (s + 1), h⟩) (hs0_0 ⟨156 * q + (s + 1), h⟩)
      (ms0_1 ⟨156 * q + (s + 1), h⟩) (hs0_1 ⟨156 * q + (s + 1), h⟩) (ms0_2 ⟨156 * q + (s + 1), h⟩)
      (hs0_2 ⟨156 * q + (s + 1), h⟩) (fun hc => hne ((hcond0_0 ⟨156 * q + (s + 1), h⟩).mp hc))
      (iblk0 (F := Ideal) V c 0 ⟨156 * q + (s + 1), h⟩) (iblk0 (F := Ideal) V c 1 ⟨156 * q + (s + 1), h⟩)
      (outsAt0 (F := Ideal) V c (156 * q + s) (Nat.lt_of_succ_lt h)) p f).trans ?_
    unfold addend
    rw [dif_pos h]

/-- What the block holds after a point depends on the point's number only. -/
theorem outs_same (c : Dev nD) (n n' : ℕ) (h : n < cfg0.N) (h' : n' < cfg0.N) (e : n = n') :
    outsAt0 (F := Ideal) V c n h = outsAt0 (F := Ideal) V c n' h' := by
  subst e; rfl

/-- At the last point of a run — the point that writes the block back — the block holds, at lane `p` of its tile and
    column `f`, the half's output at row `tile * 3072 + p`: the run's 156 points are the half's 156 chunks, each
    adding its one-hot product. -/
theorem flush_value (c : Dev nD) (t : Fin cfg0.N) (h155 : t.val % 156 = 155) (p : Fin 3072) (f : Fin 64)
    (cc : Fin 2) (r : Fin 76800) (hcc : cc.val = t.val / 3900) (hr : r.val = t.val / 156 % 25 * 3072 + p.val) :
    (outsAt0 (F := Ideal) V c t.val t.isLt (ix3 (0 : Fin 1) p f) : EReal)
      = Cert.Gcn.regionOut (msgs V c) (dsts V c) cc r f := by
  have hN' : cfg0.N = 7800 := N_0
  have hN : t.val < 7800 := lt_of_lt_of_eq t.isLt hN'
  have hq : 156 * (t.val / 156) + 155 = t.val := by omega
  have hb : 156 * (t.val / 156) + 155 < cfg0.N := by rw [hq]; exact t.isLt
  rw [outs_same V c t.val (156 * (t.val / 156) + 155) t.isLt hb hq.symm,
    outs_run V c (t.val / 156) p f 155 (by decide) hb, zero_add]
  unfold Cert.Gcn.regionOut
  rw [Finset.sum_range]
  refine Finset.sum_congr rfl fun i _ => ?_
  have hil : i.val < 156 := i.isLt
  have hi : 156 * (t.val / 156) + i.val < cfg0.N := lt_of_lt_of_eq (by omega) hN'.symm
  unfold addend
  rw [dif_pos hi]
  obtain ⟨-, -, -, -, -, -, e6⟩ := idx_facts ⟨156 * (t.val / 156) + i.val, hi⟩
  have e6' : (grid0.coords ⟨156 * (t.val / 156) + i.val, hi⟩ (1 : Fin 3)).val = (156 * (t.val / 156) + i.val) / 156 % 25 := e6
  refine chunk_eq_of (dblk V c ⟨156 * (t.val / 156) + i.val, hi⟩) (mblk V c ⟨156 * (t.val / 156) + i.val, hi⟩) f
    (fun k => dsts V c (Cert.Gcn.ePos cc i k)) (fun k => msgs V c (Cert.Gcn.ePos cc i k) f)
    (fun k => dblk_apply V c ⟨156 * (t.val / 156) + i.val, hi⟩ k (Cert.Gcn.ePos cc i k) ?_)
    (fun k => mblk_apply V c ⟨156 * (t.val / 156) + i.val, hi⟩ k f (Cert.Gcn.ePos cc i k) ?_)
    (grid0.coords ⟨156 * (t.val / 156) + i.val, hi⟩ (1 : Fin 3)).val p r ?_
  · show (cc.val * 156 + i.val) * 4096 + k.val
      = ((156 * (t.val / 156) + i.val) / 3900 * 156 + (156 * (t.val / 156) + i.val) % 156) * 4096 + k.val
    have a1 : (156 * (t.val / 156) + i.val) / 3900 = t.val / 3900 := by omega
    have a2 : (156 * (t.val / 156) + i.val) % 156 = i.val := by omega
    rw [a1, a2, hcc]
  · show (cc.val * 156 + i.val) * 4096 + k.val
      = ((156 * (t.val / 156) + i.val) / 3900 * 156 + (156 * (t.val / 156) + i.val) % 156) * 4096 + k.val
    have a1 : (156 * (t.val / 156) + i.val) / 3900 = t.val / 3900 := by omega
    have a2 : (156 * (t.val / 156) + i.val) % 156 = i.val := by omega
    rw [a1, a2, hcc]
  · rw [e6', hr]
    have a3 : (156 * (t.val / 156) + i.val) / 156 = t.val / 156 := by omega
    rw [a3]

/-- What the output array ends holding: at half `cc`, row `r`, column `f` the half's output there. -/
def G (c : Dev nD) : S2x76800x64.Idx → EReal :=
  fun idx => Cert.Gcn.regionOut (msgs V c) (dsts V c) (idx 0) (idx 1) (idx 2)

/-- What a writing-back point's block holds at an element is the whole-array function at the element's place in the
    array: the block is tile `t / 156 % 25` of half `t / 3900`, so its lane `p` is row `tile * 3072 + p`. -/
theorem flushed_at (c : Dev nD) (t : Fin cfg0.N) (h155 : t.val % 156 = 155) (y0 : Fin 1) (p : Fin 3072) (f : Fin 64) :
    (outsAt0 (F := Ideal) V c t.val t.isLt (ix3 y0 p f) : EReal)
      = G V c (((cfg0.win 2).blk t).view.emb (ix3 y0 p f)) := by
  obtain ⟨-, -, -, e3, e4, e5, -⟩ := idx_facts t
  have hy0 : y0 = 0 := Subsingleton.elim _ _
  subst hy0
  have hN : t.val < 7800 := lt_of_lt_of_eq t.isLt (show cfg0.N = 7800 from N_0)
  have hp : p.val < 3072 := p.isLt
  unfold G
  have h2 : (((cfg0.win 2).blk t).view.emb (ix3 (0 : Fin 1) p f)) 2 = f := Fin.ext (by
    show win0_2.index t (2 : Fin 3) * 64 + 1 * f.val = f.val
    rw [e5]; omega)
  rw [h2]
  refine flush_value V c t h155 p f _ _ ?_ ?_
  · show win0_2.index t (0 : Fin 3) * 1 + 1 * 0 = t.val / 3900
    rw [e3]; omega
  · show win0_2.index t (1 : Fin 3) * 3072 + 1 * p.val = t.val / 156 % 25 * 3072 + p.val
    rw [e4]; omega

/-- What a writing-back point writes back is its block of the whole-array function. -/
theorem flushed_eq (c : Dev nD) (t : Fin cfg0.N) (hf : (cfg0.win 2).flush t = true) :
    (Gen.dat0 (F := Ideal) V c).flushed 2 t = ((cfg0.win 2).blk t).view.read (Elt Ideal) (G V c) := by
  have h155 : t.val % 156 = 155 := (flush0_2 t).mp hf
  show (cfg0.win 2).cut (grid0.coords t) ((Gen.dat0 (F := Ideal) V c).after 2 t) = _
  rw [after0_2]
  funext y
  obtain ⟨y0, p, f, rfl⟩ : ∃ (y0 : Fin 1) (p : Fin 3072) (f : Fin 64), y = ix3 y0 p f :=
    ⟨y 0, y 1, y 2, @eq_ix3 1 3072 64 y⟩
  rw [View.read_apply]
  exact flushed_at V c t h155 y0 p f

/-- An index of the array lies in a point's block exactly when each coordinate lies in the block's range on its axis. -/
theorem mem_blk (t : Fin cfg0.N) (i : S2x76800x64.Idx) :
    i ∈ ((cfg0.win 2).blk t).view.set ↔ ∀ a : Fin 3, win0_2.index t a * S1x3072x64.size a ≤ (i a).val
      ∧ (i a).val < win0_2.index t a * S1x3072x64.size a + S1x3072x64.size a := by
  show i ∈ ((View.whole main_v44).slice (win0_2.rect t)).set ↔ _
  rw [View.set_slice_whole, Rect.mem_set_unit]
  exact Iff.rfl

/-- Every index of the array lies in the block of a writing-back point: row `r` of half `cc` in the block the last
    point of the run of tile `r / 3072` of that half writes back. -/
theorem cover (i : S2x76800x64.Idx) :
    ∃ t : Fin cfg0.N, (cfg0.win 2).flush t = true ∧ i ∈ ((cfg0.win 2).blk t).view.set := by
  have h0 : (i 0).val < 2 := (i 0).isLt
  have h1 : (i 1).val < 76800 := (i 1).isLt
  have h2 : (i 2).val < 64 := (i 2).isLt
  have hN' : cfg0.N = 7800 := N_0
  have hn : ((i 0).val * 25 + (i 1).val / 3072) * 156 + 155 < cfg0.N := lt_of_lt_of_eq (by omega) hN'.symm
  refine ⟨⟨((i 0).val * 25 + (i 1).val / 3072) * 156 + 155, hn⟩, (flush0_2 _).mpr (by dsimp only; omega), ?_⟩
  obtain ⟨-, -, -, e3, e4, e5, -⟩ := idx_facts ⟨((i 0).val * 25 + (i 1).val / 3072) * 156 + 155, hn⟩
  have e3' : win0_2.index ⟨((i 0).val * 25 + (i 1).val / 3072) * 156 + 155, hn⟩ (0 : Fin 3)
      = (((i 0).val * 25 + (i 1).val / 3072) * 156 + 155) / 3900 := e3
  have e4' : win0_2.index ⟨((i 0).val * 25 + (i 1).val / 3072) * 156 + 155, hn⟩ (1 : Fin 3)
      = (((i 0).val * 25 + (i 1).val / 3072) * 156 + 155) / 156 % 25 := e4
  rw [mem_blk]
  intro a
  match a with
  | ⟨0, _⟩ =>
    show win0_2.index ⟨((i 0).val * 25 + (i 1).val / 3072) * 156 + 155, hn⟩ (0 : Fin 3) * 1 ≤ (i 0).val
      ∧ (i 0).val < win0_2.index ⟨((i 0).val * 25 + (i 1).val / 3072) * 156 + 155, hn⟩ (0 : Fin 3) * 1 + 1
    rw [e3']; omega
  | ⟨1, _⟩ =>
    show win0_2.index ⟨((i 0).val * 25 + (i 1).val / 3072) * 156 + 155, hn⟩ (1 : Fin 3) * 3072 ≤ (i 1).val
      ∧ (i 1).val < win0_2.index ⟨((i 0).val * 25 + (i 1).val / 3072) * 156 + 155, hn⟩ (1 : Fin 3) * 3072 + 3072
    rw [e4']; omega
  | ⟨2, _⟩ =>
    show win0_2.index ⟨((i 0).val * 25 + (i 1).val / 3072) * 156 + 155, hn⟩ (2 : Fin 3) * 64 ≤ (i 2).val
      ∧ (i 2).val < win0_2.index ⟨((i 0).val * 25 + (i 1).val / 3072) * 156 + 155, hn⟩ (2 : Fin 3) * 64 + 64
    rw [e5]; omega

/-- So the output array ends holding the whole-array function. -/
theorem final (c : Dev nD) : (Gen.dat0 (F := Ideal) V c).arrAt 2 cfg0.N = G V c :=
  (Gen.dat0 (F := Ideal) V c).arrAt_eq_of_cover 2 (G V c) (flushed_eq V c) cover

/-- The output array after the kernel, read at an index. -/
theorem arr_apply (c : Dev nD) (cc : Fin 2) (r : Fin 76800) (f : Fin 64) :
    ((Gen.dat0 (F := Ideal) V c).arrAt 2 cfg0.N : S2x76800x64.Idx → EReal) (ix3 cc r f)
      = Cert.Gcn.regionOut (msgs V c) (dsts V c) cc r f := by
  rw [final V c]
  rfl

end Cert.KernelIdeal.Region0

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.KHost1.lean ====
/-
  Layer 1 of the graph convolution on the kernel's side, read off the host operations around its aggregation
  kernel: the padded destination words are the destination words followed by -1; a real position's padded message is
  the row of features its source word names, times the edge's normalisation factor; and the layer's output at a row is
  the two halves of the kernel's output added, plus the bias.
-/
import proofs.«409195_j4758823764089_3_alg».proof.Proof.KNames
import proofs.«409195_j4758823764089_3_alg».proof.Proof.Region0
import proofs.«409195_j4758823764089_3_alg».proof.Proof.GcnSpec
import proofs.«409195_j4758823764089_3_alg».proof.Proof.LibRowGatherScatter
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Run

set_option maxRecDepth 16384

noncomputable section

namespace Cert.KernelIdeal.Host1

open Idealize.ShloMosaic Idealize.ShloMosaic.TcCoe Idealize.ShloMosaic.ValueIdx Idealize.SL.Sem
open Cert.KernelIdeal Cert.KernelIdeal.Gen
open Cert.KernelIdeal.KN

variable (m : (ℓ : Loc nD τ sig) → Buf (Elt Ideal) ℓ) (ρ : Dev nD → PrngReg) (c : Dev nD)

/-- One stretch that does not write a buffer leaves it. -/
macro "carry_step " ops:ident : tactic => `(tactic|
  exact StableHlo.after_of_forall_not_mem _ _ (List.forall_iff_forall_mem.mp (by
    simp only [$ops:ident, hostOps0_9, List.take_succ_cons, List.take_zero, List.drop_succ_cons, List.drop_zero,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The padded destination words -/

/-- The destination words are written once, in the first stretch. -/
theorem v6_W4 : W4 m ρ c (Proc.devRef .tc main_v6) = W1 m ρ c (Proc.devRef .tc main_v6) :=
  calc W4 m ρ c (Proc.devRef .tc main_v6)
    _ = W3 m ρ c (Proc.devRef .tc main_v6) := by carry_step hostOps0_3
    _ = W2 m ρ c (Proc.devRef .tc main_v6) := by carry_step hostOps0_2
    _ = W1 m ρ c (Proc.devRef .tc main_v6) := by carry_step hostOps0_1

/-- The padded destination words are written once, by their padding. -/
theorem v36_W11 : W11 m ρ c (Proc.devRef .tc main_v36) = W6 m ρ c (Proc.devRef .tc main_v36) :=
  calc W11 m ρ c (Proc.devRef .tc main_v36)
    _ = W10 m ρ c (Proc.devRef .tc main_v36) := by carry_step hostOps0_10
    _ = W9 m ρ c (Proc.devRef .tc main_v36) := by carry_step hostOps0_9
    _ = W8 m ρ c (Proc.devRef .tc main_v36) := by carry_step hostOps0_8
    _ = W7 m ρ c (Proc.devRef .tc main_v36) := by carry_step hostOps0_7
    _ = W6 m ρ c (Proc.devRef .tc main_v36) := by carry_step hostOps0_6

/-- The padding of the destination words, from any contents: the destination words followed by the word of all ones. -/
theorem pad_v36 (V : Valuation τ sig (Elt Ideal)) :
    (StableHlo.after hostOps0_5 (StableHlo.after hostOps0_4 V) (Proc.devRef .tc main_v36) : S1277952.Idx → BitVec 32)
      = pad S1277952 ![0] ![2952] ![0] (V (Proc.devRef .tc main_v6) : S1275000.Idx → BitVec 32)
          (constantI S_ 32 4294967295#32) pads_S1275000_S1277952_029520 h_S_ := by
  after_results
  simp only [StableHlo.TRef.ofBuf, StableHlo.TRef.toBuf, cast_eq]
  rfl

/-- The padded destination words at the kernel's entry. -/
theorem v36_eq : (W11 m ρ c (Proc.devRef .tc main_v36) : S1277952.Idx → BitVec 32)
      = pad S1277952 ![0] ![2952] ![0] (dstW m ρ c)
          (constantI S_ 32 4294967295#32) pads_S1275000_S1277952_029520 h_S_ := by
  rw [v36_W11]
  show (StableHlo.after hostOps0_5 (StableHlo.after hostOps0_4 (W4 m ρ c)) (Proc.devRef .tc main_v36) : S1277952.Idx → BitVec 32) = _
  rw [pad_v36, v6_W4]

/-- A real position's padded destination word is the edge's. -/
theorem dsts_real (e : Fin 1277952) (h : e.val < 1275000) :
    Cert.KernelIdeal.Region0.dsts (V11 m ρ) c e = dstW m ρ c (ix1 ⟨e.val, h⟩) := by
  show (W11 m ρ c (Proc.devRef .tc main_v36) : S1277952.Idx → BitVec 32) (ix1 e) = _
  rw [v36_eq]
  exact pad_apply_of_inside _ _ _ _ _ _ _ (ix1 e) (ix1 ⟨e.val, h⟩) fun a =>
    match a with
    | ⟨0, _⟩ => by show e.val = 0 + e.val * (0 + 1); omega

/-- A padding position's destination word is -1. -/
theorem dsts_pad (e : Fin 1277952) (h : 1275000 ≤ e.val) :
    Cert.KernelIdeal.Region0.dsts (V11 m ρ) c e = 4294967295#32 := by
  show (W11 m ρ c (Proc.devRef .tc main_v36) : S1277952.Idx → BitVec 32) (ix1 e) = _
  rw [v36_eq]
  rw [pad_apply_of_not_inside (j := ix1 e) (a := 0)]
  · rfl
  · rintro ⟨-, -, h3⟩
    have h3' : (e.val - 0) / 1 < 1275000 := h3
    omega

/-! ## The rows taken -/

/-- The taking of rows, in three parts: the start words; the mask of the start words that name a row; the rows
    gathered, and the fill where the mask is off. -/
abbrev takeA : List (HloOp τ sig (Elt Ideal)) := List.take 8 hostOps0_9
abbrev takeB : List (HloOp τ sig (Elt Ideal)) := List.take 10 (List.drop 8 hostOps0_9)
abbrev takeC : List (HloOp τ sig (Elt Ideal)) := List.drop 18 hostOps0_9

theorem take_cut : (hostOps0_9 : List (HloOp τ sig (Elt Ideal))) = takeA ++ (takeB ++ takeC) := rfl

theorem after_take (V : Valuation τ sig (Elt Ideal)) :
    StableHlo.after hostOps0_9 V = StableHlo.after takeC (StableHlo.after takeB (StableHlo.after takeA V)) := by
  rw [take_cut, StableHlo.after_append, StableHlo.after_append]

/-- The start words of source words: a word with a negative reading moved up by the number of rows, as a column. -/
def startW (x : S1277952.Idx → BitVec 32) : S1277952x1.Idx → BitVec 32 :=
  broadcastInDim S1277952x1 ![0] bcast_S1277952_S1277952x1_0
    (select (cmpi .slt x (broadcastInDim S1277952 ![] bcast_S_S1277952 (constantI S_ 32 0#32)))
      (addi x (broadcastInDim S1277952 ![] bcast_S_S1277952 (constantI S_ 32 75000#32))) x)

/-- The mask of start words: on where the word, read signed, is at least 0 and at most the last row. -/
def maskW (s : S1277952x1.Idx → BitVec 32) : S1277952.Idx → BitVec 1 :=
  Host.reduce IntOp.andi
    (andi (cmpi .sge s (broadcastInDim S1277952x1 ![] bcast_S_S1277952x1 (constantI S_ 32 0#32)))
      (cmpi .sle s (broadcastInDim S1277952x1 ![0, 1] bcast_S1x1_S1277952x1_0_1
        (broadcastInDim S1x1 ![1] bcast_S1_S1x1_1 (constantI S1 32 74999#32)))))
    (constantI S_ 1 1#1) reducesTo_S1277952x1_S1277952_d1 h_S_

/-- The rows taken: the gathered row where the mask is on, the fill elsewhere. -/
def takeW (h : S75000x64.Idx → EReal) (msk : S1277952.Idx → BitVec 1) (s : S1277952x1.Idx → BitVec 32) :
    S1277952x64.Idx → EReal :=
  select (broadcastInDim S1277952x64 ![0] bcast_S1277952_S1277952x64_0 msk)
    (Host.gather gather_S75000x64_S1277952x1_S1277952x64_1_0_n_n_0_1_164 h s)
    (broadcastInDim S1277952x64 ![] bcast_S_S1277952x64 (constant (F := Ideal) S_ .f32 0x7FC00000#32))

section Pieces
variable (V : Valuation τ sig (Elt Ideal))

theorem takeA_v5 :
    (StableHlo.after takeA V (Proc.devRef .tc main_call4_v5) : S1277952x1.Idx → BitVec 32)
      = startW (V (Proc.devRef .tc main_v35)) := by
  simp only [takeA, hostOps0_9, List.take_succ_cons, List.take_zero]
  after_results
  simp only [StableHlo.TRef.ofBuf, StableHlo.TRef.toBuf, cast_eq]
  rfl

theorem takeA_v38 : StableHlo.after takeA V (Proc.devRef .tc main_v38) = V (Proc.devRef .tc main_v38) := by
  carry_step takeA

theorem takeB_v12 :
    (StableHlo.after takeB V (Proc.devRef .tc main_call4_v12) : S1277952.Idx → BitVec 1)
      = maskW (V (Proc.devRef .tc main_call4_v5)) := by
  simp only [takeB, hostOps0_9, List.take_succ_cons, List.take_zero, List.drop_succ_cons, List.drop_zero]
  after_results
  simp only [StableHlo.TRef.ofBuf, StableHlo.TRef.toBuf, cast_eq]
  rfl

theorem takeB_v5 :
    StableHlo.after takeB V (Proc.devRef .tc main_call4_v5) = V (Proc.devRef .tc main_call4_v5) := by
  carry_step takeB

theorem takeB_v38 : StableHlo.after takeB V (Proc.devRef .tc main_v38) = V (Proc.devRef .tc main_v38) := by
  carry_step takeB

theorem takeC_v39 :
    (StableHlo.after takeC V (Proc.devRef .tc main_v39) : S1277952x64.Idx → EReal)
      = takeW (V (Proc.devRef .tc main_v38)) (V (Proc.devRef .tc main_call4_v12)) (V (Proc.devRef .tc main_call4_v5)) := by
  simp only [takeC, hostOps0_9, List.drop_succ_cons, List.drop_zero]
  after_results
  simp only [StableHlo.TRef.ofBuf, StableHlo.TRef.toBuf, cast_eq]
  rfl

/-- The rows taken, from any contents: from the features and the padded source words. -/
theorem take_v39 :
    (StableHlo.after hostOps0_9 V (Proc.devRef .tc main_v39) : S1277952x64.Idx → EReal)
      = takeW (V (Proc.devRef .tc main_v38)) (maskW (startW (V (Proc.devRef .tc main_v35))))
          (startW (V (Proc.devRef .tc main_v35))) := by
  rw [after_take, takeC_v39, takeB_v12, takeB_v5, takeB_v38, takeA_v5, takeA_v38]

/-- The padded messages, from any contents: the rows taken times the padded factors along the columns. -/
theorem mul_v43 :
    (StableHlo.after hostOps0_10 V (Proc.devRef .tc main_v43) : S1277952x64.Idx → EReal)
      = truncf (F := Ideal) .bf16 (mulf (V (Proc.devRef .tc main_v39) : FVec Ideal S1277952x64 .f32)
          (broadcastInDim S1277952x64 ![0, 1] bcast_S1277952x1_S1277952x64_0_1
            (broadcastInDim S1277952x1 ![0] bcast_S1277952_S1277952x1_0 (V (Proc.devRef .tc main_v37)))))
          bitsLt_bf16_f32 := by
  after_results

/-- The padded factors, from any contents. -/
theorem pad_v37 :
    (StableHlo.after hostOps0_7 V (Proc.devRef .tc main_v37) : S1277952.Idx → EReal)
      = pad S1277952 ![0] ![2952] ![0] (V (Proc.devRef .tc main_v34) : S1275000.Idx → EReal)
          (V (Proc.devRef .tc main_cst_10)) pads_S1275000_S1277952_029520 h_S_ := by
  after_results
  simp only [StableHlo.TRef.ofBuf, StableHlo.TRef.toBuf, cast_eq]
  rfl

/-- The padded source words, from any contents. -/
theorem pad_v35 :
    (StableHlo.after hostOps0_3 V (Proc.devRef .tc main_v35) : S1277952.Idx → BitVec 32)
      = pad S1277952 ![0] ![2952] ![0] (V (Proc.devRef .tc main_v5) : S1275000.Idx → BitVec 32)
          (V (Proc.devRef .tc main_c_8)) pads_S1275000_S1277952_029520 h_S_ := by
  after_results
  simp only [StableHlo.TRef.ofBuf, StableHlo.TRef.toBuf, cast_eq]
  rfl

end Pieces

/-! ## Reading at a position -/

/-- A padded list at a real position is the list. -/
theorem pad_real {α : Type} (x : S1275000.Idx → α) (v : S_.Idx → α) (e : Fin 1277952) (h : e.val < 1275000) :
    pad S1277952 ![0] ![2952] ![0] x v pads_S1275000_S1277952_029520 h_S_ (ix1 e) = x (ix1 ⟨e.val, h⟩) :=
  pad_apply_of_inside _ _ _ _ _ _ _ (ix1 e) (ix1 ⟨e.val, h⟩) fun a =>
    match a with
    | ⟨0, _⟩ => by show e.val = 0 + e.val * (0 + 1); omega

/-- The start word at a position is the source word there, moved up by the number of rows when its reading is
    negative. -/
theorem startW_apply (x : S1277952.Idx → BitVec 32) (e : Fin 1277952) :
    startW x (ix2 e 0) = Cert.Gcn.wrapW (x (ix1 e)) := by
  unfold startW
  rw [broadcastInDim_apply _ _ _ (ix2 e 0) (ix1 e) (fun a => match a with | ⟨0, _⟩ => rfl)]
  rfl

/-- The column positions that reduce into a position: the one. -/
theorem drop_filter (e : Fin 1277952) :
    (Finset.univ.filter fun i : S1277952x1.Idx => reducesTo_S1277952x1_S1277952_d1.drop i = ix1 e) = {ix2 e 0} := by
  ext i
  rw [Finset.mem_filter, Finset.mem_singleton]
  simp only [Finset.mem_univ, true_and]
  have h0 : (reducesTo_S1277952x1_S1277952_d1.drop i 0 : ℕ) = (i 0).val :=
    Shape.ReducesTo.drop_apply_val_of_eq _ i 0 0
  constructor
  · intro h
    rw [h] at h0
    have h1 : (i 1).val < 1 := (i 1).isLt
    funext a
    match a with
    | ⟨0, _⟩ => exact Fin.ext h0.symm
    | ⟨1, _⟩ => exact Fin.ext (by show (i 1).val = 0; omega)
  · rintro rfl
    funext a
    match a with
    | ⟨0, _⟩ => exact Fin.ext h0

/-- The mask at a position: the two comparisons of the start word there, and-ed. -/
theorem maskW_apply (s : S1277952x1.Idx → BitVec 32) (e : Fin 1277952) :
    maskW s (ix1 e)
      = IntOp.andi (IntOp.andi (IntOp.cmpi .sge (s (ix2 e 0)) 0#32) (IntOp.cmpi .sle (s (ix2 e 0)) 74999#32)) 1#1 := by
  unfold maskW
  rw [Host.reduce_eq_fold, drop_filter e, Finset.fold_singleton]
  rfl

/-- The rows taken at a position whose start word names a row: that row. -/
theorem takeW_apply (h : S75000x64.Idx → EReal) (x : S1277952.Idx → BitVec 32) (e : Fin 1277952) (f : Fin 64)
    (hin : Cert.Gcn.inRow (Cert.Gcn.wrapW (x (ix1 e)))) :
    takeW h (maskW (startW x)) (startW x) (ix2 e f)
      = h (ix2 (Cert.Gcn.clampRow (Cert.Gcn.wrapW (x (ix1 e)))) f) := by
  have hm : broadcastInDim S1277952x64 ![0] bcast_S1277952_S1277952x64_0 (maskW (startW x)) (ix2 e f) = 1#1 := by
    rw [broadcastInDim_apply _ _ _ (ix2 e f) (ix1 e) (fun a => match a with | ⟨0, _⟩ => rfl)]
    rw [maskW_apply, startW_apply]
    have h1 : IntOp.cmpi .sge (Cert.Gcn.wrapW (x (ix1 e))) 0#32 = 1#1 :=
      IntOp.cmpi_sge.2 (by rw [BitVec.toInt_zero]; exact hin.1)
    have h2 : IntOp.cmpi .sle (Cert.Gcn.wrapW (x (ix1 e))) 74999#32 = 1#1 :=
      IntOp.cmpi_sle.2 (by rw [show (74999#32 : BitVec 32).toInt = 74999 from by decide]; exact hin.2)
    rw [h1, h2]
    rfl
  unfold takeW
  rw [select_apply, hm, select_one]
  rw [Cert.Lib.RowGS.gather_rows_apply (by decide) _ rfl rfl rfl rfl rfl rfl rfl h (startW x) e f]
  refine congrArg (fun r => h (ix2 r f)) (Fin.ext ?_)
  show min (startW x (ix2 e 0)).toInt.toNat (75000 - 1) = min (Cert.Gcn.wrapW (x (ix1 e))).toInt.toNat 74999
  rw [startW_apply]

/-! ## The padded messages at the kernel's entry -/

/-- The padded factors are written once, by their padding. -/
theorem v37_W10 : W10 m ρ c (Proc.devRef .tc main_v37) = W8 m ρ c (Proc.devRef .tc main_v37) :=
  calc W10 m ρ c (Proc.devRef .tc main_v37)
    _ = W9 m ρ c (Proc.devRef .tc main_v37) := by carry_step hostOps0_9
    _ = W8 m ρ c (Proc.devRef .tc main_v37) := by carry_step hostOps0_8

/-- The factors are written once, in the third stretch. -/
theorem v34_W7 : W7 m ρ c (Proc.devRef .tc main_v34) = W3 m ρ c (Proc.devRef .tc main_v34) :=
  calc W7 m ρ c (Proc.devRef .tc main_v34)
    _ = W6 m ρ c (Proc.devRef .tc main_v34) := by carry_step hostOps0_6
    _ = W5 m ρ c (Proc.devRef .tc main_v34) := by carry_step hostOps0_5
    _ = W4 m ρ c (Proc.devRef .tc main_v34) := by carry_step hostOps0_4
    _ = W3 m ρ c (Proc.devRef .tc main_v34) := by carry_step hostOps0_3

/-- The padded source words are written once, by their padding. -/
theorem v35_W9 : W9 m ρ c (Proc.devRef .tc main_v35) = W4 m ρ c (Proc.devRef .tc main_v35) :=
  calc W9 m ρ c (Proc.devRef .tc main_v35)
    _ = W8 m ρ c (Proc.devRef .tc main_v35) := by carry_step hostOps0_8
    _ = W7 m ρ c (Proc.devRef .tc main_v35) := by carry_step hostOps0_7
    _ = W6 m ρ c (Proc.devRef .tc main_v35) := by carry_step hostOps0_6
    _ = W5 m ρ c (Proc.devRef .tc main_v35) := by carry_step hostOps0_5
    _ = W4 m ρ c (Proc.devRef .tc main_v35) := by carry_step hostOps0_4

/-- The source words are written once, in the first stretch. -/
theorem v5_W3 : W3 m ρ c (Proc.devRef .tc main_v5) = W1 m ρ c (Proc.devRef .tc main_v5) :=
  calc W3 m ρ c (Proc.devRef .tc main_v5)
    _ = W2 m ρ c (Proc.devRef .tc main_v5) := by carry_step hostOps0_2
    _ = W1 m ρ c (Proc.devRef .tc main_v5) := by carry_step hostOps0_1

/-- The padded factor at a real position is the edge's. -/
theorem v37_real (e : Fin 1277952) (h : e.val < 1275000) :
    (W10 m ρ c (Proc.devRef .tc main_v37) : S1277952.Idx → EReal) (ix1 e) = nrm m ρ c (ix1 ⟨e.val, h⟩) := by
  rw [v37_W10]
  show (StableHlo.after hostOps0_7 (W7 m ρ c) (Proc.devRef .tc main_v37) : S1277952.Idx → EReal) (ix1 e) = _
  rw [pad_v37, pad_real _ _ e h, v34_W7]

/-- The padded source word at a real position is the edge's. -/
theorem v35_real (e : Fin 1277952) (h : e.val < 1275000) :
    (W9 m ρ c (Proc.devRef .tc main_v35) : S1277952.Idx → BitVec 32) (ix1 e) = srcW m ρ c (ix1 ⟨e.val, h⟩) := by
  rw [v35_W9]
  show (StableHlo.after hostOps0_3 (W3 m ρ c) (Proc.devRef .tc main_v35) : S1277952.Idx → BitVec 32) (ix1 e) = _
  rw [pad_v35, pad_real _ _ e h, v5_W3]

/-- The row taken at a real position whose source word names a row: that row of the features. -/
theorem v39_real (e : Fin 1277952) (h : e.val < 1275000) (f : Fin 64)
    (hin : Cert.Gcn.inRow (Cert.Gcn.wrapW (srcW m ρ c (ix1 ⟨e.val, h⟩)))) :
    (W10 m ρ c (Proc.devRef .tc main_v39) : S1277952x64.Idx → EReal) (ix2 e f)
      = h1 m ρ c (ix2 (Cert.Gcn.clampRow (Cert.Gcn.wrapW (srcW m ρ c (ix1 ⟨e.val, h⟩)))) f) := by
  show (StableHlo.after hostOps0_9 (W9 m ρ c) (Proc.devRef .tc main_v39) : S1277952x64.Idx → EReal) (ix2 e f) = _
  rw [take_v39]
  have hs := v35_real m ρ c e h
  rw [takeW_apply _ _ e f (by rw [hs]; exact hin), hs]

/-- A real position's padded message, when the edge's source word names a row: that row of the features times the
    edge's normalisation factor. -/
theorem msgs_real (e : Fin 1277952) (h : e.val < 1275000) (f : Fin 64)
    (hin : Cert.Gcn.inRow (Cert.Gcn.wrapW (srcW m ρ c (ix1 ⟨e.val, h⟩)))) :
    Cert.KernelIdeal.Region0.msgs (V11 m ρ) c e f
      = h1 m ρ c (ix2 (Cert.Gcn.clampRow (Cert.Gcn.wrapW (srcW m ρ c (ix1 ⟨e.val, h⟩)))) f) * nrm m ρ c (ix1 ⟨e.val, h⟩) := by
  show (StableHlo.after hostOps0_10 (W10 m ρ c) (Proc.devRef .tc main_v43) : S1277952x64.Idx → EReal) (ix2 e f) = _
  rw [mul_v43, truncf_apply, mulf_apply]
  rw [broadcastInDim_apply _ _ _ (ix2 e f) (ix2 e 0) (fun a => match a with | ⟨0, _⟩ => rfl | ⟨1, _⟩ => rfl),
    broadcastInDim_apply _ _ _ (ix2 e 0) (ix1 e) (fun a => match a with | ⟨0, _⟩ => rfl)]
  rw [v37_real m ρ c e h, v39_real m ρ c e h f hin]

/-- A stretch of host operations leaves a buffer it does not write as it was. -/
macro "kept_by " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-- The bias is never written before the first layer's output is formed: at the first kernel's exit its buffer
    holds what the program was given. -/
theorem bias_kept : (W12 m ρ c (Proc.devRef .tc main_arg3) : S64.Idx → EReal) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := by kept_by hostOps0_10
    _ = W9 m ρ c (Proc.devRef .tc main_arg3) := by kept_by hostOps0_9
    _ = W8 m ρ c (Proc.devRef .tc main_arg3) := by kept_by hostOps0_8
    _ = W7 m ρ c (Proc.devRef .tc main_arg3) := by kept_by hostOps0_7
    _ = W6 m ρ c (Proc.devRef .tc main_arg3) := by kept_by hostOps0_6
    _ = W5 m ρ c (Proc.devRef .tc main_arg3) := by kept_by hostOps0_5
    _ = W4 m ρ c (Proc.devRef .tc main_arg3) := by kept_by hostOps0_4
    _ = W3 m ρ c (Proc.devRef .tc main_arg3) := by kept_by hostOps0_3
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl

/-- The first half of a `[2, 76800, 64]` array, cut to its first 75000 rows and read as `[75000, 64]`: at
    `(r, f)` the array at `(0, r, f)`. -/
theorem half0_apply (X : S2x76800x64.Idx → EReal) (r : Fin 75000) (f : Fin 64) (r' : Fin 76800) (hr : r'.val = r.val) :
    shapeCast S75000x64 (extractStridedSlice S1x75000x64 ![0, 0, 0] X slices_S2x76800x64_S1x75000x64_0_0_0)
      shapeCasts_S1x75000x64_S75000x64 (ix2 r f) = X (ix3 (0 : Fin 2) r' f) := by
  refine (shapeCast_1ab_ab_apply _ _ r f).trans ?_
  refine extractStridedSlice_apply _ _ _ _ _ fun a => ?_
  match a with
  | ⟨0, _⟩ => rfl
  | ⟨1, _⟩ => exact hr.trans (Nat.zero_add _).symm
  | ⟨2, _⟩ => exact (Nat.zero_add _).symm

/-- The second half likewise: at `(r, f)` the array at `(1, r, f)`. -/
theorem half1_apply (X : S2x76800x64.Idx → EReal) (r : Fin 75000) (f : Fin 64) (r' : Fin 76800) (hr : r'.val = r.val) :
    shapeCast S75000x64 (extractStridedSlice S1x75000x64 ![1, 0, 0] X slices_S2x76800x64_S1x75000x64_1_0_0)
      shapeCasts_S1x75000x64_S75000x64 (ix2 r f) = X (ix3 (1 : Fin 2) r' f) := by
  refine (shapeCast_1ab_ab_apply _ _ r f).trans ?_
  refine extractStridedSlice_apply _ _ _ _ _ fun a => ?_
  match a with
  | ⟨0, _⟩ => rfl
  | ⟨1, _⟩ => exact hr.trans (Nat.zero_add _).symm
  | ⟨2, _⟩ => exact (Nat.zero_add _).symm

/-- A vector of 64 entries repeated along 75000 rows reads, at `(r, f)`, the vector at `f`. -/
theorem bias_apply (b : S64.Idx → EReal) (r : Fin 75000) (f : Fin 64) :
    broadcastInDim S75000x64 ![0, 1] bcast_S1x64_S75000x64_0_1 (broadcastInDim S1x64 ![1] bcast_S64_S1x64_1 b) (ix2 r f)
      = b (ix1 f) := by
  refine (broadcastInDim_apply _ _ _ _ (ix2 (0 : Fin 1) f) fun a => ?_).trans ?_
  · match a with
    | ⟨0, _⟩ => rfl
    | ⟨1, _⟩ => rfl
  · refine broadcastInDim_apply _ _ _ _ (ix1 f) fun a => ?_
    match a with
    | ⟨0, _⟩ => rfl

/-- The layer's output at a row: the two halves of the kernel's output added, plus the bias. -/
theorem out1_apply (r : Fin 75000) (f : Fin 64) :
    out1 m ρ c (ix2 r f)
      = (Cert.Gcn.regionOut (Cert.KernelIdeal.Region0.msgs (V11 m ρ) c) (Cert.KernelIdeal.Region0.dsts (V11 m ρ) c) 0 ⟨r.val, by have := r.isLt; omega⟩ f
          + Cert.Gcn.regionOut (Cert.KernelIdeal.Region0.msgs (V11 m ρ) c) (Cert.KernelIdeal.Region0.dsts (V11 m ρ) c) 1 ⟨r.val, by have := r.isLt; omega⟩ f)
        + (m ((c : Thread nD τ).loc main_arg3) : S64.Idx → EReal) (ix1 f) := by
  have hr := r.isLt
  dsimp only [out1, W13, hostOps1]
  after_results
  simp only [addf_apply]
  refine congrArg₂ (· + ·) (congrArg₂ (· + ·) ?_ ?_) ?_
  · refine (half0_apply (W12 m ρ c (Proc.devRef .tc main_v44)) r f ⟨r.val, by omega⟩ rfl).trans ?_
    exact (congrFun (W12_arr m ρ c 2) _).trans (Cert.KernelIdeal.Region0.arr_apply (V11 m ρ) c 0 ⟨r.val, by omega⟩ f)
  · refine (half1_apply (W12 m ρ c (Proc.devRef .tc main_v44)) r f ⟨r.val, by omega⟩ rfl).trans ?_
    exact (congrFun (W12_arr m ρ c 2) _).trans (Cert.KernelIdeal.Region0.arr_apply (V11 m ρ) c 1 ⟨r.val, by omega⟩ f)
  · refine (bias_apply (W12 m ρ c (Proc.devRef .tc main_arg3)) r f).trans ?_
    exact congrFun (bias_kept m ρ c) (ix1 f)

end Cert.KernelIdeal.Host1

end
-- ==== Proof.Region1Body.lean ====
/-
  One run of the aggregation kernel's body at an element of its output block: the chunk's one-hot product — over the
  chunk's 4096 positions, 1 when the row's lane in the tile, as a 32-bit word, equals the position's destination word
  minus the tile's first row, times the position's message — added to zero at a tile's first chunk and to what the
  chunk before left otherwise.
-/
import proofs.«409195_j4758823764089_3_alg».proof.Proof.Gen.KernelIdeal.Frame
import proofs.«409195_j4758823764089_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1Body

open Idealize.ShloMosaic Idealize.ShloMosaic.TcCoe Idealize.ShloMosaic.ValueIdx Idealize.SL.Sem
open Cert.KernelIdeal Cert.KernelIdeal.Gen
open scoped BigOperators

/-- The one-hot product of one chunk at lane `p` of tile `j`, column `f`: `d` the chunk's destination words, `M` its
    messages. -/
def chunk (d : Vec Ideal S4096 .i32) (M : Vec Ideal S4096x16 .bf16) (j : ℕ) (p : Fin 3072) (f : Fin 16) : EReal :=
  ∑ k : Fin 4096, (if BitVec.ofNat 32 p.val = (d (ix1 k) : BitVec 32) - BitVec.ofNat 32 j * 3072#32 then (1 : EReal) else 0)
    * (M (ix2 k f) : EReal)

/-! ## What each case's stores leave, as the stored block -/

variable {F : FTy → Type} [FloatOps F]

/-- The all-zero offsets of a whole-block access, at ranks one, two and three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a later chunk the body's one store covers the block: what it leaves is the stored block, computed from the
    destination words, the messages and the block's running contents, each read whole. -/
theorem pieceB (c : Dev nD) (i : grid1.Coords) (arg3 : Memref sig .tc .vmem S4096x16 .bf16) (harg3 : arg3.IsWhole)
    (arg4 : Memref sig .tc .vmem S4096 .i32) (harg4 : arg4.IsWhole) (arg5 : Memref sig .tc .vmem S1x3072x16 .f32)
    (harg5 : arg5.IsWhole) (hc0 : ¬cond1_0 i) (x0 : Vec F S4096x16 .bf16) (x1 : Vec F S4096 .i32)
    (xo2 : Vec F S1x3072x16 .f32) :
    out1_B_2 c i arg3 harg3 arg4 harg4 arg5 harg5 hc0 x0 x1 xo2 = k1_pay2 i x1 x0 xo2 := by
  unfold out1_B_2
  rw [View.read_writes_eq_canon _ _ _ (cover1_B_2 c i arg3 harg3 arg4 harg4 arg5 harg5 hc0 x0 x1 xo2)]
  unfold kernelRun1_B
  dsimp only
  sl_unfold_words
  rw [View.canon_unit_zero hz3]
  simp only [View.readAt_eq_ld, harg3.read_unread, harg4.read_unread, harg5.read_unread,
    View.ld_unit_zero (S := S4096) hz1, View.ld_unit_zero (S := S4096x16) hz2, View.ld_unit_zero (S := S1x3072x16) hz3]

/-- At a tile's first chunk the body stores the zero block, reads it back, and stores over it: what it leaves is the
    stored block computed from the destination words, the messages and the zero block. -/
theorem pieceA (c : Dev nD) (i : grid1.Coords) (arg3 : Memref sig .tc .vmem S4096x16 .bf16) (harg3 : arg3.IsWhole)
    (arg4 : Memref sig .tc .vmem S4096 .i32) (harg4 : arg4.IsWhole) (arg5 : Memref sig .tc .vmem S1x3072x16 .f32)
    (harg5 : arg5.IsWhole) (hc0 : cond1_0 i) (x0 : Vec F S4096x16 .bf16) (x1 : Vec F S4096 .i32) :
    out1_A_2 c i arg3 harg3 arg4 harg4 arg5 harg5 hc0 x0 x1 = k1_pay2 i x1 x0 (k1_pay1 (F := F)) := by
  unfold out1_A_2
  rw [View.read_writes_eq_canon _ _ _ (cover1_A_2 c i arg3 harg3 arg4 harg4 arg5 harg5 hc0 x0 x1)]
  unfold kernelRun1_A
  dsimp only
  sl_unfold_words
  rw [View.canon_cons_unit_zero (S := S1x3072x16) hz3, View.readCov_unit_zero (S := S1x3072x16) _ hz3]
  simp only [View.readAt_eq_ld, harg3.read_unread, harg4.read_unread,
    View.ld_unit_zero (S := S4096) hz1, View.ld_unit_zero (S := S4096x16) hz2]

/-! ## The matrix product read at an index -/

/-- The left factor is read at the result's row and the contraction position, the right factor at the contraction
    position and the result's column: the four coordinates. -/
theorem lhs_axis0 (j : S3072x16.Idx) (q : dot_S3072x4096_S4096x16_S3072x16_1_0_0_1_n_n.contr.Idx) :
    (dot_S3072x4096_S4096x16_S3072x16_1_0_0_1_n_n.lhsIdx j q 0).val = (j 0).val := by
  unfold DotDims.lhsIdx
  rw [dif_neg (show ¬(0 : Fin S3072x4096.rank) ∈ dot_S3072x4096_S4096x16_S3072x16_1_0_0_1_n_n.lhsBatch by decide), dif_pos (show (0 : Fin S3072x4096.rank) ∈ dot_S3072x4096_S4096x16_S3072x16_1_0_0_1_n_n.lhsNonContracting by decide)]
  rfl
theorem lhs_axis1 (j : S3072x16.Idx) (q : dot_S3072x4096_S4096x16_S3072x16_1_0_0_1_n_n.contr.Idx) :
    (dot_S3072x4096_S4096x16_S3072x16_1_0_0_1_n_n.lhsIdx j q 1).val = (q ⟨0, by decide⟩).val :=
  dot_S3072x4096_S4096x16_S3072x16_1_0_0_1_n_n.lhsIdx_val_of_single rfl j q
theorem rhs_axis0 (j : S3072x16.Idx) (q : dot_S3072x4096_S4096x16_S3072x16_1_0_0_1_n_n.contr.Idx) :
    (dot_S3072x4096_S4096x16_S3072x16_1_0_0_1_n_n.rhsIdx j q 0).val = (q ⟨0, by decide⟩).val :=
  dot_S3072x4096_S4096x16_S3072x16_1_0_0_1_n_n.rhsIdx_val_of_single rfl j q
theorem rhs_axis1 (j : S3072x16.Idx) (q : dot_S3072x4096_S4096x16_S3072x16_1_0_0_1_n_n.contr.Idx) :
    (dot_S3072x4096_S4096x16_S3072x16_1_0_0_1_n_n.rhsIdx j q 1).val = (j 1).val := by
  unfold DotDims.rhsIdx
  rw [dif_neg (show ¬(1 : Fin S4096x16.rank) ∈ dot_S3072x4096_S4096x16_S3072x16_1_0_0_1_n_n.rhsBatch by decide), dif_pos (show (1 : Fin S4096x16.rank) ∈ dot_S3072x4096_S4096x16_S3072x16_1_0_0_1_n_n.rhsNonContracting by decide)]
  rfl

/-- The product of a [3072, 4096] factor and a [4096, 16] factor into the zero block, at row `p` and column `f`: the
    sum over the 4096 contraction positions of the factors' products. -/
theorem matmul_read (L : FVec Ideal S3072x4096 .bf16) (R : FVec Ideal S4096x16 .bf16) (p : Fin 3072) (f : Fin 16) :
    (matmul (F := Ideal) dot_S3072x4096_S4096x16_S3072x16_1_0_0_1_n_n none L R (constant (F := Ideal) S3072x16 .f32 0x00000000#32) (ix2 p f) : EReal)
      = ∑ k : Fin 4096, (L (ix2 p k) : EReal) * (R (ix2 k f) : EReal) := by
  show FloatOps.matmul dot_S3072x4096_S4096x16_S3072x16_1_0_0_1_n_n none L R (constant (F := Ideal) S3072x16 .f32 0x00000000#32) (ix2 p f) = _
  rw [Ideal.matmul_constant_zero_apply, ← Equiv.sum_comp (ValueIdx.contrEquiv1 dot_S3072x4096_S4096x16_S3072x16_1_0_0_1_n_n 4096 rfl rfl).symm]
  refine Finset.sum_congr rfl fun k _ => ?_
  have hk := ValueIdx.contrEquiv1_symm_val dot_S3072x4096_S4096x16_S3072x16_1_0_0_1_n_n 4096 rfl rfl k
  have el : dot_S3072x4096_S4096x16_S3072x16_1_0_0_1_n_n.lhsIdx (ix2 p f) ((ValueIdx.contrEquiv1 dot_S3072x4096_S4096x16_S3072x16_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S3072x4096_S4096x16_S3072x16_1_0_0_1_n_n.rhsIdx (ix2 p f) ((ValueIdx.contrEquiv1 dot_S3072x4096_S4096x16_S3072x16_1_0_0_1_n_n 4096 rfl rfl).symm k) = ix2 k f := funext fun a => Fin.ext (by
    match a with
    | ⟨0, _⟩ => exact (rhs_axis0 _ _).trans hk
    | ⟨1, _⟩ => exact rhs_axis1 _ _)
  rw [el, er]

/-! ## The one-hot factor read at an index -/

/-- A one-bit word widened to 32 bits and read as a signed integer is 1 when the bit is set and 0 otherwise. -/
theorem sitofp_bit (b : BitVec 1) :
    (FloatOps.sitofp (F := Ideal) .f32 (b.setWidth 32) : EReal) = if b = 1#1 then 1 else 0 := by
  rcases BitVec.eq_zero_or_eq_one b with h | h
  · subst h
    show (((0#1).setWidth 32).toInt : ℝ).toEReal = _
    simp
  · subst h
    show (((1#1).setWidth 32).toInt : ℝ).toEReal = _
    simp

/-- The one-hot factor of tile `j`: at lane `p` and position `k`, whether the lane's 32-bit word equals the position's
    destination word minus the tile's first row. -/
def hot (j : ℕ) (d : Vec Ideal S4096 .i32) : FVec Ideal S3072x4096 .bf16 :=
  truncf .bf16 (sitofp .f32 (extui 32 (cmpi .eq
    (broadcastTo S3072x4096 (iota .tc S3072x1 32 [0] iota_S3072x1_d0_w32) broadcasts_S3072x1_S3072x4096)
    (broadcastTo S3072x4096 (subi (shapeCast S1x4096 (shapeCast S4096 d shapeCasts_S4096_S4096) shapeCasts_S4096_S1x4096)
      (broadcast S1x4096 (Scalar.muli (BitVec.ofNat 32 j) 3072#32))) broadcasts_S1x4096_S3072x4096)) natLt_1_32)) bitsLt_bf16_f32

/-- The factor at `(p, k)`: the lane column gives the word of `p`, the row of destination words minus the tile's first
    row gives `d k - 3072 j` on 32-bit words; their comparison bit, widened and converted, is 1 or 0. -/
theorem hot_apply (j : ℕ) (d : Vec Ideal S4096 .i32) (p : Fin 3072) (k : Fin 4096) :
    (hot j d (ix2 p k) : EReal)
      = if BitVec.ofNat 32 p.val = (d (ix1 k) : BitVec 32) - BitVec.ofNat 32 j * 3072#32 then 1 else 0 := by
  unfold hot
  have e1 := Cert.Lib.Column.broadcastTo_a1_ab_apply (iota .tc S3072x1 32 [0] iota_S3072x1_d0_w32) broadcasts_S3072x1_S3072x4096 p k
  have e2 := broadcastTo_1b_ab_apply (subi (shapeCast S1x4096 (shapeCast S4096 d shapeCasts_S4096_S4096) shapeCasts_S4096_S1x4096)
      (broadcast S1x4096 (Scalar.muli (BitVec.ofNat 32 j) 3072#32))) broadcasts_S1x4096_S3072x4096 p k
  have e3 := shapeCast_a_1a_apply (shapeCast S4096 d shapeCasts_S4096_S4096) shapeCasts_S4096_S1x4096 (0 : Fin 1) k
  rw [shapeCast_self] at e3
  show (FloatOps.sitofp (F := Ideal) .f32 ((IntOp.cmpi .eq
      (broadcastTo S3072x4096 (iota .tc S3072x1 32 [0] iota_S3072x1_d0_w32) broadcasts_S3072x1_S3072x4096 (ix2 p k))
      (broadcastTo S3072x4096 (subi (shapeCast S1x4096 (shapeCast S4096 d shapeCasts_S4096_S4096) shapeCasts_S4096_S1x4096)
        (broadcast S1x4096 (Scalar.muli (BitVec.ofNat 32 j) 3072#32))) broadcasts_S1x4096_S3072x4096 (ix2 p k))).setWidth 32) : EReal) = _
  rw [e1, e2, sitofp_bit]
  show (if IntOp.cmpi .eq (BitVec.ofNat 32 (0 * 3072 + p.val))
      (shapeCast S1x4096 (shapeCast S4096 d shapeCasts_S4096_S4096) shapeCasts_S4096_S1x4096 (ix2 (0 : Fin 1) k) - BitVec.ofNat 32 j * 3072#32) = 1#1
      then (1 : EReal) else 0) = _
  rw [shapeCast_self, e3, Nat.zero_mul, Nat.zero_add]
  exact if_congr IntOp.cmpi_eq rfl rfl

/-! ## The payload read at an index -/

/-- The stored block: the loaded block, its unit axis dropped, plus the product of the one-hot factor and the messages
    into zero, the unit axis put back. -/
theorem pay2_eq (i : grid1.Coords) (v3 : Vec Ideal S4096 .i32) (v16 : FVec Ideal S4096x16 .bf16) (v18 : FVec Ideal S1x3072x16 .f32) :
    k1_pay2 (F := Ideal) i v3 v16 v18
      = shapeCast S1x3072x16 (addf (shapeCast S3072x16 v18 shapeCasts_S1x3072x16_S3072x16)
          (matmul (F := Ideal) dot_S3072x4096_S4096x16_S3072x16_1_0_0_1_n_n none (hot (i 1).val v3)
            (shapeCast S4096x16 v16 shapeCasts_S4096x16_S4096x16) (constant (F := Ideal) S3072x16 .f32 0x00000000#32)))
          shapeCasts_S3072x16_S1x3072x16 := rfl

/-- The block the body stores, at lane `p` and column `f`: what it loaded there plus the chunk's product. -/
theorem pay2_apply (i : grid1.Coords) (v3 : Vec Ideal S4096 .i32) (v16 : FVec Ideal S4096x16 .bf16) (v18 : FVec Ideal S1x3072x16 .f32)
    (p : Fin 3072) (f : Fin 16) :
    (k1_pay2 (F := Ideal) i v3 v16 v18 (ix3 (0 : Fin 1) p f) : EReal) = (v18 (ix3 (0 : Fin 1) p f) : EReal) + chunk v3 v16 (i 1).val p f := by
  rw [pay2_eq]
  refine (shapeCast_ab_1ab_apply _ shapeCasts_S3072x16_S1x3072x16 (0 : Fin 1) p f).trans ?_
  refine (addf_apply _ _ _).trans ?_
  refine congrArg₂ (· + ·) (shapeCast_1ab_ab_apply v18 shapeCasts_S1x3072x16_S3072x16 p f) ?_
  refine (matmul_read _ _ p f).trans ?_
  unfold chunk
  refine Finset.sum_congr rfl fun k _ => ?_
  rw [hot_apply, shapeCast_self]

/-- The zero block at an element is zero. -/
theorem pay1_apply (p : Fin 3072) (f : Fin 16) : (k1_pay1 (F := Ideal) (ix3 (0 : Fin 1) p f) : EReal) = 0 := by
  unfold k1_pay1
  refine (shapeCast_ab_1ab_apply _ shapeCasts_S3072x16_S1x3072x16 (0 : Fin 1) p f).trans ?_
  exact Ideal.ofBits_zero_f32

/-- At a tile's first chunk the block is zeroed and the chunk's product added. -/
theorem outA (c : Dev nD) (i : grid1.Coords) (arg3 : Memref sig .tc .vmem S4096x16 .bf16) (harg3 : arg3.IsWhole)
    (arg4 : Memref sig .tc .vmem S4096 .i32) (harg4 : arg4.IsWhole) (arg5 : Memref sig .tc .vmem S1x3072x16 .f32)
    (harg5 : arg5.IsWhole) (hc0 : cond1_0 i) (x0 : Vec Ideal S4096x16 .bf16) (x1 : Vec Ideal S4096 .i32)
    (p : Fin 3072) (f : Fin 16) :
    (out1_A_2 (F := Ideal) c i arg3 harg3 arg4 harg4 arg5 harg5 hc0 x0 x1 (ix3 (0 : Fin 1) p f) : EReal)
      = 0 + chunk x1 x0 (i 1).val p f := by
  refine (congrFun (pieceA (F := Ideal) c i arg3 harg3 arg4 harg4 arg5 harg5 hc0 x0 x1) (ix3 (0 : Fin 1) p f)).trans ?_
  refine (pay2_apply i x1 x0 (k1_pay1 (F := Ideal)) p f).trans ?_
  rw [pay1_apply]

/-- At a later chunk the chunk's product is added to what the chunk before left. -/
theorem outB (c : Dev nD) (i : grid1.Coords) (arg3 : Memref sig .tc .vmem S4096x16 .bf16) (harg3 : arg3.IsWhole)
    (arg4 : Memref sig .tc .vmem S4096 .i32) (harg4 : arg4.IsWhole) (arg5 : Memref sig .tc .vmem S1x3072x16 .f32)
    (harg5 : arg5.IsWhole) (hc0 : ¬cond1_0 i) (x0 : Vec Ideal S4096x16 .bf16) (x1 : Vec Ideal S4096 .i32)
    (xo2 : Vec Ideal S1x3072x16 .f32) (p : Fin 3072) (f : Fin 16) :
    (out1_B_2 (F := Ideal) c i arg3 harg3 arg4 harg4 arg5 harg5 hc0 x0 x1 xo2 (ix3 (0 : Fin 1) p f) : EReal)
      = (xo2 (ix3 (0 : Fin 1) p f) : EReal) + chunk x1 x0 (i 1).val p f := by
  refine (congrFun (pieceB (F := Ideal) c i arg3 harg3 arg4 harg4 arg5 harg5 hc0 x0 x1 xo2) (ix3 (0 : Fin 1) p f)).trans ?_
  exact pay2_apply i x1 x0 xo2 p f

end Cert.KernelIdeal.Region1Body

end
-- ==== Proof.Region1.lean ====
/-
  What one aggregation kernel leaves in its output array: at half `cc`, row `r`, column `f`, the sum over the
  half's 156 chunks of 4096 positions of the one-hot entry of the row against the position's destination word
  times the position's message.
-/
import proofs.«409195_j4758823764089_3_alg».proof.Proof.Gen.KernelIdeal.Frame
import proofs.«409195_j4758823764089_3_alg».proof.Proof.GcnSpec
import proofs.«409195_j4758823764089_3_alg».proof.Proof.Region1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Cert.KernelIdeal.Region1Body
open scoped BigOperators

variable (V : (c : Dev nD) → (b : Ref sig .tc) → Buf (Elt Ideal) ((c : Thread nD τ).loc b))

/-- The padded messages as the kernel finds them. -/
def msgs (c : Dev nD) : Fin 1277952 → Fin 16 → EReal := fun e f => (V c main_v59 : S1277952x16.Idx → EReal) (ix2 e f)
/-- The padded destination words as the kernel finds them. -/
def dsts (c : Dev nD) : Fin 1277952 → BitVec 32 := fun e => (V c main_v36 : S1277952.Idx → BitVec 32) (ix1 e)

/-- The chunk of destination words the kernel holds at a point. -/
abbrev dblk (c : Dev nD) (t : Fin cfg1.N) : Vec Ideal S4096 .i32 := iblk1 (F := Ideal) V c 1 t
/-- The chunk of messages the kernel holds at a point. -/
abbrev mblk (c : Dev nD) (t : Fin cfg1.N) : Vec Ideal S4096x16 .bf16 := iblk1 (F := Ideal) V c 0 t

/-- The windows' block indices and the tile coordinate at every point `t = (cc * 25 + j) * 156 + i` of the grid
    (2, 25, 156): the messages' and the destination words' block is chunk `cc * 156 + i`, the output's block is
    tile `j` of half `cc`. Decided over the grid's 7800 points. -/
theorem idx_facts : ∀ t : Fin cfg1.N,
    win1_0.index t (0 : Fin 2) = t.val / 3900 * 156 + t.val % 156
    ∧ win1_0.index t (1 : Fin 2) = 0
    ∧ win1_1.index t (0 : Fin 1) = t.val / 3900 * 156 + t.val % 156
    ∧ win1_2.index t (0 : Fin 3) = t.val / 3900
    ∧ win1_2.index t (1 : Fin 3) = t.val / 156 % 25
    ∧ win1_2.index t (2 : Fin 3) = 0
    ∧ (grid1.coords t (1 : Fin 3)).val = t.val / 156 % 25 :=
  (by decide +kernel : ∀ t : Fin grid1.N, _)

/-- A message of the chunk held at a point is the message at the chunk's position in the padded list: the chunk is
    block `(t / 3900) * 156 + t % 156` of 4096 rows, so its row `k` is row `block * 4096 + k`. -/
theorem mblk_apply (c : Dev nD) (t : Fin cfg1.N) (k : Fin 4096) (f : Fin 16) (e : Fin 1277952)
    (he : e.val = (t.val / 3900 * 156 + t.val % 156) * 4096 + k.val) :
    (mblk V c t (ix2 k f) : EReal) = msgs V c e f := by
  obtain ⟨e0, e1, -⟩ := idx_facts t
  unfold msgs
  show (iblk1 (F := Ideal) V c 0 t) (ix2 k f) = _
  unfold iblk1
  rw [View.read_apply]
  show V c main_v59 _ = V c main_v59 _
  congr 1
  funext a
  apply Fin.ext
  match a with
  | ⟨0, _⟩ => show win1_0.index t (0 : Fin 2) * 4096 + 1 * k.val = e.val; rw [e0, he]; omega
  | ⟨1, _⟩ => show win1_0.index t (1 : Fin 2) * 16 + 1 * f.val = f.val; rw [e1]; omega

/-- A destination word of the chunk held at a point is the word at the chunk's position in the padded list. -/
theorem dblk_apply (c : Dev nD) (t : Fin cfg1.N) (k : Fin 4096) (e : Fin 1277952)
    (he : e.val = (t.val / 3900 * 156 + t.val % 156) * 4096 + k.val) :
    (dblk V c t (ix1 k) : BitVec 32) = dsts V c e := by
  obtain ⟨-, -, e2, -⟩ := idx_facts t
  unfold dsts
  show (iblk1 (F := Ideal) V c 1 t) (ix1 k) = _
  unfold iblk1
  rw [View.read_apply]
  show V c main_v36 _ = V c main_v36 _
  congr 1
  funext a
  apply Fin.ext
  match a with
  | ⟨0, _⟩ => show win1_1.index t (0 : Fin 1) * 4096 + 1 * k.val = e.val; rw [e2, he]; omega

/-- One chunk's one-hot product, its words and messages named by their positions: at row `r = j * 3072 + p` it is the
    sum over the chunk's lanes of the row's one-hot entry against the lane's destination word times the lane's message. -/
theorem chunk_eq_of (d : Vec Ideal S4096 .i32) (M : Vec Ideal S4096x16 .bf16) (f : Fin 16)
    (dP : Fin 4096 → BitVec 32) (mP : Fin 4096 → EReal)
    (hd : ∀ k : Fin 4096, (d (ix1 k) : BitVec 32) = dP k) (hM : ∀ k : Fin 4096, (M (ix2 k f) : EReal) = mP k)
    (j : ℕ) (p : Fin 3072) (r : Fin 76800) (hr : r.val = j * 3072 + p.val) :
    chunk d M j p f = ∑ k : Fin 4096, Cert.Gcn.hot (dP k) r * mP k := by
  have h1 : r.val % 3072 = p.val := by have := p.isLt; omega
  have h2 : r.val / 3072 = j := by have := p.isLt; omega
  unfold chunk Cert.Gcn.hot
  refine Finset.sum_congr rfl fun k _ => ?_
  rw [hd k, hM k, h1, h2]

/-- What one point adds to its tile's block at lane `p`, column `f` (nothing past the grid). -/
def addend (c : Dev nD) (n : ℕ) (p : Fin 3072) (f : Fin 16) : EReal :=
  if h : n < cfg1.N then
    chunk (dblk V c ⟨n, h⟩) (mblk V c ⟨n, h⟩) (grid1.coords ⟨n, h⟩ (1 : Fin 3)).val p f
  else 0

/-- Inside one run of 156 points, the block after the point at offset `s` holds zero plus the addends of the run's
    points so far: the first point zeroes the block and adds, every later one adds to what the point before left. -/
theorem outs_run (c : Dev nD) (q : ℕ) (p : Fin 3072) (f : Fin 16) :
    ∀ (s : ℕ) (hs : s < 156) (h : 156 * q + s < cfg1.N),
      (outsAt1 (F := Ideal) V c (156 * q + s) h (ix3 (0 : Fin 1) p f) : EReal)
        = 0 + ∑ s' ∈ Finset.range (s + 1), addend V c (156 * q + s') p f
  | 0, _, h => by
    have h0 : (⟨156 * q + 0, h⟩ : Fin cfg1.N).val % 156 = 0 := by dsimp only; omega
    rw [Finset.sum_range_one]
    refine (congrFun (outsAt1_A V c ⟨156 * q + 0, h⟩ h0) (ix3 (0 : Fin 1) p f)).trans ?_
    refine (outA c (grid1.coords ⟨156 * q + 0, h⟩) (ms1_0 ⟨156 * q + 0, h⟩) (hs1_0 ⟨156 * q + 0, h⟩)
      (ms1_1 ⟨156 * q + 0, h⟩) (hs1_1 ⟨156 * q + 0, h⟩) (ms1_2 ⟨156 * q + 0, h⟩) (hs1_2 ⟨156 * q + 0, h⟩)
      ((hcond1_0 ⟨156 * q + 0, h⟩).mpr h0) (iblk1 (F := Ideal) V c 0 ⟨156 * q + 0, h⟩)
      (iblk1 (F := Ideal) V c 1 ⟨156 * q + 0, h⟩) p f).trans ?_
    unfold addend
    rw [dif_pos h]
  | s + 1, hs, h => by
    have hne : ¬(⟨156 * q + (s + 1), h⟩ : Fin cfg1.N).val % 156 = 0 := by dsimp only; omega
    have ih := outs_run c q p f s (Nat.lt_of_succ_lt hs) (Nat.lt_of_succ_lt h)
    have hsum : (0 : EReal) + ∑ s' ∈ Finset.range (s + 1 + 1), addend V c (156 * q + s') p f
        = (0 + ∑ s' ∈ Finset.range (s + 1), addend V c (156 * q + s') p f) + addend V c (156 * q + (s + 1)) p f := by
      rw [Finset.sum_range_succ _ (s + 1), add_assoc (0 : EReal)]
    rw [hsum, ← ih]
    refine (congrFun (outsAt1_B V c ⟨156 * q + (s + 1), h⟩ hne) (ix3 (0 : Fin 1) p f)).trans ?_
    refine (outB c (grid1.coords ⟨156 * q + (s + 1), h⟩) (ms1_0 ⟨156 * q + (s + 1), h⟩) (hs1_0 ⟨156 * q + (s + 1), h⟩)
      (ms1_1 ⟨156 * q + (s + 1), h⟩) (hs1_1 ⟨156 * q + (s + 1), h⟩) (ms1_2 ⟨156 * q + (s + 1), h⟩)
      (hs1_2 ⟨156 * q + (s + 1), h⟩) (fun hc => hne ((hcond1_0 ⟨156 * q + (s + 1), h⟩).mp hc))
      (iblk1 (F := Ideal) V c 0 ⟨156 * q + (s + 1), h⟩) (iblk1 (F := Ideal) V c 1 ⟨156 * q + (s + 1), h⟩)
      (outsAt1 (F := Ideal) V c (156 * q + s) (Nat.lt_of_succ_lt h)) p f).trans ?_
    unfold addend
    rw [dif_pos h]

/-- What the block holds after a point depends on the point's number only. -/
theorem outs_same (c : Dev nD) (n n' : ℕ) (h : n < cfg1.N) (h' : n' < cfg1.N) (e : n = n') :
    outsAt1 (F := Ideal) V c n h = outsAt1 (F := Ideal) V c n' h' := by
  subst e; rfl

/-- At the last point of a run — the point that writes the block back — the block holds, at lane `p` of its tile and
    column `f`, the half's output at row `tile * 3072 + p`: the run's 156 points are the half's 156 chunks, each
    adding its one-hot product. -/
theorem flush_value (c : Dev nD) (t : Fin cfg1.N) (h155 : t.val % 156 = 155) (p : Fin 3072) (f : Fin 16)
    (cc : Fin 2) (r : Fin 76800) (hcc : cc.val = t.val / 3900) (hr : r.val = t.val / 156 % 25 * 3072 + p.val) :
    (outsAt1 (F := Ideal) V c t.val t.isLt (ix3 (0 : Fin 1) p f) : EReal)
      = Cert.Gcn.regionOut (msgs V c) (dsts V c) cc r f := by
  have hN' : cfg1.N = 7800 := N_1
  have hN : t.val < 7800 := lt_of_lt_of_eq t.isLt hN'
  have hq : 156 * (t.val / 156) + 155 = t.val := by omega
  have hb : 156 * (t.val / 156) + 155 < cfg1.N := by rw [hq]; exact t.isLt
  rw [outs_same V c t.val (156 * (t.val / 156) + 155) t.isLt hb hq.symm,
    outs_run V c (t.val / 156) p f 155 (by decide) hb, zero_add]
  unfold Cert.Gcn.regionOut
  rw [Finset.sum_range]
  refine Finset.sum_congr rfl fun i _ => ?_
  have hil : i.val < 156 := i.isLt
  have hi : 156 * (t.val / 156) + i.val < cfg1.N := lt_of_lt_of_eq (by omega) hN'.symm
  unfold addend
  rw [dif_pos hi]
  obtain ⟨-, -, -, -, -, -, e6⟩ := idx_facts ⟨156 * (t.val / 156) + i.val, hi⟩
  have e6' : (grid1.coords ⟨156 * (t.val / 156) + i.val, hi⟩ (1 : Fin 3)).val = (156 * (t.val / 156) + i.val) / 156 % 25 := e6
  refine chunk_eq_of (dblk V c ⟨156 * (t.val / 156) + i.val, hi⟩) (mblk V c ⟨156 * (t.val / 156) + i.val, hi⟩) f
    (fun k => dsts V c (Cert.Gcn.ePos cc i k)) (fun k => msgs V c (Cert.Gcn.ePos cc i k) f)
    (fun k => dblk_apply V c ⟨156 * (t.val / 156) + i.val, hi⟩ k (Cert.Gcn.ePos cc i k) ?_)
    (fun k => mblk_apply V c ⟨156 * (t.val / 156) + i.val, hi⟩ k f (Cert.Gcn.ePos cc i k) ?_)
    (grid1.coords ⟨156 * (t.val / 156) + i.val, hi⟩ (1 : Fin 3)).val p r ?_
  · show (cc.val * 156 + i.val) * 4096 + k.val
      = ((156 * (t.val / 156) + i.val) / 3900 * 156 + (156 * (t.val / 156) + i.val) % 156) * 4096 + k.val
    have a1 : (156 * (t.val / 156) + i.val) / 3900 = t.val / 3900 := by omega
    have a2 : (156 * (t.val / 156) + i.val) % 156 = i.val := by omega
    rw [a1, a2, hcc]
  · show (cc.val * 156 + i.val) * 4096 + k.val
      = ((156 * (t.val / 156) + i.val) / 3900 * 156 + (156 * (t.val / 156) + i.val) % 156) * 4096 + k.val
    have a1 : (156 * (t.val / 156) + i.val) / 3900 = t.val / 3900 := by omega
    have a2 : (156 * (t.val / 156) + i.val) % 156 = i.val := by omega
    rw [a1, a2, hcc]
  · rw [e6', hr]
    have a3 : (156 * (t.val / 156) + i.val) / 156 = t.val / 156 := by omega
    rw [a3]

/-- What the output array ends holding: at half `cc`, row `r`, column `f` the half's output there. -/
def G (c : Dev nD) : S2x76800x16.Idx → EReal :=
  fun idx => Cert.Gcn.regionOut (msgs V c) (dsts V c) (idx 0) (idx 1) (idx 2)

/-- What a writing-back point's block holds at an element is the whole-array function at the element's place in the
    array: the block is tile `t / 156 % 25` of half `t / 3900`, so its lane `p` is row `tile * 3072 + p`. -/
theorem flushed_at (c : Dev nD) (t : Fin cfg1.N) (h155 : t.val % 156 = 155) (y0 : Fin 1) (p : Fin 3072) (f : Fin 16) :
    (outsAt1 (F := Ideal) V c t.val t.isLt (ix3 y0 p f) : EReal)
      = G V c (((cfg1.win 2).blk t).view.emb (ix3 y0 p f)) := by
  obtain ⟨-, -, -, e3, e4, e5, -⟩ := idx_facts t
  have hy0 : y0 = 0 := Subsingleton.elim _ _
  subst hy0
  have hN : t.val < 7800 := lt_of_lt_of_eq t.isLt (show cfg1.N = 7800 from N_1)
  have hp : p.val < 3072 := p.isLt
  unfold G
  have h2 : (((cfg1.win 2).blk t).view.emb (ix3 (0 : Fin 1) p f)) 2 = f := Fin.ext (by
    show win1_2.index t (2 : Fin 3) * 16 + 1 * f.val = f.val
    rw [e5]; omega)
  rw [h2]
  refine flush_value V c t h155 p f _ _ ?_ ?_
  · show win1_2.index t (0 : Fin 3) * 1 + 1 * 0 = t.val / 3900
    rw [e3]; omega
  · show win1_2.index t (1 : Fin 3) * 3072 + 1 * p.val = t.val / 156 % 25 * 3072 + p.val
    rw [e4]; omega

/-- What a writing-back point writes back is its block of the whole-array function. -/
theorem flushed_eq (c : Dev nD) (t : Fin cfg1.N) (hf : (cfg1.win 2).flush t = true) :
    (Gen.dat1 (F := Ideal) V c).flushed 2 t = ((cfg1.win 2).blk t).view.read (Elt Ideal) (G V c) := by
  have h155 : t.val % 156 = 155 := (flush1_2 t).mp hf
  show (cfg1.win 2).cut (grid1.coords t) ((Gen.dat1 (F := Ideal) V c).after 2 t) = _
  rw [after1_2]
  funext y
  obtain ⟨y0, p, f, rfl⟩ : ∃ (y0 : Fin 1) (p : Fin 3072) (f : Fin 16), y = ix3 y0 p f :=
    ⟨y 0, y 1, y 2, @eq_ix3 1 3072 16 y⟩
  rw [View.read_apply]
  exact flushed_at V c t h155 y0 p f

/-- An index of the array lies in a point's block exactly when each coordinate lies in the block's range on its axis. -/
theorem mem_blk (t : Fin cfg1.N) (i : S2x76800x16.Idx) :
    i ∈ ((cfg1.win 2).blk t).view.set ↔ ∀ a : Fin 3, win1_2.index t a * S1x3072x16.size a ≤ (i a).val
      ∧ (i a).val < win1_2.index t a * S1x3072x16.size a + S1x3072x16.size a := by
  show i ∈ ((View.whole main_v60).slice (win1_2.rect t)).set ↔ _
  rw [View.set_slice_whole, Rect.mem_set_unit]
  exact Iff.rfl

/-- Every index of the array lies in the block of a writing-back point: row `r` of half `cc` in the block the last
    point of the run of tile `r / 3072` of that half writes back. -/
theorem cover (i : S2x76800x16.Idx) :
    ∃ t : Fin cfg1.N, (cfg1.win 2).flush t = true ∧ i ∈ ((cfg1.win 2).blk t).view.set := by
  have h0 : (i 0).val < 2 := (i 0).isLt
  have h1 : (i 1).val < 76800 := (i 1).isLt
  have h2 : (i 2).val < 16 := (i 2).isLt
  have hN' : cfg1.N = 7800 := N_1
  have hn : ((i 0).val * 25 + (i 1).val / 3072) * 156 + 155 < cfg1.N := lt_of_lt_of_eq (by omega) hN'.symm
  refine ⟨⟨((i 0).val * 25 + (i 1).val / 3072) * 156 + 155, hn⟩, (flush1_2 _).mpr (by dsimp only; omega), ?_⟩
  obtain ⟨-, -, -, e3, e4, e5, -⟩ := idx_facts ⟨((i 0).val * 25 + (i 1).val / 3072) * 156 + 155, hn⟩
  have e3' : win1_2.index ⟨((i 0).val * 25 + (i 1).val / 3072) * 156 + 155, hn⟩ (0 : Fin 3)
      = (((i 0).val * 25 + (i 1).val / 3072) * 156 + 155) / 3900 := e3
  have e4' : win1_2.index ⟨((i 0).val * 25 + (i 1).val / 3072) * 156 + 155, hn⟩ (1 : Fin 3)
      = (((i 0).val * 25 + (i 1).val / 3072) * 156 + 155) / 156 % 25 := e4
  rw [mem_blk]
  intro a
  match a with
  | ⟨0, _⟩ =>
    show win1_2.index ⟨((i 0).val * 25 + (i 1).val / 3072) * 156 + 155, hn⟩ (0 : Fin 3) * 1 ≤ (i 0).val
      ∧ (i 0).val < win1_2.index ⟨((i 0).val * 25 + (i 1).val / 3072) * 156 + 155, hn⟩ (0 : Fin 3) * 1 + 1
    rw [e3']; omega
  | ⟨1, _⟩ =>
    show win1_2.index ⟨((i 0).val * 25 + (i 1).val / 3072) * 156 + 155, hn⟩ (1 : Fin 3) * 3072 ≤ (i 1).val
      ∧ (i 1).val < win1_2.index ⟨((i 0).val * 25 + (i 1).val / 3072) * 156 + 155, hn⟩ (1 : Fin 3) * 3072 + 3072
    rw [e4']; omega
  | ⟨2, _⟩ =>
    show win1_2.index ⟨((i 0).val * 25 + (i 1).val / 3072) * 156 + 155, hn⟩ (2 : Fin 3) * 16 ≤ (i 2).val
      ∧ (i 2).val < win1_2.index ⟨((i 0).val * 25 + (i 1).val / 3072) * 156 + 155, hn⟩ (2 : Fin 3) * 16 + 16
    rw [e5]; omega

/-- So the output array ends holding the whole-array function. -/
theorem final (c : Dev nD) : (Gen.dat1 (F := Ideal) V c).arrAt 2 cfg1.N = G V c :=
  (Gen.dat1 (F := Ideal) V c).arrAt_eq_of_cover 2 (G V c) (flushed_eq V c) cover

/-- The output array after the kernel, read at an index. -/
theorem arr_apply (c : Dev nD) (cc : Fin 2) (r : Fin 76800) (f : Fin 16) :
    ((Gen.dat1 (F := Ideal) V c).arrAt 2 cfg1.N : S2x76800x16.Idx → EReal) (ix3 cc r f)
      = Cert.Gcn.regionOut (msgs V c) (dsts V c) cc r f := by
  rw [final V c]
  rfl

end Cert.KernelIdeal.Region1

end
-- ==== Proof.KHost2.lean ====
/-
  Layer 2 of the graph convolution on the kernel's side, read off the host operations around its aggregation
  kernel: the padded destination words are the destination words followed by -1; a real position's padded message is
  the row of features its source word names, times the edge's normalisation factor; and the layer's output at a row is
  the two halves of the kernel's output added, plus the bias.
-/
import proofs.«409195_j4758823764089_3_alg».proof.Proof.KNames
import proofs.«409195_j4758823764089_3_alg».proof.Proof.Region1
import proofs.«409195_j4758823764089_3_alg».proof.Proof.GcnSpec
import proofs.«409195_j4758823764089_3_alg».proof.Proof.LibRowGatherScatter
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Run

set_option maxRecDepth 16384

noncomputable section

namespace Cert.KernelIdeal.Host2

open Idealize.ShloMosaic Idealize.ShloMosaic.TcCoe Idealize.ShloMosaic.ValueIdx Idealize.SL.Sem
open Cert.KernelIdeal Cert.KernelIdeal.Gen
open Cert.KernelIdeal.KN

variable (m : (ℓ : Loc nD τ sig) → Buf (Elt Ideal) ℓ) (ρ : Dev nD → PrngReg) (c : Dev nD)

/-- One stretch that does not write a buffer leaves it. -/
macro "carry_step " ops:ident : tactic => `(tactic|
  exact StableHlo.after_of_forall_not_mem _ _ (List.forall_iff_forall_mem.mp (by
    simp only [$ops:ident, hostOps1_3, List.take_succ_cons, List.take_zero, List.drop_succ_cons, List.drop_zero,
      List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The padded destination words -/

/-- The destination words are written once, in the first stretch. -/
theorem v6_W4 : W4 m ρ c (Proc.devRef .tc main_v6) = W1 m ρ c (Proc.devRef .tc main_v6) :=
  calc W4 m ρ c (Proc.devRef .tc main_v6)
    _ = W3 m ρ c (Proc.devRef .tc main_v6) := by carry_step hostOps0_3
    _ = W2 m ρ c (Proc.devRef .tc main_v6) := by carry_step hostOps0_2
    _ = W1 m ρ c (Proc.devRef .tc main_v6) := by carry_step hostOps0_1

/-- The first kernel reads the padded destination words and never writes them back: after it they are as entered. -/
theorem v36_W12 : W12 m ρ c (Proc.devRef .tc main_v36) = W11 m ρ c (Proc.devRef .tc main_v36) :=
  (W12_arr m ρ c 1).trans (((dat0 (V11 m ρ) c).arrAt_in 1 rfl cfg0.N).trans (A_eq0 (V11 m ρ) c 1))

/-- The padded destination words are written once, by their padding. -/
theorem v36_W17 : W17 m ρ c (Proc.devRef .tc main_v36) = W6 m ρ c (Proc.devRef .tc main_v36) :=
  calc W17 m ρ c (Proc.devRef .tc main_v36)
    _ = W16 m ρ c (Proc.devRef .tc main_v36) := by carry_step hostOps1_4
    _ = W15 m ρ c (Proc.devRef .tc main_v36) := by carry_step hostOps1_3
    _ = W14 m ρ c (Proc.devRef .tc main_v36) := by carry_step hostOps1_2
    _ = W13 m ρ c (Proc.devRef .tc main_v36) := by carry_step hostOps1_1
    _ = W12 m ρ c (Proc.devRef .tc main_v36) := by carry_step hostOps1
    _ = W11 m ρ c (Proc.devRef .tc main_v36) := v36_W12 m ρ c
    _ = W10 m ρ c (Proc.devRef .tc main_v36) := by carry_step hostOps0_10
    _ = W9 m ρ c (Proc.devRef .tc main_v36) := by carry_step hostOps0_9
    _ = W8 m ρ c (Proc.devRef .tc main_v36) := by carry_step hostOps0_8
    _ = W7 m ρ c (Proc.devRef .tc main_v36) := by carry_step hostOps0_7
    _ = W6 m ρ c (Proc.devRef .tc main_v36) := by carry_step hostOps0_6

/-- The padding of the destination words, from any contents: the destination words followed by the word of all ones. -/
theorem pad_v36 (V : Valuation τ sig (Elt Ideal)) :
    (StableHlo.after hostOps0_5 (StableHlo.after hostOps0_4 V) (Proc.devRef .tc main_v36) : S1277952.Idx → BitVec 32)
      = pad S1277952 ![0] ![2952] ![0] (V (Proc.devRef .tc main_v6) : S1275000.Idx → BitVec 32)
          (constantI S_ 32 4294967295#32) pads_S1275000_S1277952_029520 h_S_ := by
  after_results
  simp only [StableHlo.TRef.ofBuf, StableHlo.TRef.toBuf, cast_eq]
  rfl

/-- The padded destination words at the second kernel's entry. -/
theorem v36_eq : (W17 m ρ c (Proc.devRef .tc main_v36) : S1277952.Idx → BitVec 32)
      = pad S1277952 ![0] ![2952] ![0] (dstW m ρ c)
          (constantI S_ 32 4294967295#32) pads_S1275000_S1277952_029520 h_S_ := by
  rw [v36_W17]
  show (StableHlo.after hostOps0_5 (StableHlo.after hostOps0_4 (W4 m ρ c)) (Proc.devRef .tc main_v36) : S1277952.Idx → BitVec 32) = _
  rw [pad_v36, v6_W4]

/-- A real position's padded destination word is the edge's. -/
theorem dsts_real (e : Fin 1277952) (h : e.val < 1275000) :
    Cert.KernelIdeal.Region1.dsts (V17 m ρ) c e = dstW m ρ c (ix1 ⟨e.val, h⟩) := by
  show (W17 m ρ c (Proc.devRef .tc main_v36) : S1277952.Idx → BitVec 32) (ix1 e) = _
  rw [v36_eq]
  exact pad_apply_of_inside _ _ _ _ _ _ _ (ix1 e) (ix1 ⟨e.val, h⟩) fun a =>
    match a with
    | ⟨0, _⟩ => by show e.val = 0 + e.val * (0 + 1); omega

/-- A padding position's destination word is -1. -/
theorem dsts_pad (e : Fin 1277952) (h : 1275000 ≤ e.val) :
    Cert.KernelIdeal.Region1.dsts (V17 m ρ) c e = 4294967295#32 := by
  show (W17 m ρ c (Proc.devRef .tc main_v36) : S1277952.Idx → BitVec 32) (ix1 e) = _
  rw [v36_eq]
  rw [pad_apply_of_not_inside (j := ix1 e) (a := 0)]
  · rfl
  · rintro ⟨-, -, h3⟩
    have h3' : (e.val - 0) / 1 < 1275000 := h3
    omega

/-! ## The rows taken -/

/-- The taking of rows, in three parts: the start words; the mask of the start words that name a row; the rows
    gathered, and the fill where the mask is off. -/
abbrev takeA : List (HloOp τ sig (Elt Ideal)) := List.take 8 hostOps1_3
abbrev takeB : List (HloOp τ sig (Elt Ideal)) := List.take 10 (List.drop 8 hostOps1_3)
abbrev takeC : List (HloOp τ sig (Elt Ideal)) := List.drop 18 hostOps1_3

theorem take_cut : (hostOps1_3 : List (HloOp τ sig (Elt Ideal))) = takeA ++ (takeB ++ takeC) := rfl

theorem after_take (V : Valuation τ sig (Elt Ideal)) :
    StableHlo.after hostOps1_3 V = StableHlo.after takeC (StableHlo.after takeB (StableHlo.after takeA V)) := by
  rw [take_cut, StableHlo.after_append, StableHlo.after_append]

/-- The start words of source words: a word with a negative reading moved up by the number of rows, as a column. -/
def startW (x : S1277952.Idx → BitVec 32) : S1277952x1.Idx → BitVec 32 :=
  broadcastInDim S1277952x1 ![0] bcast_S1277952_S1277952x1_0
    (select (cmpi .slt x (broadcastInDim S1277952 ![] bcast_S_S1277952 (constantI S_ 32 0#32)))
      (addi x (broadcastInDim S1277952 ![] bcast_S_S1277952 (constantI S_ 32 75000#32))) x)

/-- The mask of start words: on where the word, read signed, is at least 0 and at most the last row. -/
def maskW (s : S1277952x1.Idx → BitVec 32) : S1277952.Idx → BitVec 1 :=
  Host.reduce IntOp.andi
    (andi (cmpi .sge s (broadcastInDim S1277952x1 ![] bcast_S_S1277952x1 (constantI S_ 32 0#32)))
      (cmpi .sle s (broadcastInDim S1277952x1 ![0, 1] bcast_S1x1_S1277952x1_0_1
        (broadcastInDim S1x1 ![1] bcast_S1_S1x1_1 (constantI S1 32 74999#32)))))
    (constantI S_ 1 1#1) reducesTo_S1277952x1_S1277952_d1 h_S_

/-- The rows taken: the gathered row where the mask is on, the fill elsewhere. -/
def takeW (h : S75000x16.Idx → EReal) (msk : S1277952.Idx → BitVec 1) (s : S1277952x1.Idx → BitVec 32) :
    S1277952x16.Idx → EReal :=
  select (broadcastInDim S1277952x16 ![0] bcast_S1277952_S1277952x16_0 msk)
    (Host.gather gather_S75000x16_S1277952x1_S1277952x16_1_0_n_n_0_1_116 h s)
    (broadcastInDim S1277952x16 ![] bcast_S_S1277952x16 (constant (F := Ideal) S_ .f32 0x7FC00000#32))

section Pieces
variable (V : Valuation τ sig (Elt Ideal))

theorem takeA_v5 :
    (StableHlo.after takeA V (Proc.devRef .tc main_call6_v5) : S1277952x1.Idx → BitVec 32)
      = startW (V (Proc.devRef .tc main_v35)) := by
  simp only [takeA, hostOps1_3, List.take_succ_cons, List.take_zero]
  after_results
  simp only [StableHlo.TRef.ofBuf, StableHlo.TRef.toBuf, cast_eq]
  rfl

theorem takeA_v54 : StableHlo.after takeA V (Proc.devRef .tc main_v54) = V (Proc.devRef .tc main_v54) := by
  carry_step takeA

theorem takeB_v12 :
    (StableHlo.after takeB V (Proc.devRef .tc main_call6_v12) : S1277952.Idx → BitVec 1)
      = maskW (V (Proc.devRef .tc main_call6_v5)) := by
  simp only [takeB, hostOps1_3, List.take_succ_cons, List.take_zero, List.drop_succ_cons, List.drop_zero]
  after_results
  simp only [StableHlo.TRef.ofBuf, StableHlo.TRef.toBuf, cast_eq]
  rfl

theorem takeB_v5 :
    StableHlo.after takeB V (Proc.devRef .tc main_call6_v5) = V (Proc.devRef .tc main_call6_v5) := by
  carry_step takeB

theorem takeB_v54 : StableHlo.after takeB V (Proc.devRef .tc main_v54) = V (Proc.devRef .tc main_v54) := by
  carry_step takeB

theorem takeC_v55 :
    (StableHlo.after takeC V (Proc.devRef .tc main_v55) : S1277952x16.Idx → EReal)
      = takeW (V (Proc.devRef .tc main_v54)) (V (Proc.devRef .tc main_call6_v12)) (V (Proc.devRef .tc main_call6_v5)) := by
  simp only [takeC, hostOps1_3, List.drop_succ_cons, List.drop_zero]
  after_results
  simp only [StableHlo.TRef.ofBuf, StableHlo.TRef.toBuf, cast_eq]
  rfl

/-- The rows taken, from any contents: from the features and the padded source words. -/
theorem take_v55 :
    (StableHlo.after hostOps1_3 V (Proc.devRef .tc main_v55) : S1277952x16.Idx → EReal)
      = takeW (V (Proc.devRef .tc main_v54)) (maskW (startW (V (Proc.devRef .tc main_v35))))
          (startW (V (Proc.devRef .tc main_v35))) := by
  rw [after_take, takeC_v55, takeB_v12, takeB_v5, takeB_v54, takeA_v5, takeA_v54]

/-- The padded messages, from any contents: the rows taken times the padded factors along the columns. -/
theorem mul_v59 :
    (StableHlo.after hostOps1_4 V (Proc.devRef .tc main_v59) : S1277952x16.Idx → EReal)
      = truncf (F := Ideal) .bf16 (mulf (V (Proc.devRef .tc main_v55) : FVec Ideal S1277952x16 .f32)
          (broadcastInDim S1277952x16 ![0, 1] bcast_S1277952x1_S1277952x16_0_1
            (broadcastInDim S1277952x1 ![0] bcast_S1277952_S1277952x1_0 (V (Proc.devRef .tc main_v37)))))
          bitsLt_bf16_f32 := by
  after_results

/-- The padded factors, from any contents. -/
theorem pad_v37 :
    (StableHlo.after hostOps0_7 V (Proc.devRef .tc main_v37) : S1277952.Idx → EReal)
      = pad S1277952 ![0] ![2952] ![0] (V (Proc.devRef .tc main_v34) : S1275000.Idx → EReal)
          (V (Proc.devRef .tc main_cst_10)) pads_S1275000_S1277952_029520 h_S_ := by
  after_results
  simp only [StableHlo.TRef.ofBuf, StableHlo.TRef.toBuf, cast_eq]
  rfl

/-- The padded source words, from any contents. -/
theorem pad_v35 :
    (StableHlo.after hostOps0_3 V (Proc.devRef .tc main_v35) : S1277952.Idx → BitVec 32)
      = pad S1277952 ![0] ![2952] ![0] (V (Proc.devRef .tc main_v5) : S1275000.Idx → BitVec 32)
          (V (Proc.devRef .tc main_c_8)) pads_S1275000_S1277952_029520 h_S_ := by
  after_results
  simp only [StableHlo.TRef.ofBuf, StableHlo.TRef.toBuf, cast_eq]
  rfl

end Pieces

/-! ## Reading at a position -/

/-- A padded list at a real position is the list. -/
theorem pad_real {α : Type} (x : S1275000.Idx → α) (v : S_.Idx → α) (e : Fin 1277952) (h : e.val < 1275000) :
    pad S1277952 ![0] ![2952] ![0] x v pads_S1275000_S1277952_029520 h_S_ (ix1 e) = x (ix1 ⟨e.val, h⟩) :=
  pad_apply_of_inside _ _ _ _ _ _ _ (ix1 e) (ix1 ⟨e.val, h⟩) fun a =>
    match a with
    | ⟨0, _⟩ => by show e.val = 0 + e.val * (0 + 1); omega

/-- The start word at a position is the source word there, moved up by the number of rows when its reading is
    negative. -/
theorem startW_apply (x : S1277952.Idx → BitVec 32) (e : Fin 1277952) :
    startW x (ix2 e 0) = Cert.Gcn.wrapW (x (ix1 e)) := by
  unfold startW
  rw [broadcastInDim_apply _ _ _ (ix2 e 0) (ix1 e) (fun a => match a with | ⟨0, _⟩ => rfl)]
  rfl

/-- The column positions that reduce into a position: the one. -/
theorem drop_filter (e : Fin 1277952) :
    (Finset.univ.filter fun i : S1277952x1.Idx => reducesTo_S1277952x1_S1277952_d1.drop i = ix1 e) = {ix2 e 0} := by
  ext i
  rw [Finset.mem_filter, Finset.mem_singleton]
  simp only [Finset.mem_univ, true_and]
  have h0 : (reducesTo_S1277952x1_S1277952_d1.drop i 0 : ℕ) = (i 0).val :=
    Shape.ReducesTo.drop_apply_val_of_eq _ i 0 0
  constructor
  · intro h
    rw [h] at h0
    have h1 : (i 1).val < 1 := (i 1).isLt
    funext a
    match a with
    | ⟨0, _⟩ => exact Fin.ext h0.symm
    | ⟨1, _⟩ => exact Fin.ext (by show (i 1).val = 0; omega)
  · rintro rfl
    funext a
    match a with
    | ⟨0, _⟩ => exact Fin.ext h0

/-- The mask at a position: the two comparisons of the start word there, and-ed. -/
theorem maskW_apply (s : S1277952x1.Idx → BitVec 32) (e : Fin 1277952) :
    maskW s (ix1 e)
      = IntOp.andi (IntOp.andi (IntOp.cmpi .sge (s (ix2 e 0)) 0#32) (IntOp.cmpi .sle (s (ix2 e 0)) 74999#32)) 1#1 := by
  unfold maskW
  rw [Host.reduce_eq_fold, drop_filter e, Finset.fold_singleton]
  rfl

/-- The rows taken at a position whose start word names a row: that row. -/
theorem takeW_apply (h : S75000x16.Idx → EReal) (x : S1277952.Idx → BitVec 32) (e : Fin 1277952) (f : Fin 16)
    (hin : Cert.Gcn.inRow (Cert.Gcn.wrapW (x (ix1 e)))) :
    takeW h (maskW (startW x)) (startW x) (ix2 e f)
      = h (ix2 (Cert.Gcn.clampRow (Cert.Gcn.wrapW (x (ix1 e)))) f) := by
  have hm : broadcastInDim S1277952x16 ![0] bcast_S1277952_S1277952x16_0 (maskW (startW x)) (ix2 e f) = 1#1 := by
    rw [broadcastInDim_apply _ _ _ (ix2 e f) (ix1 e) (fun a => match a with | ⟨0, _⟩ => rfl)]
    rw [maskW_apply, startW_apply]
    have h1 : IntOp.cmpi .sge (Cert.Gcn.wrapW (x (ix1 e))) 0#32 = 1#1 :=
      IntOp.cmpi_sge.2 (by rw [BitVec.toInt_zero]; exact hin.1)
    have h2 : IntOp.cmpi .sle (Cert.Gcn.wrapW (x (ix1 e))) 74999#32 = 1#1 :=
      IntOp.cmpi_sle.2 (by rw [show (74999#32 : BitVec 32).toInt = 74999 from by decide]; exact hin.2)
    rw [h1, h2]
    rfl
  unfold takeW
  rw [select_apply, hm, select_one]
  rw [Cert.Lib.RowGS.gather_rows_apply (by decide) _ rfl rfl rfl rfl rfl rfl rfl h (startW x) e f]
  refine congrArg (fun r => h (ix2 r f)) (Fin.ext ?_)
  show min (startW x (ix2 e 0)).toInt.toNat (75000 - 1) = min (Cert.Gcn.wrapW (x (ix1 e))).toInt.toNat 74999
  rw [startW_apply]

/-! ## The padded messages at the second kernel's entry -/

/-- The padded factors are written once, by their padding; the first kernel does not touch them. -/
theorem v37_W16 : W16 m ρ c (Proc.devRef .tc main_v37) = W8 m ρ c (Proc.devRef .tc main_v37) :=
  calc W16 m ρ c (Proc.devRef .tc main_v37)
    _ = W15 m ρ c (Proc.devRef .tc main_v37) := by carry_step hostOps1_3
    _ = W14 m ρ c (Proc.devRef .tc main_v37) := by carry_step hostOps1_2
    _ = W13 m ρ c (Proc.devRef .tc main_v37) := by carry_step hostOps1_1
    _ = W12 m ρ c (Proc.devRef .tc main_v37) := by carry_step hostOps1
    _ = W11 m ρ c (Proc.devRef .tc main_v37) := W12_of_ne m ρ c main_v37 (by decide)
    _ = W10 m ρ c (Proc.devRef .tc main_v37) := by carry_step hostOps0_10
    _ = W9 m ρ c (Proc.devRef .tc main_v37) := by carry_step hostOps0_9
    _ = W8 m ρ c (Proc.devRef .tc main_v37) := by carry_step hostOps0_8

/-- The factors are written once, in the third stretch. -/
theorem v34_W7 : W7 m ρ c (Proc.devRef .tc main_v34) = W3 m ρ c (Proc.devRef .tc main_v34) :=
  calc W7 m ρ c (Proc.devRef .tc main_v34)
    _ = W6 m ρ c (Proc.devRef .tc main_v34) := by carry_step hostOps0_6
    _ = W5 m ρ c (Proc.devRef .tc main_v34) := by carry_step hostOps0_5
    _ = W4 m ρ c (Proc.devRef .tc main_v34) := by carry_step hostOps0_4
    _ = W3 m ρ c (Proc.devRef .tc main_v34) := by carry_step hostOps0_3

/-- The padded source words are written once, by their padding; the first kernel does not touch them. -/
theorem v35_W15 : W15 m ρ c (Proc.devRef .tc main_v35) = W4 m ρ c (Proc.devRef .tc main_v35) :=
  calc W15 m ρ c (Proc.devRef .tc main_v35)
    _ = W14 m ρ c (Proc.devRef .tc main_v35) := by carry_step hostOps1_2
    _ = W13 m ρ c (Proc.devRef .tc main_v35) := by carry_step hostOps1_1
    _ = W12 m ρ c (Proc.devRef .tc main_v35) := by carry_step hostOps1
    _ = W11 m ρ c (Proc.devRef .tc main_v35) := W12_of_ne m ρ c main_v35 (by decide)
    _ = W10 m ρ c (Proc.devRef .tc main_v35) := by carry_step hostOps0_10
    _ = W9 m ρ c (Proc.devRef .tc main_v35) := by carry_step hostOps0_9
    _ = W8 m ρ c (Proc.devRef .tc main_v35) := by carry_step hostOps0_8
    _ = W7 m ρ c (Proc.devRef .tc main_v35) := by carry_step hostOps0_7
    _ = W6 m ρ c (Proc.devRef .tc main_v35) := by carry_step hostOps0_6
    _ = W5 m ρ c (Proc.devRef .tc main_v35) := by carry_step hostOps0_5
    _ = W4 m ρ c (Proc.devRef .tc main_v35) := by carry_step hostOps0_4

/-- The source words are written once, in the first stretch. -/
theorem v5_W3 : W3 m ρ c (Proc.devRef .tc main_v5) = W1 m ρ c (Proc.devRef .tc main_v5) :=
  calc W3 m ρ c (Proc.devRef .tc main_v5)
    _ = W2 m ρ c (Proc.devRef .tc main_v5) := by carry_step hostOps0_2
    _ = W1 m ρ c (Proc.devRef .tc main_v5) := by carry_step hostOps0_1

/-- The padded factor at a real position is the edge's. -/
theorem v37_real (e : Fin 1277952) (h : e.val < 1275000) :
    (W16 m ρ c (Proc.devRef .tc main_v37) : S1277952.Idx → EReal) (ix1 e) = nrm m ρ c (ix1 ⟨e.val, h⟩) := by
  rw [v37_W16]
  show (StableHlo.after hostOps0_7 (W7 m ρ c) (Proc.devRef .tc main_v37) : S1277952.Idx → EReal) (ix1 e) = _
  rw [pad_v37, pad_real _ _ e h, v34_W7]

/-- The padded source word at a real position is the edge's. -/
theorem v35_real (e : Fin 1277952) (h : e.val < 1275000) :
    (W15 m ρ c (Proc.devRef .tc main_v35) : S1277952.Idx → BitVec 32) (ix1 e) = srcW m ρ c (ix1 ⟨e.val, h⟩) := by
  rw [v35_W15]
  show (StableHlo.after hostOps0_3 (W3 m ρ c) (Proc.devRef .tc main_v35) : S1277952.Idx → BitVec 32) (ix1 e) = _
  rw [pad_v35, pad_real _ _ e h, v5_W3]

/-- The row taken at a real position whose source word names a row: that row of the features. -/
theorem v55_real (e : Fin 1277952) (h : e.val < 1275000) (f : Fin 16)
    (hin : Cert.Gcn.inRow (Cert.Gcn.wrapW (srcW m ρ c (ix1 ⟨e.val, h⟩)))) :
    (W16 m ρ c (Proc.devRef .tc main_v55) : S1277952x16.Idx → EReal) (ix2 e f)
      = h2 m ρ c (ix2 (Cert.Gcn.clampRow (Cert.Gcn.wrapW (srcW m ρ c (ix1 ⟨e.val, h⟩)))) f) := by
  show (StableHlo.after hostOps1_3 (W15 m ρ c) (Proc.devRef .tc main_v55) : S1277952x16.Idx → EReal) (ix2 e f) = _
  rw [take_v55]
  have hs := v35_real m ρ c e h
  rw [takeW_apply _ _ e f (by rw [hs]; exact hin), hs]

/-- A real position's padded message, when the edge's source word names a row: that row of the features times the
    edge's normalisation factor. -/
theorem msgs_real (e : Fin 1277952) (h : e.val < 1275000) (f : Fin 16)
    (hin : Cert.Gcn.inRow (Cert.Gcn.wrapW (srcW m ρ c (ix1 ⟨e.val, h⟩)))) :
    Cert.KernelIdeal.Region1.msgs (V17 m ρ) c e f
      = h2 m ρ c (ix2 (Cert.Gcn.clampRow (Cert.Gcn.wrapW (srcW m ρ c (ix1 ⟨e.val, h⟩)))) f) * nrm m ρ c (ix1 ⟨e.val, h⟩) := by
  show (StableHlo.after hostOps1_4 (W16 m ρ c) (Proc.devRef .tc main_v59) : S1277952x16.Idx → EReal) (ix2 e f) = _
  rw [mul_v59, truncf_apply, mulf_apply]
  rw [broadcastInDim_apply _ _ _ (ix2 e f) (ix2 e 0) (fun a => match a with | ⟨0, _⟩ => rfl | ⟨1, _⟩ => rfl),
    broadcastInDim_apply _ _ _ (ix2 e 0) (ix1 e) (fun a => match a with | ⟨0, _⟩ => rfl)]
  rw [v37_real m ρ c e h, v55_real m ρ c e h f hin]

/-- A stretch of host operations leaves a buffer it does not write as it was. -/
macro "host_keeps " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-- The last stretch of host operations over any contents at its start: the two halves of the kernel's output, each
    cut to the rows and laid flat, added, plus the bias laid along every row. -/
theorem after_hostOps2_v68 (V : Valuation τ sig (Elt Ideal)) :
    (StableHlo.after hostOps2 V (Proc.devRef .tc main_v68) : S75000x16.Idx → EReal)
      = addf (F := Ideal) (φ := FTy.f32)
          (addf (F := Ideal) (φ := FTy.f32)
            (shapeCast S75000x16 (extractStridedSlice S1x75000x16 ![0, 0, 0] (V (Proc.devRef .tc main_v60) : S2x76800x16.Idx → EReal)
              slices_S2x76800x16_S1x75000x16_0_0_0) shapeCasts_S1x75000x16_S75000x16)
            (shapeCast S75000x16 (extractStridedSlice S1x75000x16 ![1, 0, 0] (V (Proc.devRef .tc main_v60) : S2x76800x16.Idx → EReal)
              slices_S2x76800x16_S1x75000x16_1_0_0) shapeCasts_S1x75000x16_S75000x16))
          (broadcastInDim S75000x16 ![0, 1] bcast_S1x16_S75000x16_0_1
            (broadcastInDim S1x16 ![1] bcast_S16_S1x16_1 (V (Proc.devRef .tc main_arg5) : S16.Idx → EReal))) := by
  dsimp only [hostOps2]
  after_results
  rfl

/-- That sum read at a row and a column: the two halves at the row and the column, added, plus the bias at the column. -/
theorem halves_bias_apply (A : S2x76800x16.Idx → EReal) (b : S16.Idx → EReal) (r : Fin 75000) (f : Fin 16) :
    addf (F := Ideal) (φ := FTy.f32)
        (addf (F := Ideal) (φ := FTy.f32)
          (shapeCast S75000x16 (extractStridedSlice S1x75000x16 ![0, 0, 0] A slices_S2x76800x16_S1x75000x16_0_0_0) shapeCasts_S1x75000x16_S75000x16)
          (shapeCast S75000x16 (extractStridedSlice S1x75000x16 ![1, 0, 0] A slices_S2x76800x16_S1x75000x16_1_0_0) shapeCasts_S1x75000x16_S75000x16))
        (broadcastInDim S75000x16 ![0, 1] bcast_S1x16_S75000x16_0_1 (broadcastInDim S1x16 ![1] bcast_S16_S1x16_1 b)) (ix2 r f)
      = (A (ix3 (0 : Fin 2) (⟨r.val, by have := r.isLt; omega⟩ : Fin 76800) f)
          + A (ix3 (1 : Fin 2) (⟨r.val, by have := r.isLt; omega⟩ : Fin 76800) f)) + b (ix1 f) := by
  have hr := r.isLt
  -- each half: the flat array at (r, f) is the cut at (0, r, f), which is the whole at (half, r, f)
  have e0 : shapeCast S75000x16 (extractStridedSlice S1x75000x16 ![0, 0, 0] A slices_S2x76800x16_S1x75000x16_0_0_0)
      shapeCasts_S1x75000x16_S75000x16 (ix2 r f) = A (ix3 (0 : Fin 2) (⟨r.val, by omega⟩ : Fin 76800) f) :=
    (shapeCast_1ab_ab_apply _ shapeCasts_S1x75000x16_S75000x16 r f).trans
      (extractStridedSlice_apply ![0, 0, 0] A slices_S2x76800x16_S1x75000x16_0_0_0 (ix3 (0 : Fin 1) r f)
        (ix3 (0 : Fin 2) (⟨r.val, by omega⟩ : Fin 76800) f)
        (fun a => match a with | ⟨0, _⟩ => rfl | ⟨1, _⟩ => (Nat.zero_add _).symm | ⟨2, _⟩ => (Nat.zero_add _).symm))
  have e1 : shapeCast S75000x16 (extractStridedSlice S1x75000x16 ![1, 0, 0] A slices_S2x76800x16_S1x75000x16_1_0_0)
      shapeCasts_S1x75000x16_S75000x16 (ix2 r f) = A (ix3 (1 : Fin 2) (⟨r.val, by omega⟩ : Fin 76800) f) :=
    (shapeCast_1ab_ab_apply _ shapeCasts_S1x75000x16_S75000x16 r f).trans
      (extractStridedSlice_apply ![1, 0, 0] A slices_S2x76800x16_S1x75000x16_1_0_0 (ix3 (0 : Fin 1) r f)
        (ix3 (1 : Fin 2) (⟨r.val, by omega⟩ : Fin 76800) f)
        (fun a => match a with | ⟨0, _⟩ => rfl | ⟨1, _⟩ => (Nat.zero_add _).symm | ⟨2, _⟩ => (Nat.zero_add _).symm))
  -- the bias laid along every row, at (r, f), is the bias at f
  have eb : broadcastInDim S75000x16 ![0, 1] bcast_S1x16_S75000x16_0_1 (broadcastInDim S1x16 ![1] bcast_S16_S1x16_1 b) (ix2 r f)
      = b (ix1 f) :=
    (broadcastInDim_apply ![0, 1] bcast_S1x16_S75000x16_0_1 _ (ix2 r f) (ix2 (0 : Fin 1) f)
      (fun a => match a with | ⟨0, _⟩ => rfl | ⟨1, _⟩ => rfl)).trans
      (broadcastInDim_apply ![1] bcast_S16_S1x16_1 b (ix2 (0 : Fin 1) f) (ix1 f) (fun a => match a with | ⟨0, _⟩ => rfl))
  show (_ + _) + _ = _
  rw [e0, e1, eb]

/-- The bias is as launched when the second kernel ends. -/
theorem W18_main_arg5 : W18 m ρ c (Proc.devRef .tc main_arg5) = m ((c : Thread nD τ).loc main_arg5) := by
  have s : W19 m ρ c (Proc.devRef .tc main_arg5) = W18 m ρ c (Proc.devRef .tc main_arg5) := by host_keeps hostOps2
  exact s.symm.trans (W19_main_arg5 m ρ c)

/-- The layer's output at a row: the two halves of the kernel's output added, plus the bias. -/
theorem out2_apply (r : Fin 75000) (f : Fin 16) :
    out2 m ρ c (ix2 r f)
      = (Cert.Gcn.regionOut (Cert.KernelIdeal.Region1.msgs (V17 m ρ) c) (Cert.KernelIdeal.Region1.dsts (V17 m ρ) c) 0 ⟨r.val, by have := r.isLt; omega⟩ f
          + Cert.Gcn.regionOut (Cert.KernelIdeal.Region1.msgs (V17 m ρ) c) (Cert.KernelIdeal.Region1.dsts (V17 m ρ) c) 1 ⟨r.val, by have := r.isLt; omega⟩ f)
        + (m ((c : Thread nD τ).loc main_arg5) : S16.Idx → EReal) (ix1 f) := by
  refine (congrFun (after_hostOps2_v68 (W18 m ρ c)) (ix2 r f)).trans ?_
  refine (halves_bias_apply _ _ r f).trans ?_
  -- the kernel's output array is what its blocks leave; the bias is as launched
  have hA : (W18 m ρ c (Proc.devRef .tc main_v60) : S2x76800x16.Idx → EReal)
      = ((dat1 (V17 m ρ) c).arrAt 2 cfg1.N : S2x76800x16.Idx → EReal) := W18_arr m ρ c 2
  rw [hA, Cert.KernelIdeal.Region1.arr_apply (V17 m ρ) c 0 _ f, Cert.KernelIdeal.Region1.arr_apply (V17 m ρ) c 1 _ f,
    W18_main_arg5 m ρ c]

/-- The product with the second weights, over any contents at its start. -/
theorem after_hostOps1_2_v54 (V : Valuation τ sig (Elt Ideal)) :
    (StableHlo.after hostOps1_2 V (Proc.devRef .tc main_v54) : S75000x16.Idx → EReal)
      = Host.dotGeneral (F := Ideal) (φ₁ := FTy.f32) (φ₂ := FTy.f32) dot_S75000x64_S64x16_S75000x16_1_0_0_1_n_n none
          (V (Proc.devRef .tc main_v53) : S75000x64.Idx → EReal) (V (Proc.devRef .tc main_arg4) : S64x16.Idx → EReal) := by
  dsimp only [hostOps1_2]
  after_results

/-- The rectification, over any contents at its start: the larger of the entry and zero. -/
theorem after_hostOps1_1_v53 (V : Valuation τ sig (Elt Ideal)) :
    (StableHlo.after hostOps1_1 V (Proc.devRef .tc main_v53) : S75000x64.Idx → EReal)
      = maximumf (F := Ideal) (φ := FTy.f32) (V (Proc.devRef .tc main_v52) : S75000x64.Idx → EReal)
          (broadcastInDim S75000x64 ![] bcast_S_S75000x64 (constant (F := Ideal) S_ .f32 0x00000000#32)) := by
  dsimp only [hostOps1_1]
  after_results
  simp only [StableHlo.TRef.ofBuf, StableHlo.TRef.toBuf, cast_eq]

/-- The rectification does not touch the second weights, and they are as launched when it starts. -/
theorem W14_main_arg4 : W14 m ρ c (Proc.devRef .tc main_arg4) = m ((c : Thread nD τ).loc main_arg4) := by
  have s15 : W15 m ρ c (Proc.devRef .tc main_arg4) = W14 m ρ c (Proc.devRef .tc main_arg4) := by host_keeps hostOps1_2
  have s16 : W16 m ρ c (Proc.devRef .tc main_arg4) = W15 m ρ c (Proc.devRef .tc main_arg4) := by host_keeps hostOps1_3
  have s17 : W17 m ρ c (Proc.devRef .tc main_arg4) = W16 m ρ c (Proc.devRef .tc main_arg4) := by host_keeps hostOps1_4
  have s18 : W18 m ρ c (Proc.devRef .tc main_arg4) = W17 m ρ c (Proc.devRef .tc main_arg4) := W18_of_ne m ρ c main_arg4 (by decide)
  have s19 : W19 m ρ c (Proc.devRef .tc main_arg4) = W18 m ρ c (Proc.devRef .tc main_arg4) := by host_keeps hostOps2
  exact (((((s15.symm.trans s16.symm).trans s17.symm).trans s18.symm).trans s19.symm).trans (W19_main_arg4 m ρ c))

/-- The second layer's features: the first output rectified, times the second weights. -/
theorem h2_eq :
    h2 m ρ c = Host.dotGeneral (φ₂ := FTy.f32) dot_S75000x64_S64x16_S75000x16_1_0_0_1_n_n none
      (maximumf (out1 m ρ c) (broadcastInDim S75000x64 ![] bcast_S_S75000x64 (constant (F := Ideal) S_ .f32 0x00000000#32)))
      (m ((c : Thread nD τ).loc main_arg4)) := by
  refine (after_hostOps1_2_v54 (W14 m ρ c)).trans ?_
  have hrelu : (W14 m ρ c (Proc.devRef .tc main_v53) : S75000x64.Idx → EReal)
      = maximumf (F := Ideal) (φ := FTy.f32) (out1 m ρ c)
          (broadcastInDim S75000x64 ![] bcast_S_S75000x64 (constant (F := Ideal) S_ .f32 0x00000000#32)) :=
    after_hostOps1_1_v53 (W13 m ρ c)
  rw [hrelu, W14_main_arg4 m ρ c]

end Cert.KernelIdeal.Host2

end
-- ==== Proof.RVals.lean ====
/-
  The reference graph convolution, layer by layer, read at an index: a layer's output at a row is zero plus the sum,
  over the edges whose destination word read signed is the row, of the source row of the layer's features (the source
  word moved up when negative, then clamped into the rows) times the edge's normalisation factor, plus the bias. The
  second layer rebuilds the edge words and the normalisation factors by the same operations, so they are the first
  layer's.
-/
import proofs.«409195_j4758823764089_3_alg».proof.Proof.RefRead
import proofs.«409195_j4758823764089_3_alg».proof.Proof.GcnSpec
import proofs.«409195_j4758823764089_3_alg».proof.Proof.LibRowGatherScatter
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen Cert.ReferenceIdeal.Read

variable (x0 : (⟨S75000x64, .f32⟩ : BufTy).Contents (Elt Ideal)) (x1 : (⟨S2x1200000, .i32⟩ : BufTy).Contents (Elt Ideal))
  (x2 : (⟨S64x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-! ## Index arithmetic of the broadcasts -/

/-- Column 0 of row `e` of a one-column matrix built from a vector reads the vector at `e`. -/
private theorem col_idx41 (e : Fin 1275000) : idx_main_v41 (ix2 e (0 : Fin 1)) = ix1 e := by
  funext a; match a with | ⟨0, _⟩ => rfl
private theorem col_idx47 (e : Fin 1275000) : idx_main_v47 (ix2 e (0 : Fin 1)) = ix1 e := by
  funext a; match a with | ⟨0, _⟩ => rfl
private theorem col_idx90 (e : Fin 1275000) : idx_main_v90 (ix2 e (0 : Fin 1)) = ix1 e := by
  funext a; match a with | ⟨0, _⟩ => rfl
private theorem col_idx96 (e : Fin 1275000) : idx_main_v96 (ix2 e (0 : Fin 1)) = ix1 e := by
  funext a; match a with | ⟨0, _⟩ => rfl

/-- An edge's factor spread over the 64 columns reads the factor at the edge. -/
private theorem nrm_idx64 (e : Fin 1275000) (f : Fin 64) : idx_main_v43 (idx_main_v44 (ix2 e f)) = ix1 e := by
  funext a; match a with | ⟨0, _⟩ => rfl
/-- An edge's factor spread over the 16 columns reads the factor at the edge. -/
private theorem nrm_idx16 (e : Fin 1275000) (f : Fin 16) : idx_main_v92 (idx_main_v93 (ix2 e f)) = ix1 e := by
  funext a; match a with | ⟨0, _⟩ => rfl
/-- The bias spread over the rows reads the bias at the column. -/
private theorem bias_idx64 (r : Fin 75000) (f : Fin 64) : idx_main_v49 (idx_main_v50 (ix2 r f)) = ix1 f := by
  funext a; match a with | ⟨0, _⟩ => rfl
private theorem bias_idx16 (r : Fin 75000) (f : Fin 16) : idx_main_v98 (idx_main_v99 (ix2 r f)) = ix1 f := by
  funext a; match a with | ⟨0, _⟩ => rfl

/-! ## The start words -/

/-- The first layer's start words are the source words moved up when negative. -/
theorem wrap1 (e : Fin 1275000) :
    val_main_v40 (F := Ideal) x1 (ix1 e) = Cert.Gcn.wrapW (val_main_v6 (F := Ideal) x1 (ix1 e)) := by
  rw [val_main_v40_apply, val_main_v37_apply, val_main_v39_apply, val_main_v36_apply, val_main_v38_apply,
    val_main_c_8_apply, val_main_c_9_apply]
  rfl

/-- The second layer's start words likewise. -/
theorem wrap2 (e : Fin 1275000) :
    val_main_v89 (F := Ideal) x1 (ix1 e) = Cert.Gcn.wrapW (val_main_v55 (F := Ideal) x1 (ix1 e)) := by
  rw [val_main_v89_apply, val_main_v86_apply, val_main_v88_apply, val_main_v85_apply, val_main_v87_apply,
    val_main_c_21_apply, val_main_c_22_apply]
  rfl

/-! ## The second layer rebuilds the first layer's edge words and factors -/

private theorem k54 : val_main_v54 (F := Ideal) = val_main_v5 (F := Ideal) := rfl
private theorem k57 : val_main_v57 (F := Ideal) = val_main_v8 (F := Ideal) := rfl
private theorem k58 : val_main_v58 (F := Ideal) = val_main_v9 (F := Ideal) := rfl
private theorem k60 : val_main_v60 (F := Ideal) = val_main_v11 (F := Ideal) := rfl
private theorem k64 : val_main_v64 (F := Ideal) = val_main_v15 (F := Ideal) := rfl
private theorem k66 : val_main_v66 (F := Ideal) = val_main_v17 (F := Ideal) := rfl
private theorem kc2 : val_main_call2_v1 (F := Ideal) = val_main_call0_v1 (F := Ideal) := rfl
private theorem k70 : val_main_v70 (F := Ideal) = val_main_v21 (F := Ideal) := rfl
private theorem k72 : val_main_v72 (F := Ideal) = val_main_v23 (F := Ideal) := rfl
private theorem k77 : val_main_v77 (F := Ideal) = val_main_v28 (F := Ideal) := rfl
private theorem k79 : val_main_v79 (F := Ideal) = val_main_v30 (F := Ideal) := rfl

/-- The second layer's source words are the first's. -/
theorem again_src : val_main_v55 (F := Ideal) x1 = val_main_v6 (F := Ideal) x1 := by
  unfold val_main_v55 val_main_v6
  rw [k54]

/-- The second layer's destination words are the first's. -/
theorem again_dst : val_main_v56 (F := Ideal) x1 = val_main_v7 (F := Ideal) x1 := by
  unfold val_main_v56 val_main_v7
  rw [k54]

private theorem e62 : val_main_v62 (F := Ideal) x1 = val_main_v13 (F := Ideal) x1 := by
  unfold val_main_v62 val_main_v13 val_main_v59 val_main_v10 val_main_v61 val_main_v12
  rw [again_dst, k58, k60]
private theorem e63 : val_main_v63 (F := Ideal) x1 = val_main_v14 (F := Ideal) x1 := by
  unfold val_main_v63 val_main_v14
  rw [e62]
/-- The degrees. -/
private theorem e65 : val_main_v65 (F := Ideal) x1 = val_main_v16 (F := Ideal) x1 := by
  unfold val_main_v65 val_main_v16
  rw [e63, k57, k64]
/-- The inverse square roots of the degrees. -/
private theorem e69 : val_main_v69 (F := Ideal) x1 = val_main_v20 (F := Ideal) x1 := by
  unfold val_main_v69 val_main_v20 val_main_v67 val_main_v18 val_main_v68 val_main_v19
  rw [e65, k66, kc2]
private theorem e74 : val_main_v74 (F := Ideal) x1 = val_main_v25 (F := Ideal) x1 := by
  unfold val_main_v74 val_main_v25 val_main_v71 val_main_v22 val_main_v73 val_main_v24
  rw [again_src, k70, k72]
private theorem e75 : val_main_v75 (F := Ideal) x1 = val_main_v26 (F := Ideal) x1 := by
  unfold val_main_v75 val_main_v26
  rw [e74]
private theorem e76 : val_main_v76 (F := Ideal) x1 = val_main_v27 (F := Ideal) x1 := by
  unfold val_main_v76 val_main_v27
  rw [e69, e75]
private theorem e81 : val_main_v81 (F := Ideal) x1 = val_main_v32 (F := Ideal) x1 := by
  unfold val_main_v81 val_main_v32 val_main_v78 val_main_v29 val_main_v80 val_main_v31
  rw [again_dst, k77, k79]
private theorem e82 : val_main_v82 (F := Ideal) x1 = val_main_v33 (F := Ideal) x1 := by
  unfold val_main_v82 val_main_v33
  rw [e81]
private theorem e83 : val_main_v83 (F := Ideal) x1 = val_main_v34 (F := Ideal) x1 := by
  unfold val_main_v83 val_main_v34
  rw [e69, e82]

/-- The second layer's normalisation factors are the first's. -/
theorem again_nrm : val_main_v84 (F := Ideal) x1 = val_main_v35 (F := Ideal) x1 := by
  unfold val_main_v84 val_main_v35
  rw [e76, e83]

/-! ## The first layer -/

/-- The destination word of an edge, as the scatter reads it. -/
private theorem dst1 (e : Fin 1275000) :
    val_main_v47 (F := Ideal) x1 (ix2 e (0 : Fin 1)) = val_main_v7 (F := Ideal) x1 (ix1 e) := by
  rw [val_main_v47_apply, col_idx47]

/-- The start word of an edge, as the gather reads it. -/
private theorem start1 (e : Fin 1275000) :
    val_main_v41 (F := Ideal) x1 (ix2 e (0 : Fin 1)) = val_main_v40 (F := Ideal) x1 (ix1 e) := by
  rw [val_main_v41_apply, col_idx41]

/-- The gathered source row of an edge. -/
private theorem row1 (e : Fin 1275000) (f : Fin 64) :
    val_main_v42 (F := Ideal) x0 x1 x2 (ix2 e f)
      = val_main_v4 (F := Ideal) x0 x2 (ix2 (Cert.Gcn.clampRow (val_main_v40 (F := Ideal) x1 (ix1 e))) f) := by
  unfold val_main_v42
  refine (Cert.Lib.RowGS.gather_rows_apply (N := 75000) (D := 64) (E := 1275000) (by omega)
    gather_S75000x64_S1275000x1_S1275000x64_1_0_n_n_0_1_164 rfl rfl rfl rfl rfl rfl rfl
    (val_main_v4 (F := Ideal) x0 x2) (val_main_v41 (F := Ideal) x1) e f).trans ?_
  exact congrArg (fun w => val_main_v4 (F := Ideal) x0 x2 (ix2 (Cert.Gcn.clampRow w) f)) (start1 x1 e)

/-- The message of an edge: its source row times its factor. -/
private theorem msg1 (e : Fin 1275000) (f : Fin 64) :
    val_main_v45 (F := Ideal) x0 x1 x2 (ix2 e f)
      = val_main_v4 (F := Ideal) x0 x2 (ix2 (Cert.Gcn.clampRow (val_main_v40 (F := Ideal) x1 (ix1 e))) f)
        * val_main_v35 (F := Ideal) x1 (ix1 e) := by
  rw [val_main_v45_apply, val_main_v44_apply, val_main_v43_apply, nrm_idx64, row1]
  rfl

/-- At the exact reals the accumulating scatter is the operand plus the sums of the colliding updates. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

/-- The bias spread over the rows, at a row. -/
private theorem bias1 (r : Fin 75000) (f : Fin 64) : val_main_v50 (F := Ideal) x3 (ix2 r f) = x3 (ix1 f) := by
  rw [val_main_v50_apply, val_main_v49_apply, bias_idx64]

/-- The matrix the messages are added into is zero. -/
private theorem zero1 (r : Fin 75000) (f : Fin 64) : val_main_v46 (F := Ideal) (ix2 r f) = 0 := by
  rw [val_main_v46_apply, val_main_cst_10_apply]
  exact Ideal.ofBits_zero_f32

/-- The messages added into the rows: zero plus the sum over the edges whose destination word reads as the row. -/
private theorem sum1 (r : Fin 75000) (f : Fin 64) :
    val_main_v48 (F := Ideal) x0 x1 x2 (ix2 r f)
      = 0 + Cert.Gcn.agg (fun e => val_main_v7 (F := Ideal) x1 (ix1 e))
          (fun e f => val_main_v4 (F := Ideal) x0 x2 (ix2 (Cert.Gcn.clampRow (val_main_v40 (F := Ideal) x1 (ix1 e))) f)
            * val_main_v35 (F := Ideal) x1 (ix1 e)) r f := by
  have h := Cert.Lib.RowGS.scatterAdd_rows_apply (N := 75000) (D := 64) (E := 1275000)
    scatter_S75000x64_S1275000x1_S1275000x64_1_0_0_1 rfl rfl rfl rfl
    (val_main_v46 (F := Ideal)) (val_main_v47 (F := Ideal) x1) (val_main_v45 (F := Ideal) x0 x1 x2) r f
  unfold val_main_v48
  rw [scatterAdd_ideal]
  refine h.trans ?_
  unfold Cert.Gcn.agg
  refine congrArg₂ (· + ·) (zero1 r f) (Finset.sum_congr rfl fun e _ => ?_)
  rw [dst1, msg1]

/-- The first layer's output at a row. -/
theorem layer1 (r : Fin 75000) (f : Fin 64) :
    val_main_v51 (F := Ideal) x0 x1 x2 x3 (ix2 r f)
      = (0 + Cert.Gcn.agg (fun e => val_main_v7 (F := Ideal) x1 (ix1 e))
          (fun e f => val_main_v4 (F := Ideal) x0 x2 (ix2 (Cert.Gcn.clampRow (val_main_v40 (F := Ideal) x1 (ix1 e))) f)
            * val_main_v35 (F := Ideal) x1 (ix1 e)) r f)
        + x3 (ix1 f) := by
  rw [val_main_v51_apply, sum1, bias1]
  rfl

/-! ## The second layer -/

/-- The destination word of an edge, as the scatter reads it. -/
private theorem dst2 (e : Fin 1275000) :
    val_main_v96 (F := Ideal) x1 (ix2 e (0 : Fin 1)) = val_main_v56 (F := Ideal) x1 (ix1 e) := by
  rw [val_main_v96_apply, col_idx96]

/-- The start word of an edge, as the gather reads it. -/
private theorem start2 (e : Fin 1275000) :
    val_main_v90 (F := Ideal) x1 (ix2 e (0 : Fin 1)) = val_main_v89 (F := Ideal) x1 (ix1 e) := by
  rw [val_main_v90_apply, col_idx90]

/-- The gathered source row of an edge. -/
private theorem row2 (e : Fin 1275000) (f : Fin 16) :
    val_main_v91 (F := Ideal) x0 x1 x2 x3 x4 (ix2 e f)
      = val_main_v53 (F := Ideal) x0 x1 x2 x3 x4 (ix2 (Cert.Gcn.clampRow (val_main_v89 (F := Ideal) x1 (ix1 e))) f) := by
  unfold val_main_v91
  refine (Cert.Lib.RowGS.gather_rows_apply (N := 75000) (D := 16) (E := 1275000) (by omega)
    gather_S75000x16_S1275000x1_S1275000x16_1_0_n_n_0_1_116 rfl rfl rfl rfl rfl rfl rfl
    (val_main_v53 (F := Ideal) x0 x1 x2 x3 x4) (val_main_v90 (F := Ideal) x1) e f).trans ?_
  exact congrArg (fun w => val_main_v53 (F := Ideal) x0 x1 x2 x3 x4 (ix2 (Cert.Gcn.clampRow w) f)) (start2 x1 e)

/-- The message of an edge: its source row times its factor. -/
private theorem msg2 (e : Fin 1275000) (f : Fin 16) :
    val_main_v94 (F := Ideal) x0 x1 x2 x3 x4 (ix2 e f)
      = val_main_v53 (F := Ideal) x0 x1 x2 x3 x4 (ix2 (Cert.Gcn.clampRow (val_main_v89 (F := Ideal) x1 (ix1 e))) f)
        * val_main_v84 (F := Ideal) x1 (ix1 e) := by
  rw [val_main_v94_apply, val_main_v93_apply, val_main_v92_apply, nrm_idx16, row2]
  rfl

/-- The bias spread over the rows, at a row. -/
private theorem bias2 (r : Fin 75000) (f : Fin 16) : val_main_v99 (F := Ideal) x5 (ix2 r f) = x5 (ix1 f) := by
  rw [val_main_v99_apply, val_main_v98_apply, bias_idx16]

/-- The matrix the messages are added into is zero. -/
private theorem zero2 (r : Fin 75000) (f : Fin 16) : val_main_v95 (F := Ideal) (ix2 r f) = 0 := by
  rw [val_main_v95_apply, val_main_cst_23_apply]
  exact Ideal.ofBits_zero_f32

/-- The messages added into the rows: zero plus the sum over the edges whose destination word reads as the row. -/
private theorem sum2 (r : Fin 75000) (f : Fin 16) :
    val_main_v97 (F := Ideal) x0 x1 x2 x3 x4 (ix2 r f)
      = 0 + Cert.Gcn.agg (fun e => val_main_v56 (F := Ideal) x1 (ix1 e))
          (fun e f => val_main_v53 (F := Ideal) x0 x1 x2 x3 x4 (ix2 (Cert.Gcn.clampRow (val_main_v89 (F := Ideal) x1 (ix1 e))) f)
            * val_main_v84 (F := Ideal) x1 (ix1 e)) r f := by
  have h := Cert.Lib.RowGS.scatterAdd_rows_apply (N := 75000) (D := 16) (E := 1275000)
    scatter_S75000x16_S1275000x1_S1275000x16_1_0_0_1 rfl rfl rfl rfl
    (val_main_v95 (F := Ideal)) (val_main_v96 (F := Ideal) x1) (val_main_v94 (F := Ideal) x0 x1 x2 x3 x4) r f
  unfold val_main_v97
  rw [scatterAdd_ideal]
  refine h.trans ?_
  unfold Cert.Gcn.agg
  refine congrArg₂ (· + ·) (zero2 r f) (Finset.sum_congr rfl fun e _ => ?_)
  rw [dst2, msg2]

/-- The second layer's output at a row. -/
theorem layer2 (r : Fin 75000) (f : Fin 16) :
    val_main_v100 (F := Ideal) x0 x1 x2 x3 x4 x5 (ix2 r f)
      = (0 + Cert.Gcn.agg (fun e => val_main_v56 (F := Ideal) x1 (ix1 e))
          (fun e f => val_main_v53 (F := Ideal) x0 x1 x2 x3 x4 (ix2 (Cert.Gcn.clampRow (val_main_v89 (F := Ideal) x1 (ix1 e))) f)
            * val_main_v84 (F := Ideal) x1 (ix1 e)) r f)
        + x5 (ix1 f) := by
  rw [val_main_v100_apply, sum2, bias2]
  rfl

/-- The second layer's features: the first output rectified, times the second weights. -/
theorem h2_eq :
    val_main_v53 (F := Ideal) x0 x1 x2 x3 x4
      = Host.dotGeneral (φ₂ := FTy.f32) dot_S75000x64_S64x16_S75000x16_1_0_0_1_n_n none
          (maximumf (val_main_v51 (F := Ideal) x0 x1 x2 x3)
            (broadcastInDim S75000x64 ![] bcast_S_S75000x64 (constant (F := Ideal) S_ .f32 0x00000000#32))) x4 := by
  unfold val_main_v53 val_main_v52 val_main_call1_v0 val_main_call1_cst
  rfl

end Cert.ReferenceIdeal.RV

end
-- ==== Proof.SrcRange.lean ====
/-
  Every edge's source word names a row once moved up when negative: a given edge's by the precondition (its word,
  read signed, lies between minus the number of rows and the number of rows), a self loop's because it is the row's
  own number.
-/
import proofs.«409195_j4758823764089_3_alg».proof.Proof.KNames
import proofs.«409195_j4758823764089_3_alg».proof.Proof.GcnSpec
import proofs.«409195_j4758823764089_3_alg».proof.Defs
import proofs.«409195_j4758823764089_3_alg».proof.Proof.Gen.Pre_finite_inputs
import Idealize.ShloMosaic.Lib.Pipeline.Value
import Idealize.ShloMosaic.Lib.ValueIdx
import Idealize.ShloMosaic.Lib.ValueLayout
import Idealize.ShloMosaic.Lib.IdealHost
import Idealize.ShloMosaic.Lib.ReduceAll
import Idealize.ShloMosaic.Lib.StableHlo.Predicate
import Idealize.ShloMosaic.Lib.StableHlo.Run

set_option maxRecDepth 16384

noncomputable section

namespace Cert.KernelIdeal.SrcRange

open Idealize.ShloMosaic Idealize.ShloMosaic.TcCoe Idealize.ShloMosaic.ValueIdx Idealize.SL.Sem
open Cert.KernelIdeal Cert.KernelIdeal.Gen
open Cert.KernelIdeal.KN

variable (m : (ℓ : Loc nD τ sig) → Buf (Elt Ideal) ℓ) (ρ : Dev nD → PrngReg) (c : Dev nD)

/-- What the source buffer holds: the given edges' first row laid flat, then the rows' own numbers. -/
theorem srcW_term :
    srcW m ρ c = concatenate S1275000 0
      [⟨S1200000, shapeCast S1200000 (extractStridedSlice S1x1200000 ![0, 0] (m ((c : Thread nD τ).loc main_arg1))
          slices_S2x1200000_S1x1200000_0_0) shapeCasts_S1x1200000_S1200000⟩,
       ⟨S75000, iotaInDim S75000 32 0⟩] concatenates_S1200000_S75000_S1275000_d0 := by
  show StableHlo.after hostOps0 (W0 m ρ c) (Proc.devRef .tc main_v5) = _
  after_results
  rfl

/-- A given edge's source word is its entry in the first row of the edge list. -/
theorem srcW_left (e : Fin 1275000) (h : e.val < 1200000) :
    srcW m ρ c (ix1 e) = m ((c : Thread nD τ).loc main_arg1) (ix2 (0 : Fin 2) (⟨e.val, h⟩ : Fin 1200000)) := by
  refine (congrFun (srcW_term m ρ c) (ix1 e)).trans ?_
  refine (concatenate_pair_apply_left (0 : Fin S1275000.rank) _ _ concatenates_S1200000_S75000_S1275000_d0 (ix1 e) rfl
    (ix1 (⟨e.val, h⟩ : Fin 1200000)) (fun b => match b with | ⟨0, _⟩ => rfl)).trans ?_
  refine (shapeCast_apply _ shapeCasts_S1x1200000_S1200000 (ix1 (⟨e.val, h⟩ : Fin 1200000))
    (ix2 (0 : Fin 1) (⟨e.val, h⟩ : Fin 1200000)) ?_).trans ?_
  · rw [Shape.rowMajor_val_two, Shape.rowMajor_val_one]
    show 0 * 1200000 + e.val = e.val
    omega
  exact extractStridedSlice_apply _ _ slices_S2x1200000_S1x1200000_0_0 (ix2 (0 : Fin 1) (⟨e.val, h⟩ : Fin 1200000))
    (ix2 (0 : Fin 2) (⟨e.val, h⟩ : Fin 1200000))
    (fun a => match a with | ⟨0, _⟩ => rfl | ⟨1, _⟩ => (Nat.zero_add _).symm)

/-- A self loop's source word is the number of its row. -/
theorem srcW_right (e : Fin 1275000) (h : 1200000 ≤ e.val) :
    srcW m ρ c (ix1 e) = BitVec.ofNat 32 (e.val - 1200000) := by
  have he := e.isLt
  refine (congrFun (srcW_term m ρ c) (ix1 e)).trans ?_
  refine (concatenate_pair_apply_right (0 : Fin S1275000.rank) _ _ concatenates_S1200000_S75000_S1275000_d0 (ix1 e) rfl rfl
    (ix1 (⟨e.val - 1200000, by omega⟩ : Fin 75000)) (fun b hb => match b with | ⟨0, _⟩ => absurd rfl hb) ?_).trans ?_
  · show (e.val - 1200000) + 1200000 = e.val
    omega
  rfl

/-- The shape of one number has one index. -/
local instance : Subsingleton Cert.Pre_finite_inputs.S_.Idx := ⟨fun a b => funext fun d => d.elim0⟩

/-- The two bounds, read signed. -/
theorem toInt_lo : (4294892296#32 : BitVec 32).toInt = -75000 := by decide
theorem toInt_hi : (75000#32 : BitVec 32).toInt = 75000 := by decide

/-- The precondition's last conjunct, read at one edge: the edge's source word, read signed, lies between minus
    the number of rows and the number of rows. -/
theorem fn_range (a0 : FVec Ideal Cert.Pre_finite_inputs.S75000x64 .f32) (a1 : IVec Cert.Pre_finite_inputs.S2x1200000 32)
    (a2 : FVec Ideal Cert.Pre_finite_inputs.S64x64 .f32) (a3 : FVec Ideal Cert.Pre_finite_inputs.S64 .f32)
    (a4 : FVec Ideal Cert.Pre_finite_inputs.S64x16 .f32) (a5 : FVec Ideal Cert.Pre_finite_inputs.S16 .f32)
    (h : Cert.Pre_finite_inputs.fn (F := Ideal) a0 a1 a2 a3 a4 a5 = fun _ => 1#1) (k : Fin 1200000) :
    -75000 ≤ (a1 (ix2 (0 : Fin 2) k)).toInt ∧ (a1 (ix2 (0 : Fin 2) k)).toInt < 75000 := by
  have h0 := congrFun h ValueIdx.ix0
  dsimp only [Cert.Pre_finite_inputs.fn, Cert.Pre_finite_inputs.fn_part1] at h0
  -- the last conjunct: every given edge passes both comparisons
  have h31 := (IntOp.andi_eq_one.1 h0).2
  have hk := Host.reduce_andi_all _ _ _ _ _ h31 (ix2 (0 : Fin 1) k)
  obtain ⟨hge, hlt⟩ := IntOp.andi_eq_one.1 hk
  have hge' := IntOp.cmpi_sge.1 hge
  have hlt' := IntOp.cmpi_slt.1 hlt
  -- the first row of the edge list at column k is the list at (0, k)
  have es := extractStridedSlice_apply (s := Cert.Pre_finite_inputs.S2x1200000) (t := Cert.Pre_finite_inputs.S1x1200000)
    ![0, 0] a1 Cert.Pre_finite_inputs.Facts.slices_S2x1200000_S1x1200000_0_0 (ix2 (0 : Fin 1) k) (ix2 (0 : Fin 2) k)
    (fun a => match a with | ⟨0, _⟩ => rfl | ⟨1, _⟩ => (Nat.zero_add _).symm)
  rw [es] at hge' hlt'
  have hlo : (4294892296#32 : BitVec 32).toInt ≤ (a1 (ix2 (0 : Fin 2) k)).toInt := hge'
  have hhi : (a1 (ix2 (0 : Fin 2) k)).toInt < (75000#32 : BitVec 32).toInt := hlt'
  rw [toInt_lo] at hlo
  rw [toInt_hi] at hhi
  exact ⟨hlo, hhi⟩

/-- The same of the launch memory, under the precondition. -/
theorem pre_range (hpre : Cert.Pre_KernelIdeal (hPre_finite_inputs := Cert.Pre_finite_inputs.Gen.facts) m) (k : Fin 1200000) :
    -75000 ≤ (m ((c : Thread nD τ).loc main_arg1) (ix2 (0 : Fin 2) k)).toInt
      ∧ (m ((c : Thread nD τ).loc main_arg1) (ix2 (0 : Fin 2) k)).toInt < 75000 :=
  fn_range _ (m ((c : Thread nD τ).loc main_arg1)) _ _ _ _ (hpre c) k

/-- Under the precondition every edge's source word, moved up when negative, names a row. -/
theorem src_inRow (hpre : Cert.Pre_KernelIdeal (hPre_finite_inputs := Cert.Pre_finite_inputs.Gen.facts) m) (e : Fin 1275000) :
    Cert.Gcn.inRow (Cert.Gcn.wrapW (srcW m ρ c (ix1 e))) := by
  have he := e.isLt
  by_cases h : e.val < 1200000
  · -- a given edge: its word is in range by the precondition
    rw [srcW_left m ρ c e h]
    exact Cert.Gcn.wrapW_inRow _ (pre_range m c hpre ⟨e.val, h⟩)
  · -- a self loop: its word is its row's number, below the number of rows
    rw [srcW_right m ρ c e (by omega)]
    exact Cert.Gcn.inRow_ofNat _ (by omega)

end Cert.KernelIdeal.SrcRange

end
-- ==== Proof.Shared.lean ====
/-
  The two programs build the edge words, the normalisation factors and the first layer's features by the same
  operations on the same arguments, so these are the same values.
-/
import proofs.«409195_j4758823764089_3_alg».proof.Proof.KNames
import proofs.«409195_j4758823764089_3_alg».proof.Proof.RefRead
import Idealize.ShloMosaic.Lib.StableHlo.Run

set_option maxRecDepth 16384

noncomputable section

namespace Cert.Shared

open Idealize.ShloMosaic Idealize.ShloMosaic.TcCoe Idealize.ShloMosaic.ValueIdx Idealize.SL.Sem Idealize.ShloMosaic.StableHlo

/-- A stretch of host operations leaves a buffer it does not write as it was. -/
macro "kept_by " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The source words. -/
theorem src_eq :
    Cert.KernelIdeal.KN.srcW m ρ c
      = Cert.ReferenceIdeal.Read.val_main_v6 (F := Ideal) (m ((c : Thread Cert.KernelIdeal.nD Cert.KernelIdeal.τ).loc Cert.KernelIdeal.main_arg1)) := by
  dsimp only [Cert.KernelIdeal.KN.srcW, Cert.KernelIdeal.Gen.W1, Cert.KernelIdeal.Gen.hostOps0]
  after_results
  rfl

/-- The destination words. -/
theorem dst_eq :
    Cert.KernelIdeal.KN.dstW m ρ c
      = Cert.ReferenceIdeal.Read.val_main_v7 (F := Ideal) (m ((c : Thread Cert.KernelIdeal.nD Cert.KernelIdeal.τ).loc Cert.KernelIdeal.main_arg1)) := by
  dsimp only [Cert.KernelIdeal.KN.dstW, Cert.KernelIdeal.Gen.W1, Cert.KernelIdeal.Gen.hostOps0]
  after_results
  rfl

/-- The row counts. -/
theorem deg_eq :
    Cert.KernelIdeal.Gen.W1 m ρ c (Proc.devRef .tc Cert.KernelIdeal.main_v15) = Cert.ReferenceIdeal.Read.val_main_v16 (F := Ideal) (m ((c : Thread Cert.KernelIdeal.nD Cert.KernelIdeal.τ).loc Cert.KernelIdeal.main_arg1)) := by
  dsimp only [Cert.KernelIdeal.Gen.W1, Cert.KernelIdeal.Gen.hostOps0]
  after_results
  rfl

/-- Which rows have a positive count. -/
theorem pos_eq :
    Cert.KernelIdeal.Gen.W1 m ρ c (Proc.devRef .tc Cert.KernelIdeal.main_v17) = Cert.ReferenceIdeal.Read.val_main_v18 (F := Ideal) (m ((c : Thread Cert.KernelIdeal.nD Cert.KernelIdeal.τ).loc Cert.KernelIdeal.main_arg1)) := by
  dsimp only [Cert.KernelIdeal.Gen.W1, Cert.KernelIdeal.Gen.hostOps0]
  after_results
  rfl

/-- The counts' inverse square roots. -/
theorem rsq_eq :
    Cert.KernelIdeal.Gen.W1 m ρ c (Proc.devRef .tc Cert.KernelIdeal.main_v18) = Cert.ReferenceIdeal.Read.val_main_v19 (F := Ideal) (m ((c : Thread Cert.KernelIdeal.nD Cert.KernelIdeal.τ).loc Cert.KernelIdeal.main_arg1)) := by
  dsimp only [Cert.KernelIdeal.Gen.W1, Cert.KernelIdeal.Gen.hostOps0]
  after_results
  rfl

/-- The zero the factor of an empty row falls back to. -/
theorem cst3_eq :
    Cert.KernelIdeal.Gen.W1 m ρ c (Proc.devRef .tc Cert.KernelIdeal.main_cst_3) = Cert.ReferenceIdeal.Read.val_main_cst_3 (F := Ideal) := by
  dsimp only [Cert.KernelIdeal.Gen.W1, Cert.KernelIdeal.Gen.hostOps0]
  after_results
  rfl

/-- The normalisation factor of each row: the count's inverse square root where the count is positive, zero elsewhere. -/
theorem dinv_eq :
    Cert.KernelIdeal.Gen.W2 m ρ c (Proc.devRef .tc Cert.KernelIdeal.main_v19) = Cert.ReferenceIdeal.Read.val_main_v20 (F := Ideal) (m ((c : Thread Cert.KernelIdeal.nD Cert.KernelIdeal.τ).loc Cert.KernelIdeal.main_arg1)) := by
  dsimp only [Cert.KernelIdeal.Gen.W2, Cert.KernelIdeal.Gen.hostOps0_1]
  generalize hV : Cert.KernelIdeal.Gen.W1 m ρ c = V
  after_results
  simp only [StableHlo.TRef.ofBuf, StableHlo.TRef.toBuf, cast_eq]
  subst hV
  rw [pos_eq, rsq_eq, cst3_eq]
  rfl

/-- The source and destination words are still there when the edges' factors are formed. -/
theorem src_W2 :
    Cert.KernelIdeal.Gen.W2 m ρ c (Proc.devRef .tc Cert.KernelIdeal.main_v5) = Cert.ReferenceIdeal.Read.val_main_v6 (F := Ideal) (m ((c : Thread Cert.KernelIdeal.nD Cert.KernelIdeal.τ).loc Cert.KernelIdeal.main_arg1)) :=
  Eq.trans (by kept_by Cert.KernelIdeal.Gen.hostOps0_1) (src_eq m ρ c)
theorem dst_W2 :
    Cert.KernelIdeal.Gen.W2 m ρ c (Proc.devRef .tc Cert.KernelIdeal.main_v6) = Cert.ReferenceIdeal.Read.val_main_v7 (F := Ideal) (m ((c : Thread Cert.KernelIdeal.nD Cert.KernelIdeal.τ).loc Cert.KernelIdeal.main_arg1)) :=
  Eq.trans (by kept_by Cert.KernelIdeal.Gen.hostOps0_1) (dst_eq m ρ c)

/-- The normalisation factors. -/
theorem nrm_eq :
    Cert.KernelIdeal.KN.nrm m ρ c
      = Cert.ReferenceIdeal.Read.val_main_v35 (F := Ideal) (m ((c : Thread Cert.KernelIdeal.nD Cert.KernelIdeal.τ).loc Cert.KernelIdeal.main_arg1)) := by
  dsimp only [Cert.KernelIdeal.KN.nrm, Cert.KernelIdeal.Gen.W3, Cert.KernelIdeal.Gen.hostOps0_2]
  generalize hV : Cert.KernelIdeal.Gen.W2 m ρ c = V
  after_results_simp
  subst hV
  rw [dinv_eq, src_W2, dst_W2]
  rfl

/-- No operation before the first product writes the input features or the first weights: they are as launched. -/
theorem arg0_W8 :
    Cert.KernelIdeal.Gen.W8 m ρ c (Proc.devRef .tc Cert.KernelIdeal.main_arg0) = m ((c : Thread Cert.KernelIdeal.nD Cert.KernelIdeal.τ).loc Cert.KernelIdeal.main_arg0) :=
  calc Cert.KernelIdeal.Gen.W8 m ρ c (Proc.devRef .tc Cert.KernelIdeal.main_arg0)
    _ = Cert.KernelIdeal.Gen.W7 m ρ c (Proc.devRef .tc Cert.KernelIdeal.main_arg0) := by kept_by Cert.KernelIdeal.Gen.hostOps0_7
    _ = Cert.KernelIdeal.Gen.W6 m ρ c (Proc.devRef .tc Cert.KernelIdeal.main_arg0) := by kept_by Cert.KernelIdeal.Gen.hostOps0_6
    _ = Cert.KernelIdeal.Gen.W5 m ρ c (Proc.devRef .tc Cert.KernelIdeal.main_arg0) := by kept_by Cert.KernelIdeal.Gen.hostOps0_5
    _ = Cert.KernelIdeal.Gen.W4 m ρ c (Proc.devRef .tc Cert.KernelIdeal.main_arg0) := by kept_by Cert.KernelIdeal.Gen.hostOps0_4
    _ = Cert.KernelIdeal.Gen.W3 m ρ c (Proc.devRef .tc Cert.KernelIdeal.main_arg0) := by kept_by Cert.KernelIdeal.Gen.hostOps0_3
    _ = Cert.KernelIdeal.Gen.W2 m ρ c (Proc.devRef .tc Cert.KernelIdeal.main_arg0) := by kept_by Cert.KernelIdeal.Gen.hostOps0_2
    _ = Cert.KernelIdeal.Gen.W1 m ρ c (Proc.devRef .tc Cert.KernelIdeal.main_arg0) := by kept_by Cert.KernelIdeal.Gen.hostOps0_1
    _ = Cert.KernelIdeal.Gen.W0 m ρ c (Proc.devRef .tc Cert.KernelIdeal.main_arg0) := by kept_by Cert.KernelIdeal.Gen.hostOps0
    _ = m ((c : Thread Cert.KernelIdeal.nD Cert.KernelIdeal.τ).loc Cert.KernelIdeal.main_arg0) := rfl
theorem arg2_W8 :
    Cert.KernelIdeal.Gen.W8 m ρ c (Proc.devRef .tc Cert.KernelIdeal.main_arg2) = m ((c : Thread Cert.KernelIdeal.nD Cert.KernelIdeal.τ).loc Cert.KernelIdeal.main_arg2) :=
  calc Cert.KernelIdeal.Gen.W8 m ρ c (Proc.devRef .tc Cert.KernelIdeal.main_arg2)
    _ = Cert.KernelIdeal.Gen.W7 m ρ c (Proc.devRef .tc Cert.KernelIdeal.main_arg2) := by kept_by Cert.KernelIdeal.Gen.hostOps0_7
    _ = Cert.KernelIdeal.Gen.W6 m ρ c (Proc.devRef .tc Cert.KernelIdeal.main_arg2) := by kept_by Cert.KernelIdeal.Gen.hostOps0_6
    _ = Cert.KernelIdeal.Gen.W5 m ρ c (Proc.devRef .tc Cert.KernelIdeal.main_arg2) := by kept_by Cert.KernelIdeal.Gen.hostOps0_5
    _ = Cert.KernelIdeal.Gen.W4 m ρ c (Proc.devRef .tc Cert.KernelIdeal.main_arg2) := by kept_by Cert.KernelIdeal.Gen.hostOps0_4
    _ = Cert.KernelIdeal.Gen.W3 m ρ c (Proc.devRef .tc Cert.KernelIdeal.main_arg2) := by kept_by Cert.KernelIdeal.Gen.hostOps0_3
    _ = Cert.KernelIdeal.Gen.W2 m ρ c (Proc.devRef .tc Cert.KernelIdeal.main_arg2) := by kept_by Cert.KernelIdeal.Gen.hostOps0_2
    _ = Cert.KernelIdeal.Gen.W1 m ρ c (Proc.devRef .tc Cert.KernelIdeal.main_arg2) := by kept_by Cert.KernelIdeal.Gen.hostOps0_1
    _ = Cert.KernelIdeal.Gen.W0 m ρ c (Proc.devRef .tc Cert.KernelIdeal.main_arg2) := by kept_by Cert.KernelIdeal.Gen.hostOps0
    _ = m ((c : Thread Cert.KernelIdeal.nD Cert.KernelIdeal.τ).loc Cert.KernelIdeal.main_arg2) := rfl

/-- The input features times the first weights. -/
theorem h1_eq :
    Cert.KernelIdeal.KN.h1 m ρ c
      = Cert.ReferenceIdeal.Read.val_main_v4 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.KN.h1, Cert.KernelIdeal.Gen.W9, Cert.KernelIdeal.Gen.hostOps0_8]
  generalize hV : Cert.KernelIdeal.Gen.W8 m ρ c = V
  after_results
  subst hV
  rw [arg0_W8, arg2_W8]
  rfl

end Cert.Shared

end
-- ==== Proof.Bridge.lean ====
/-
  The two graph convolutions end with the same result. In each layer the kernel's side is the two halves of the
  aggregation kernel's output added, plus the bias, which is the sum over the edges whose destination is the row of the
  edge's message (the padding positions never match; a row's edges are met once); the reference's side is zero plus
  that same sum, plus the bias. An edge's message is, on both sides, the row of the layer's features its source word
  names times the edge's normalisation factor: the kernel fills a row whose source word names no row with a filler,
  which under the precondition never happens. The edge words, the normalisation factors and the first features are
  the same values in both programs; the second features are the same function of the first layer's output.
-/
import proofs.«409195_j4758823764089_3_alg».proof.Defs
import proofs.«409195_j4758823764089_3_alg».proof.Proof.KRun
import proofs.«409195_j4758823764089_3_alg».proof.Proof.KHost1
import proofs.«409195_j4758823764089_3_alg».proof.Proof.KHost2
import proofs.«409195_j4758823764089_3_alg».proof.Proof.RVals
import proofs.«409195_j4758823764089_3_alg».proof.Proof.SrcRange
import proofs.«409195_j4758823764089_3_alg».proof.Proof.Shared
import proofs.«409195_j4758823764089_3_alg».proof.Proof.RefRun
import proofs.«409195_j4758823764089_3_alg».proof.Proof.RefRead
import proofs.«409195_j4758823764089_3_alg».proof.Proof.Gen.KernelIdeal
import proofs.«409195_j4758823764089_3_alg».proof.Proof.Gen.ReferenceIdeal
import proofs.«409195_j4758823764089_3_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.KernelIdeal.KN

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The kernel program's arguments, as the reference's stages take them. -/
abbrev a0 := m ((c : Thread Cert.KernelIdeal.nD Cert.KernelIdeal.τ).loc Cert.KernelIdeal.main_arg0)
abbrev a1 := m ((c : Thread Cert.KernelIdeal.nD Cert.KernelIdeal.τ).loc Cert.KernelIdeal.main_arg1)
abbrev a2 := m ((c : Thread Cert.KernelIdeal.nD Cert.KernelIdeal.τ).loc Cert.KernelIdeal.main_arg2)
abbrev a3 := m ((c : Thread Cert.KernelIdeal.nD Cert.KernelIdeal.τ).loc Cert.KernelIdeal.main_arg3)
abbrev a4 := m ((c : Thread Cert.KernelIdeal.nD Cert.KernelIdeal.τ).loc Cert.KernelIdeal.main_arg4)
abbrev a5 := m ((c : Thread Cert.KernelIdeal.nD Cert.KernelIdeal.τ).loc Cert.KernelIdeal.main_arg5)

/-- The first layer's output is the reference's. -/
theorem out1_eq (hpre : Cert.Pre_KernelIdeal (hPre_finite_inputs := Cert.Pre_finite_inputs.Gen.facts) m) :
    out1 m ρ c = Cert.ReferenceIdeal.Read.val_main_v51 (F := Ideal) (a0 m c) (a1 m c) (a2 m c) (a3 m c) := by
  funext idx
  obtain ⟨r, f, rfl⟩ : ∃ (r : Fin 75000) (f : Fin 64), idx = ix2 r f := ⟨idx 0, idx 1, eq_ix2 idx⟩
  rw [Cert.KernelIdeal.Host1.out1_apply m ρ c r f, Cert.ReferenceIdeal.RV.layer1 (a0 m c) (a1 m c) (a2 m c) (a3 m c) r f]
  rw [Cert.Gcn.regionOut_halves (Cert.KernelIdeal.Region0.msgs (Cert.KernelIdeal.Gen.V11 m ρ) c) (Cert.KernelIdeal.Region0.dsts (Cert.KernelIdeal.Gen.V11 m ρ) c)
    (fun e => dstW m ρ c (ix1 e))
    (fun e f => h1 m ρ c (ix2 (Cert.Gcn.clampRow (Cert.Gcn.wrapW (srcW m ρ c (ix1 e)))) f) * nrm m ρ c (ix1 e))
    (fun e h => Cert.KernelIdeal.Host1.dsts_real m ρ c e h) (fun e h => Cert.KernelIdeal.Host1.dsts_pad m ρ c e h)
    (fun e h f => Cert.KernelIdeal.Host1.msgs_real m ρ c e h f (Cert.KernelIdeal.SrcRange.src_inRow m ρ c hpre ⟨e.val, h⟩)) r f]
  rw [zero_add]
  simp only [Cert.ReferenceIdeal.RV.wrap1]
  rw [Cert.Shared.src_eq m ρ c, Cert.Shared.dst_eq m ρ c, Cert.Shared.nrm_eq m ρ c, Cert.Shared.h1_eq m ρ c]

/-- The second layer's features are the reference's. -/
theorem h2_eq (hpre : Cert.Pre_KernelIdeal (hPre_finite_inputs := Cert.Pre_finite_inputs.Gen.facts) m) :
    h2 m ρ c = Cert.ReferenceIdeal.Read.val_main_v53 (F := Ideal) (a0 m c) (a1 m c) (a2 m c) (a3 m c) (a4 m c) := by
  rw [Cert.KernelIdeal.Host2.h2_eq m ρ c, out1_eq m ρ c hpre, Cert.ReferenceIdeal.RV.h2_eq (a0 m c) (a1 m c) (a2 m c) (a3 m c) (a4 m c)]
  rfl

/-- The result is the reference's. -/
theorem out2_eq (hpre : Cert.Pre_KernelIdeal (hPre_finite_inputs := Cert.Pre_finite_inputs.Gen.facts) m) :
    out2 m ρ c = Cert.ReferenceIdeal.Read.val_main_v100 (F := Ideal) (a0 m c) (a1 m c) (a2 m c) (a3 m c) (a4 m c) (a5 m c) := by
  funext idx
  obtain ⟨r, f, rfl⟩ : ∃ (r : Fin 75000) (f : Fin 16), idx = ix2 r f := ⟨idx 0, idx 1, eq_ix2 idx⟩
  rw [Cert.KernelIdeal.Host2.out2_apply m ρ c r f, Cert.ReferenceIdeal.RV.layer2 (a0 m c) (a1 m c) (a2 m c) (a3 m c) (a4 m c) (a5 m c) r f]
  rw [Cert.Gcn.regionOut_halves (Cert.KernelIdeal.Region1.msgs (Cert.KernelIdeal.Gen.V17 m ρ) c) (Cert.KernelIdeal.Region1.dsts (Cert.KernelIdeal.Gen.V17 m ρ) c)
    (fun e => dstW m ρ c (ix1 e))
    (fun e f => h2 m ρ c (ix2 (Cert.Gcn.clampRow (Cert.Gcn.wrapW (srcW m ρ c (ix1 e)))) f) * nrm m ρ c (ix1 e))
    (fun e h => Cert.KernelIdeal.Host2.dsts_real m ρ c e h) (fun e h => Cert.KernelIdeal.Host2.dsts_pad m ρ c e h)
    (fun e h f => Cert.KernelIdeal.Host2.msgs_real m ρ c e h f (Cert.KernelIdeal.SrcRange.src_inRow m ρ c hpre ⟨e.val, h⟩)) r f]
  rw [zero_add]
  simp only [Cert.ReferenceIdeal.RV.wrap2]
  rw [Cert.ReferenceIdeal.RV.again_src, Cert.ReferenceIdeal.RV.again_dst, Cert.ReferenceIdeal.RV.again_nrm]
  rw [Cert.Shared.src_eq m ρ c, Cert.Shared.dst_eq m ρ c, Cert.Shared.nrm_eq m ρ c, h2_eq m ρ c hpre]

/-- At the extended reals the idealized kernel program and the idealized reference, from memories agreeing on the
    arguments, both run and end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W19 m ρ c (Proc.devRef .tc Cert.KernelIdeal.main_v68), Cert.KernelIdeal.RunV.run_result m ρ, ?_⟩
  refine (θ_run Cert.ReferenceIdeal.defs _ _).mono (fun r h c => ⟨(h c).1.trans ?_, (h c).2⟩) (Cert.ReferenceIdeal.Value.run (F := Ideal) m' ρ')
  rw [Cert.ReferenceIdeal.Read.val_main_v100_eq, (hagree c).1, (hagree c).2.1, (hagree c).2.2.1, (hagree c).2.2.2.1, (hagree c).2.2.2.2.1,
    (hagree c).2.2.2.2.2]
  exact (out2_eq m ρ c hpre).symm

end Cert.Bridge

end
-- ==== Proof.lean ====
/-
  A two-layer graph convolution over 75000 nodes and 1200000 edges with self loops, whose aggregation is done by a
  tiled one-hot matrix product accumulated over edge chunks, against the same convolution written with a gather and a
  segment sum. Each layer's output at a row is the sum, over the edges whose destination is the row, of the source
  row of the layer's features times the edge's symmetric normalisation factor, plus the bias: the one-hot product
  selects exactly those edges, padding positions select nothing, and the order in which a row's edges are added does
  not matter on the extended reals. The statement holds for source indices between minus the number of nodes and the
  number of nodes, the range in which indexing is defined; outside it the two sides differ.
  The three programs run, nothing faulting, with their arguments unchanged (the frames); the idealized kernel program
  is the kernel program's own text read over the extended reals (no rewrite was applied); and the idealized kernel
  program and the idealized reference end with the same result.
-/
import proofs.«409195_j4758823764089_3_alg».proof.Defs
import proofs.«409195_j4758823764089_3_alg».proof.Proof.Gen.Kernel
import proofs.«409195_j4758823764089_3_alg».proof.Proof.Gen.Kernel.Skeleton
import proofs.«409195_j4758823764089_3_alg».proof.Proof.Gen.Kernel.Launch
import proofs.«409195_j4758823764089_3_alg».proof.Proof.Gen.Kernel.Points
import proofs.«409195_j4758823764089_3_alg».proof.Proof.Gen.Kernel.Frame
import proofs.«409195_j4758823764089_3_alg».proof.Proof.Gen.KernelIdeal
import proofs.«409195_j4758823764089_3_alg».proof.Proof.Gen.KernelIdeal.Skeleton
import proofs.«409195_j4758823764089_3_alg».proof.Proof.Gen.KernelIdeal.Launch
import proofs.«409195_j4758823764089_3_alg».proof.Proof.Gen.KernelIdeal.Points
import proofs.«409195_j4758823764089_3_alg».proof.Proof.Gen.KernelIdeal.Frame
import proofs.«409195_j4758823764089_3_alg».proof.Proof.Gen.ReferenceIdeal
import proofs.«409195_j4758823764089_3_alg».proof.Proof.Gen.Pre_finite_inputs
import proofs.«409195_j4758823764089_3_alg».proof.Proof.RefRun
import proofs.«409195_j4758823764089_3_alg».proof.Proof.RefRead
import proofs.«409195_j4758823764089_3_alg».proof.Proof.Bridge
import Idealize.ShloMosaic.Adequacy
import Idealize.ShloMosaic.Init

noncomputable section

namespace Cert.Proof

open Idealize.ShloMosaic Idealize.SL.Sem Cert.Kernel

/-- The kernel program, read on words, runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs to its result and leaves its arguments as they were: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Bridge.algebraic⟩

end Cert.Proof

end
